-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x128 : Shape := ⟨2, ![1000, 128]⟩
abbrev S8192x128 : Shape := ⟨2, ![8192, 128]⟩
abbrev S8192 : Shape := ⟨1, ![8192]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1000x128 .f32) (main_arg1 : FVec F S8192x128 .f32) (main_arg2 : IVec S8192 32) : IVec S_ 1 :=
  let main_v0 : FVec F S1000x128 .f32 := Host.absf main_arg0
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 1000#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S1000x128 : Shape := ⟨2, ![1000, 128]⟩
abbrev S8192x128 : Shape := ⟨2, ![8192, 128]⟩
abbrev S8192 : Shape := ⟨1, ![8192]⟩
abbrev S1000 : Shape := ⟨1, ![1000]⟩
abbrev S9192 : Shape := ⟨1, ![9192]⟩
abbrev S_ : Shape := ⟨0, ![]⟩
abbrev S9192x1 : Shape := ⟨2, ![9192, 1]⟩
abbrev S8192x1 : Shape := ⟨2, ![8192, 1]⟩
abbrev S24 : Shape := ⟨1, ![24]⟩
abbrev S9216 : Shape := ⟨1, ![9216]⟩
abbrev S24x128 : Shape := ⟨2, ![24, 128]⟩
abbrev S9216x128 : Shape := ⟨2, ![9216, 128]⟩
abbrev S1x9216 : Shape := ⟨2, ![1, 9216]⟩
abbrev S128x128 : Shape := ⟨2, ![128, 128]⟩
abbrev S128x1 : Shape := ⟨2, ![128, 1]⟩
abbrev S128 : Shape := ⟨1, ![128]⟩
abbrev S128x9216 : Shape := ⟨2, ![128, 9216]⟩

abbrev nBuf : Space → Nat
  | .hbm => 108
  | .vmem => 12
  | .smem => 0
  | _ => 0

abbrev bufTy : (tb : Table) → Fin (tcTables nBuf tb) → BufTy
  | .hbm, ⟨0, _⟩ => ⟨S1000x128, .f32⟩
  | .hbm, ⟨1, _⟩ => ⟨S8192x128, .f32⟩
  | .hbm, ⟨2, _⟩ => ⟨S8192, .i32⟩
  | .hbm, ⟨3, _⟩ => ⟨S1000, .i32⟩
  | .hbm, ⟨4, _⟩ => ⟨S9192, .i32⟩
  | .hbm, ⟨5, _⟩ => ⟨S_, .f32⟩
  | .hbm, ⟨6, _⟩ => ⟨S1000, .f32⟩
  | .hbm, ⟨7, _⟩ => ⟨S_, .i32⟩
  | .hbm, ⟨8, _⟩ => ⟨S9192, .i32⟩
  | .hbm, ⟨9, _⟩ => ⟨S9192, .i1⟩
  | .hbm, ⟨10, _⟩ => ⟨S_, .i32⟩
  | .hbm, ⟨11, _⟩ => ⟨S9192, .i32⟩
  | .hbm, ⟨12, _⟩ => ⟨S9192, .i32⟩
  | .hbm, ⟨13, _⟩ => ⟨S9192, .i32⟩
  | .hbm, ⟨14, _⟩ => ⟨S9192x1, .i32⟩
  | .hbm, ⟨15, _⟩ => ⟨S_, .f32⟩
  | .hbm, ⟨16, _⟩ => ⟨S9192, .f32⟩
  | .hbm, ⟨17, _⟩ => ⟨S1000, .f32⟩
  | .hbm, ⟨18, _⟩ => ⟨S_, .i32⟩
  | .hbm, ⟨19, _⟩ => ⟨S9192, .i32⟩
  | .hbm, ⟨20, _⟩ => ⟨S9192, .i1⟩
  | .hbm, ⟨21, _⟩ => ⟨S_, .i32⟩
  | .hbm, ⟨22, _⟩ => ⟨S9192, .i32⟩
  | .hbm, ⟨23, _⟩ => ⟨S9192, .i32⟩
  | .hbm, ⟨24, _⟩ => ⟨S9192, .i32⟩
  | .hbm, ⟨25, _⟩ => ⟨S9192x1, .i32⟩
  | .hbm, ⟨26, _⟩ => ⟨S9192, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S1000x128, .f32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S1000x128, .f32⟩
  | .hbm, ⟨50, _⟩ => ⟨S1000x128, .f32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S8192, .f32⟩
  | .hbm, ⟨63, _⟩ => ⟨S8192x128, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S_, .i32⟩
  | .hbm, ⟨72, _⟩ => ⟨S24, .i32⟩
  | .hbm, ⟨73, _⟩ => ⟨S9216, .i32⟩
  | .hbm, ⟨74, _⟩ => ⟨S_, .f32⟩
  | .hbm, ⟨75, _⟩ => ⟨S9192, .f32⟩
  | .hbm, ⟨76, _⟩ => ⟨S9192, .f32⟩
  | .hbm, ⟨77, _⟩ => ⟨S_, .f32⟩
  | .hbm, ⟨78, _⟩ => ⟨S24, .f32⟩
  | .hbm, ⟨79, _⟩ => ⟨S9216, .f32⟩
  | .hbm, ⟨80, _⟩ => ⟨S_, .f32⟩
  | .hbm, ⟨81, _⟩ => ⟨S9192, .f32⟩
  | .hbm, ⟨82, _⟩ => ⟨S9192, .f32⟩
  | .hbm, ⟨83, _⟩ => ⟨S_, .f32⟩
  | .hbm, ⟨84, _⟩ => ⟨S9192, .f32⟩
  | .hbm, ⟨85, _⟩ => ⟨S9192, .f32⟩
  | .hbm, ⟨86, _⟩ => ⟨S_, .f32⟩
  | .hbm, ⟨87, _⟩ => ⟨S9192, .f32⟩
  | .hbm, ⟨88, _⟩ => ⟨S9192, .f32⟩
  | .hbm, ⟨89, _⟩ => ⟨S_, .f32⟩
  | .hbm, ⟨90, _⟩ => ⟨S24, .f32⟩
  | .hbm, ⟨91, _⟩ => ⟨S9216, .f32⟩
  | .hbm, ⟨92, _⟩ => ⟨S_, .f32⟩
  | .hbm, ⟨93, _⟩ => ⟨S24x128, .f32⟩
  | .hbm, ⟨94, _⟩ => ⟨S9216x128, .f32⟩
  | .hbm, ⟨95, _⟩ => ⟨S9216x128, .bf16⟩
  | .hbm, ⟨96, _⟩ => ⟨S8192x128, .bf16⟩
  | .hbm, ⟨97, _⟩ => ⟨S8192x1, .i32⟩
  | .hbm, ⟨98, _⟩ => ⟨S8192x1, .f32⟩
  | .hbm, ⟨99, _⟩ => ⟨S1x9216, .i32⟩
  | .hbm, ⟨100, _⟩ => ⟨S1x9216, .f32⟩
  | .hbm, ⟨101, _⟩ => ⟨S1x9216, .f32⟩
  | .hbm, ⟨102, _⟩ => ⟨S8192, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | .local _ .vmem, ⟨6, _⟩ => ⟨S9216x128, .bf16⟩
  | .local _ .vmem, ⟨7, _⟩ => ⟨S1x9216, .i32⟩
  | .local _ .vmem, ⟨8, _⟩ => ⟨S1x9216, .f32⟩
  | .local _ .vmem, ⟨9, _⟩ => ⟨S1x9216, .f32⟩
  | .local _ .vmem, ⟨10, _⟩ => ⟨S128, .f32⟩
  | .local _ .vmem, ⟨11, _⟩ => ⟨S128, .f32⟩
  | _, _ => ⟨S1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_c_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_15 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_cst_17 : Ref sig .tc := ⟨.hbm, 77, rfl⟩
abbrev main_v55 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩
abbrev main_cst_19 : Ref sig .tc := ⟨.hbm, 83, rfl⟩
abbrev main_v59 : Ref sig .tc := ⟨.hbm, 84, rfl⟩
abbrev main_v60 : Ref sig .tc := ⟨.hbm, 85, rfl⟩
abbrev main_cst_20 : Ref sig .tc := ⟨.hbm, 86, rfl⟩
abbrev main_v61 : Ref sig .tc := ⟨.hbm, 87, rfl⟩
abbrev main_v62 : Ref sig .tc := ⟨.hbm, 88, rfl⟩
abbrev main_cst_21 : Ref sig .tc := ⟨.hbm, 89, rfl⟩
abbrev main_v63 : Ref sig .tc := ⟨.hbm, 90, rfl⟩
abbrev main_v64 : Ref sig .tc := ⟨.hbm, 91, rfl⟩
abbrev main_cst_22 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_23 : Ref sig .tc := ⟨.hbm, 103, rfl⟩
abbrev main_v75 : Ref sig .tc := ⟨.hbm, 104, rfl⟩
abbrev main_cst_24 : Ref sig .tc := ⟨.hbm, 105, rfl⟩
abbrev main_v76 : Ref sig .tc := ⟨.hbm, 106, rfl⟩
abbrev main_v77 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9216x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9216 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S8192_S1000_S9192_d0 : Shape.Concatenates [S8192, S1000] S9192 0
  bcast_S_S1000 : S_.BroadcastsInDim S1000 (![] : Fin 0 → Fin S1000.rank)
  bcast_S_S9192 : S_.BroadcastsInDim S9192 (![] : Fin 0 → Fin S9192.rank)
  bcast_S9192_S9192x1_0 : S9192.BroadcastsInDim S9192x1 (![0] : Fin 1 → Fin S9192x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S1000x128 : S_.BroadcastsInDim S1000x128 (![] : Fin 0 → Fin S1000x128.rank)
  reducesTo_S8192x128_S8192_d1 : S8192x128.ReducesTo [1] S8192
  h_S_ : 0 < S_.numel
  bcast_S_S24 : S_.BroadcastsInDim S24 (![] : Fin 0 → Fin S24.rank)
  concatenates_S9192_S24_S9216_d0 : Shape.Concatenates [S9192, S24] S9216 0
  bcast_S_S24x128 : S_.BroadcastsInDim S24x128 (![] : Fin 0 → Fin S24x128.rank)
  concatenates_S8192x128_S1000x128_S24x128_S9216x128_d0 : Shape.Concatenates [S8192x128, S1000x128, S24x128] S9216x128 0
  bitsLt_bf16_f32 : FTy.bits .bf16 < FTy.bits .f32
  shapeCasts_S8192_S8192x1 : S8192.ShapeCasts S8192x1
  shapeCasts_S9216_S1x9216 : S9216.ShapeCasts S1x9216
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S9216x128_S9216x128_0_0 : ∀ a, (![0, 0] : Fin 2 → Nat) a + S9216x128.size a ≤ S9216x128.size a
  h_S9216x128 : 0 < S9216x128.numel
  shapeCasts_S9216x128_S9216x128 : S9216x128.ShapeCasts S9216x128
  iota_S128x1_d0_w32 : S128x1.Iotas .tc 32 [0]
  iota_S1x9216_d1_w32 : S1x9216.Iotas .tc 32 [1]
  broadcasts_S128x1_S128x9216 : S128x1.Broadcasts S128x9216
  broadcasts_S1x9216_S128x9216 : S1x9216.Broadcasts S128x9216
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x9216_S1x9216_0_0 : ∀ a, (![0, 0] : Fin 2 → Nat) a + S1x9216.size a ≤ S1x9216.size a
  h_S1x9216 : 0 < S1x9216.numel
  shapeCasts_S1x9216_S1x9216 : S1x9216.ShapeCasts S1x9216
  reduces_S128x9216_S128 : S128x9216.Reduces [1] S128
  shapeCasts_S128_S128x1 : S128.ShapeCasts S128x1
  shapeCasts_S128x1_S128 : S128x1.ShapeCasts S128
  inb_S128_S128_0 : ∀ a, (![0] : Fin 1 → Nat) a + S128.size a ≤ S128.size a
  h_S128 : 0 < S128.numel
  reducesTo_S8192_S_d0 : S8192.ReducesTo [0] S_
  scatter_S1000_S9192x1_S9192_n_0_0_1_wf : ScatterDims.WF S1000 S9192x1 S9192 [] [0] [0] 1
  gather_S1000_S9192x1_S9192_n_0_n_n_0_1_1_wf : GatherDims.WF S1000 S9192x1 S9192 [] [0] [] [0] [] 1 ![1]
  gather_S1000_S8192x1_S8192_n_0_n_n_0_1_1_wf : GatherDims.WF S1000 S8192x1 S8192 [] [0] [] [0] [] 1 ![1]
  scatter_S1000x128_S8192x1_S8192x128_1_0_0_1_wf : ScatterDims.WF S1000x128 S8192x1 S8192x128 [1] [0] [0] 1
  gather_S1000x128_S8192x1_S8192x128_1_0_n_n_0_1_1128_wf : GatherDims.WF S1000x128 S8192x1 S8192x128 [1] [0] [] [0] [] 1 ![1, 128]
  dot_S128x128_S9216x128_S128x9216_1_1_0_0_n_n_wf : DotDims.WF S128x128 S9216x128 S128x9216 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9216x128.size a ≤ S9216x128.size a
  hwx0_3 : ∀ i : grid0.Coords, EltTy.bits .bf16 = 32 ∨ (Rect.block (s := S9216x128) S9216x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x9216.size a ≤ S1x9216.size a
  hwx0_4 : ∀ i : grid0.Coords, EltTy.bits .i32 = 32 ∨ (Rect.block (s := S1x9216) S1x9216.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x9216.size a ≤ S1x9216.size a
  hwx0_5 : ∀ i : grid0.Coords, EltTy.bits .f32 = 32 ∨ (Rect.block (s := S1x9216) S1x9216.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x9216.size a ≤ S1x9216.size a
  hwx0_6 : ∀ i : grid0.Coords, EltTy.bits .f32 = 32 ∨ (Rect.block (s := S1x9216) S1x9216.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S8192.size a
  hwx0_7 : ∀ i : grid0.Coords, EltTy.bits .f32 = 32 ∨ (Rect.block (s := S8192) S128.size (cc0_transform_7 i) (hinb0_7 i)).WholeWords (EltTy.packing .f32)

variable [Facts₀]

def scatter_S1000_S9192x1_S9192_n_0_0_1 : ScatterDims S1000 S9192x1 S9192 where
  updateWindowDims := []
  insertedWindowDims := [0]
  scatterDimsToOperandDims := [0]
  indexVectorDim := 1
  wf := scatter_S1000_S9192x1_S9192_n_0_0_1_wf
def gather_S1000_S9192x1_S9192_n_0_n_n_0_1_1 : GatherDims S1000 S9192x1 S9192 where
  offsetDims := []
  collapsedSliceDims := [0]
  operandBatchingDims := []
  startIndicesBatchingDims := []
  startIndexMap := [0]
  indexVectorDim := 1
  sliceSizes := ![1]
  wf := gather_S1000_S9192x1_S9192_n_0_n_n_0_1_1_wf
def gather_S1000_S8192x1_S8192_n_0_n_n_0_1_1 : GatherDims S1000 S8192x1 S8192 where
  offsetDims := []
  collapsedSliceDims := [0]
  operandBatchingDims := []
  startIndicesBatchingDims := []
  startIndexMap := [0]
  indexVectorDim := 1
  sliceSizes := ![1]
  wf := gather_S1000_S8192x1_S8192_n_0_n_n_0_1_1_wf
def scatter_S1000x128_S8192x1_S8192x128_1_0_0_1 : ScatterDims S1000x128 S8192x1 S8192x128 where
  updateWindowDims := [1]
  insertedWindowDims := [0]
  scatterDimsToOperandDims := [0]
  indexVectorDim := 1
  wf := scatter_S1000x128_S8192x1_S8192x128_1_0_0_1_wf
def gather_S1000x128_S8192x1_S8192x128_1_0_n_n_0_1_1128 : GatherDims S1000x128 S8192x1 S8192x128 where
  offsetDims := [1]
  collapsedSliceDims := [0]
  operandBatchingDims := []
  startIndicesBatchingDims := []
  startIndexMap := [0]
  indexVectorDim := 1
  sliceSizes := ![1, 128]
  wf := gather_S1000x128_S8192x1_S8192x128_1_0_n_n_0_1_1128_wf
def dot_S128x128_S9216x128_S128x9216_1_1_0_0_n_n : DotDims S128x128 S9216x128 S128x9216 where
  lhsContracting := [1]
  rhsContracting := [1]
  lhsNonContracting := [0]
  rhsNonContracting := [0]
  lhsBatch := []
  rhsBatch := []
  wf := dot_S128x128_S9216x128_S128x9216_1_1_0_0_n_n_wf

abbrev win0_0 : Pipeline.Window sig grid0 :=
  Pipeline.Window.ofSpec (Memref.whole main_v68) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v70) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S9216x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v71) S1x9216.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v72) S1x9216.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v73) S1x9216.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v74) S128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000x128 : Shape := ⟨2, ![1000, 128]⟩
abbrev S8192x128 : Shape := ⟨2, ![8192, 128]⟩
abbrev S8192 : Shape := ⟨1, ![8192]⟩
abbrev S1000 : Shape := ⟨1, ![1000]⟩
abbrev S9192 : Shape := ⟨1, ![9192]⟩
abbrev S_ : Shape := ⟨0, ![]⟩
abbrev S9192x1 : Shape := ⟨2, ![9192, 1]⟩
abbrev S8192x1 : Shape := ⟨2, ![8192, 1]⟩
abbrev S1x9192 : Shape := ⟨2, ![1, 9192]⟩
abbrev S8192x9192 : Shape := ⟨2, ![8192, 9192]⟩
abbrev S8192x2 : Shape := ⟨2, ![8192, 2]⟩
abbrev S9192x128 : Shape := ⟨2, ![9192, 128]⟩
abbrev S128x9192 : Shape := ⟨2, ![128, 9192]⟩

abbrev nBuf : Space → Nat
  | .hbm => 92
  | .vmem => 0
  | .smem => 0
  | _ => 0

abbrev bufTy : (tb : Table) → Fin (tcTables nBuf tb) → BufTy
  | .hbm, ⟨0, _⟩ => ⟨S1000x128, .f32⟩
  | .hbm, ⟨1, _⟩ => ⟨S8192x128, .f32⟩
  | .hbm, ⟨2, _⟩ => ⟨S8192, .i32⟩
  | .hbm, ⟨3, _⟩ => ⟨S1000, .i32⟩
  | .hbm, ⟨4, _⟩ => ⟨S9192, .i32⟩
  | .hbm, ⟨5, _⟩ => ⟨S_, .f32⟩
  | .hbm, ⟨6, _⟩ => ⟨S1000, .f32⟩
  | .hbm, ⟨7, _⟩ => ⟨S_, .i32⟩
  | .hbm, ⟨8, _⟩ => ⟨S9192, .i32⟩
  | .hbm, ⟨9, _⟩ => ⟨S9192, .i1⟩
  | .hbm, ⟨10, _⟩ => ⟨S_, .i32⟩
  | .hbm, ⟨11, _⟩ => ⟨S9192, .i32⟩
  | .hbm, ⟨12, _⟩ => ⟨S9192, .i32⟩
  | .hbm, ⟨13, _⟩ => ⟨S9192, .i32⟩
  | .hbm, ⟨14, _⟩ => ⟨S9192x1, .i32⟩
  | .hbm, ⟨15, _⟩ => ⟨S_, .f32⟩
  | .hbm, ⟨16, _⟩ => ⟨S9192, .f32⟩
  | .hbm, ⟨17, _⟩ => ⟨S1000, .f32⟩
  | .hbm, ⟨18, _⟩ => ⟨S8192x1, .i32⟩
  | .hbm, ⟨19, _⟩ => ⟨S1x9192, .i32⟩
  | .hbm, ⟨20, _⟩ => ⟨S8192x9192, .i32⟩
  | .hbm, ⟨21, _⟩ => ⟨S8192x9192, .i32⟩
  | .hbm, ⟨22, _⟩ => ⟨S8192x9192, .i1⟩
  | .hbm, ⟨23, _⟩ => ⟨S8192x9192, .f32⟩
  | .hbm, ⟨24, _⟩ => ⟨S_, .f32⟩
  | .hbm, ⟨25, _⟩ => ⟨S8192x9192, .f32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x1, .i32⟩
  | .hbm, ⟨44, _⟩ => ⟨S8192x2, .i32⟩
  | .hbm, ⟨45, _⟩ => ⟨S_, .f32⟩
  | .hbm, ⟨46, _⟩ => ⟨S8192, .f32⟩
  | .hbm, ⟨47, _⟩ => ⟨S8192x9192, .f32⟩
  | .hbm, ⟨48, _⟩ => ⟨S8192x9192, .f32⟩
  | .hbm, ⟨49, _⟩ => ⟨S9192x128, .f32⟩
  | .hbm, ⟨50, _⟩ => ⟨S128x9192, .f32⟩
  | .hbm, ⟨51, _⟩ => ⟨S8192x9192, .f32⟩
  | .hbm, ⟨52, _⟩ => ⟨S_, .f32⟩
  | .hbm, ⟨53, _⟩ => ⟨S8192x9192, .f32⟩
  | .hbm, ⟨54, _⟩ => ⟨S8192x9192, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x9192, .f32⟩
  | .hbm, ⟨59, _⟩ => ⟨S8192x9192, .f32⟩
  | .hbm, ⟨60, _⟩ => ⟨S8192x9192, .f32⟩
  | .hbm, ⟨61, _⟩ => ⟨S8192x9192, .f32⟩
  | .hbm, ⟨62, _⟩ => ⟨S_, .i32⟩
  | .hbm, ⟨63, _⟩ => ⟨S9192, .i32⟩
  | .hbm, ⟨64, _⟩ => ⟨S9192, .i1⟩
  | .hbm, ⟨65, _⟩ => ⟨S_, .i32⟩
  | .hbm, ⟨66, _⟩ => ⟨S9192, .i32⟩
  | .hbm, ⟨67, _⟩ => ⟨S9192, .i32⟩
  | .hbm, ⟨68, _⟩ => ⟨S9192, .i32⟩
  | .hbm, ⟨69, _⟩ => ⟨S9192x1, .i32⟩
  | .hbm, ⟨70, _⟩ => ⟨S9192, .f32⟩
  | .hbm, ⟨71, _⟩ => ⟨S1x9192, .f32⟩
  | .hbm, ⟨72, _⟩ => ⟨S8192x9192, .f32⟩
  | .hbm, ⟨73, _⟩ => ⟨S8192x9192, .f32⟩
  | .hbm, ⟨74, _⟩ => ⟨S8192x9192, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1, .f32⟩
  | .hbm, ⟨79, _⟩ => ⟨S8192x9192, .f32⟩
  | .hbm, ⟨80, _⟩ => ⟨S8192x9192, .f32⟩
  | .hbm, ⟨81, _⟩ => ⟨S8192x9192, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_c_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_cst_16 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  concatenates_S8192_S1000_S9192_d0 : Shape.Concatenates [S8192, S1000] S9192 0
  bcast_S_S1000 : S_.BroadcastsInDim S1000 (![] : Fin 0 → Fin S1000.rank)
  bcast_S_S9192 : S_.BroadcastsInDim S9192 (![] : Fin 0 → Fin S9192.rank)
  bcast_S9192_S9192x1_0 : S9192.BroadcastsInDim S9192x1 (![0] : Fin 1 → Fin S9192x1.rank)
  bcast_S8192_S8192x1_0 : S8192.BroadcastsInDim S8192x1 (![0] : Fin 1 → Fin S8192x1.rank)
  bcast_S9192_S1x9192_1 : S9192.BroadcastsInDim S1x9192 (![1] : Fin 1 → Fin S1x9192.rank)
  bcast_S8192x1_S8192x9192_0_1 : S8192x1.BroadcastsInDim S8192x9192 (![0, 1] : Fin 2 → Fin S8192x9192.rank)
  bcast_S1x9192_S8192x9192_0_1 : S1x9192.BroadcastsInDim S8192x9192 (![0, 1] : Fin 2 → Fin S8192x9192.rank)
  bcast_S_S8192x9192 : S_.BroadcastsInDim S8192x9192 (![] : Fin 0 → Fin S8192x9192.rank)
  bcast_S_S8192 : S_.BroadcastsInDim S8192 (![] : Fin 0 → Fin S8192.rank)
  concatenates_S8192x1_S8192x1_S8192x2_d1 : Shape.Concatenates [S8192x1, S8192x1] S8192x2 1
  concatenates_S8192x128_S1000x128_S9192x128_d0 : Shape.Concatenates [S8192x128, S1000x128] S9192x128 0
  transposes_S9192x128_S128x9192_1_0 : S9192x128.Transposes [1, 0] S128x9192
  reducesTo_S8192x9192_S8192_d1 : S8192x9192.ReducesTo [1] S8192
  h_S_ : 0 < S_.numel
  reducesTo_S8192_S_d0 : S8192.ReducesTo [0] S_
  scatter_S1000_S9192x1_S9192_n_0_0_1_wf : ScatterDims.WF S1000 S9192x1 S9192 [] [0] [0] 1
  scatter_S8192x9192_S8192x2_S8192_n_01_01_1_wf : ScatterDims.WF S8192x9192 S8192x2 S8192 [] [0, 1] [0, 1] 1
  dot_S8192x128_S128x9192_S8192x9192_1_0_0_1_n_n_wf : DotDims.WF S8192x128 S128x9192 S8192x9192 [1] [0] [0] [1] [] []
  gather_S1000_S9192x1_S9192_n_0_n_n_0_1_1_wf : GatherDims.WF S1000 S9192x1 S9192 [] [0] [] [0] [] 1 ![1]

variable [Facts₀]

def scatter_S1000_S9192x1_S9192_n_0_0_1 : ScatterDims S1000 S9192x1 S9192 where
  updateWindowDims := []
  insertedWindowDims := [0]
  scatterDimsToOperandDims := [0]
  indexVectorDim := 1
  wf := scatter_S1000_S9192x1_S9192_n_0_0_1_wf
def scatter_S8192x9192_S8192x2_S8192_n_01_01_1 : ScatterDims S8192x9192 S8192x2 S8192 where
  updateWindowDims := []
  insertedWindowDims := [0, 1]
  scatterDimsToOperandDims := [0, 1]
  indexVectorDim := 1
  wf := scatter_S8192x9192_S8192x2_S8192_n_01_01_1_wf
def dot_S8192x128_S128x9192_S8192x9192_1_0_0_1_n_n : DotDims S8192x128 S128x9192 S8192x9192 where
  lhsContracting := [1]
  rhsContracting := [0]
  lhsNonContracting := [0]
  rhsNonContracting := [1]
  lhsBatch := []
  rhsBatch := []
  wf := dot_S8192x128_S128x9192_S8192x9192_1_0_0_1_n_n_wf
def gather_S1000_S9192x1_S9192_n_0_n_n_0_1_1 : GatherDims S1000 S9192x1 S9192 where
  offsetDims := []
  collapsedSliceDims := [0]
  operandBatchingDims := []
  startIndicesBatchingDims := []
  startIndexMap := [0]
  indexVectorDim := 1
  sliceSizes := ![1]
  wf := gather_S1000_S9192x1_S9192_n_0_n_n_0_1_1_wf

class Facts : Prop extends Facts₀ where

variable [Facts]
-- ==== Proof.KFrame.lean ====
/-
  The frame of the program, and its run with every array named.

  @main is 99 host operations, one launch of the kernel over a grid of 64 row tiles, and five host operations.
  The kernel's body at a grid point loads its seven input blocks (a 128-row tile of the queries, of the labels and of the
  per-row positive term; the whole column-side operand, its labels and its two reciprocal tables), computes, and
  stores one 128-entry block of the result. Nothing is kept between points, so the proof data is: every input's
  staging buffer holds its block of the array as the region finds it, and the output's holds the one store's payload
  of those blocks. The launch theorem then gives the run: it terminates, nothing faults, every array the pipeline
  stages ends at what the blocks written back make it, and every other buffer at what the five closing host
  operations leave. The three argument arrays are written by no host operation and staged by no window, so they end
  as launched: the frame.
-/
import proofs.«428374_j30889404793116_3_alg».proof.Proof.Gen.Kernel.Launch
import proofs.«428374_j30889404793116_3_alg».proof.Proof.Gen.Kernel.Skeleton
import proofs.«428374_j30889404793116_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the 99 host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing host operations touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the eight arrays the pipeline stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- Nothing before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nothing after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nothing before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nothing after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nothing before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nothing after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data over these arrays whose body leaves the block in place. -/

theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The three argument arrays are staged by no window, so the run's post gives each at what the closing host
    operations leave, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses: every load and the store take a whole buffer -/

abbrev rQ : Rect S128x128 := Rect.unit (s := S128x128) ![0, 0] S128x128.size inb_S128x128_S128x128_0_0
abbrev rCols : Rect S9216x128 := Rect.unit (s := S9216x128) ![0, 0] S9216x128.size inb_S9216x128_S9216x128_0_0
abbrev rTile : Rect S128x1 := Rect.unit (s := S128x1) ![0, 0] S128x1.size inb_S128x1_S128x1_0_0
abbrev rRow : Rect S1x9216 := Rect.unit (s := S1x9216) ![0, 0] S1x9216.size inb_S1x9216_S1x9216_0_0
abbrev rOut : Rect S128 := Rect.unit (s := S128) ![0] S128.size inb_S128_S128_0

/-! ## What the body leaves in the output window's buffer -/

/-- The one store's payload of the seven input blocks, at grid point `i` (the point enters through the row offset
    of the diagonal test): the positive term less the row maximum less the logarithm of the weighted sum. -/
def tileOut (i : grid0.Coords) (x0 : Vec F S128x128 .bf16) (x1 : Vec F S128x1 .i32) (x2 : Vec F S128x1 .f32) (x3 : Vec F S9216x128 .bf16) (x4 : Vec F S1x9216 .i32)
    (x5 : Vec F S1x9216 .f32) (x6 : Vec F S1x9216 .f32) : Vec F S128 .f32 :=
  View.canon [⟨rOut, k0_pay1 (k0_pay3 (View.ld x0 rQ) (View.ld x3 rCols))
    (k0_pay4 i (View.ld x0 rQ) (View.ld x3 rCols) (View.ld x1 rTile) (View.ld x4 rRow) (View.ld x6 rRow) (View.ld x5 rRow))
    (View.ld x2 rTile)⟩]

/-- The store covers the buffer. -/
theorem tileCover (p0 : Vec F S128 .f32) (y : S128.Idx) :
    ∃ pc ∈ ([⟨rOut, p0⟩] : List (View.Piece (Elt F) S128 .f32)), y ∈ pc.1.set :=
  View.cover_of_tiled [⟨rOut, p0⟩] S128.size (by rfl) y

/-! ## The body's triple -/

set_option maxHeartbeats 4000000 in
/-- On whole staging memrefs, the inputs' at contents `x0 … x6` and the output's at anything, the body runs to the
    continuation with the inputs' as they were and the output's at `tileOut`. -/
theorem sound_kernel (c : Dev nD) (E : Set ℕ) (i : grid0.Coords)
    (arg1 : Memref sig .tc .vmem S128x128 .bf16) (harg1 : arg1.IsWhole) (arg2 : Memref sig .tc .vmem S128x1 .i32) (harg2 : arg2.IsWhole) (arg3 : Memref sig .tc .vmem S128x1 .f32) (harg3 : arg3.IsWhole) (arg4 : Memref sig .tc .vmem S9216x128 .bf16) (harg4 : arg4.IsWhole) (arg5 : Memref sig .tc .vmem S1x9216 .i32) (harg5 : arg5.IsWhole) (arg6 : Memref sig .tc .vmem S1x9216 .f32) (harg6 : arg6.IsWhole) (arg7 : Memref sig .tc .vmem S1x9216 .f32) (harg7 : arg7.IsWhole) (arg8 : Memref sig .tc .vmem S128 .f32) (harg8 : arg8.IsWhole)
    (x0 : Vec F S128x128 .bf16) (x1 : Vec F S128x1 .i32) (x2 : Vec F S128x1 .f32) (x3 : Vec F S9216x128 .bf16) (x4 : Vec F S1x9216 .i32) (x5 : Vec F S1x9216 .f32) (x6 : Vec F S1x9216 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (tileOut i x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (tileCover _)

/-! ## The pipeline's proof data -/

/-- The arrays as the region finds them; after the body at point `t` each input's buffer at its block and the output's
    at `tileOut` of the blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileOut (grid0.coords t) (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in_0 (c : Dev nD) (t : Fin cfg0.N) : (dats m 0 c).after 0 t = iblk m c 0 t := by dsimp only [dats]
theorem after_in_1 (c : Dev nD) (t : Fin cfg0.N) : (dats m 0 c).after 1 t = iblk m c 1 t := by dsimp only [dats]
theorem after_in_2 (c : Dev nD) (t : Fin cfg0.N) : (dats m 0 c).after 2 t = iblk m c 2 t := by dsimp only [dats]
theorem after_in_3 (c : Dev nD) (t : Fin cfg0.N) : (dats m 0 c).after 3 t = iblk m c 3 t := by dsimp only [dats]
theorem after_in_4 (c : Dev nD) (t : Fin cfg0.N) : (dats m 0 c).after 4 t = iblk m c 4 t := by dsimp only [dats]
theorem after_in_5 (c : Dev nD) (t : Fin cfg0.N) : (dats m 0 c).after 5 t = iblk m c 5 t := by dsimp only [dats]
theorem after_in_6 (c : Dev nD) (t : Fin cfg0.N) : (dats m 0 c).after 6 t = iblk m c 6 t := by dsimp only [dats]
theorem after_out (c : Dev nD) (t : Fin cfg0.N) :
    (dats m 0 c).after 7 t = tileOut (grid0.coords t) (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_in_0 m (dats m 0 c) (A_eq m c 0) (after_in_0 m c) t d
theorem before_1 (c : Dev nD) (t : Fin cfg0.N) (d) : (dats m 0 c).before 1 t d = iblk m c 1 t :=
  before_in_1 m (dats m 0 c) (A_eq m c 1) (after_in_1 m c) t d
theorem before_2 (c : Dev nD) (t : Fin cfg0.N) (d) : (dats m 0 c).before 2 t d = iblk m c 2 t :=
  before_in_2 m (dats m 0 c) (A_eq m c 2) (after_in_2 m c) t d
theorem before_3 (c : Dev nD) (t : Fin cfg0.N) (d) : (dats m 0 c).before 3 t d = iblk m c 3 t :=
  before_in_3 m (dats m 0 c) (A_eq m c 3) (after_in_3 m c) t d
theorem before_4 (c : Dev nD) (t : Fin cfg0.N) (d) : (dats m 0 c).before 4 t d = iblk m c 4 t :=
  before_in_4 m (dats m 0 c) (A_eq m c 4) (after_in_4 m c) t d
theorem before_5 (c : Dev nD) (t : Fin cfg0.N) (d) : (dats m 0 c).before 5 t d = iblk m c 5 t :=
  before_in_5 m (dats m 0 c) (A_eq m c 5) (after_in_5 m c) t d
theorem before_6 (c : Dev nD) (t : Fin cfg0.N) (d) : (dats m 0 c).before 6 t d = iblk m c 6 t :=
  before_in_6 m (dats m 0 c) (A_eq m c 6) (after_in_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_in_0, after_in_1, after_in_2, after_in_3, after_in_4, after_in_5, after_in_6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every array the pipeline stages at what
    the blocks written back make it and every other unscoped buffer as the closing host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.HFrame

end
-- ==== Proof.KIFrame.lean ====
/-
  The frame of the program, and its run with every array named.

  @main is 99 host operations, one launch of the kernel over a grid of 64 row tiles, and five host operations.
  The kernel's body at a grid point loads its seven input blocks (a 128-row tile of the queries, of the labels and of the
  per-row positive term; the whole column-side operand, its labels and its two reciprocal tables), computes, and
  stores one 128-entry block of the result. Nothing is kept between points, so the proof data is: every input's
  staging buffer holds its block of the array as the region finds it, and the output's holds the one store's payload
  of those blocks. The launch theorem then gives the run: it terminates, nothing faults, every array the pipeline
  stages ends at what the blocks written back make it, and every other buffer at what the five closing host
  operations leave. The three argument arrays are written by no host operation and staged by no window, so they end
  as launched: the frame.
-/
import proofs.«428374_j30889404793116_3_alg».proof.Proof.Gen.KernelIdeal.Launch
import proofs.«428374_j30889404793116_3_alg».proof.Proof.Gen.KernelIdeal.Skeleton
import proofs.«428374_j30889404793116_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the 99 host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing host operations touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the eight arrays the pipeline stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- Nothing before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nothing after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nothing before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nothing after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nothing before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nothing after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data over these arrays whose body leaves the block in place. -/

theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The three argument arrays are staged by no window, so the run's post gives each at what the closing host
    operations leave, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses: every load and the store take a whole buffer -/

abbrev rQ : Rect S128x128 := Rect.unit (s := S128x128) ![0, 0] S128x128.size inb_S128x128_S128x128_0_0
abbrev rCols : Rect S9216x128 := Rect.unit (s := S9216x128) ![0, 0] S9216x128.size inb_S9216x128_S9216x128_0_0
abbrev rTile : Rect S128x1 := Rect.unit (s := S128x1) ![0, 0] S128x1.size inb_S128x1_S128x1_0_0
abbrev rRow : Rect S1x9216 := Rect.unit (s := S1x9216) ![0, 0] S1x9216.size inb_S1x9216_S1x9216_0_0
abbrev rOut : Rect S128 := Rect.unit (s := S128) ![0] S128.size inb_S128_S128_0

/-! ## What the body leaves in the output window's buffer -/

/-- The one store's payload of the seven input blocks, at grid point `i` (the point enters through the row offset
    of the diagonal test): the positive term less the row maximum less the logarithm of the weighted sum. -/
def tileOut (i : grid0.Coords) (x0 : Vec F S128x128 .bf16) (x1 : Vec F S128x1 .i32) (x2 : Vec F S128x1 .f32) (x3 : Vec F S9216x128 .bf16) (x4 : Vec F S1x9216 .i32)
    (x5 : Vec F S1x9216 .f32) (x6 : Vec F S1x9216 .f32) : Vec F S128 .f32 :=
  View.canon [⟨rOut, k0_pay1 (k0_pay3 (View.ld x0 rQ) (View.ld x3 rCols))
    (k0_pay4 i (View.ld x0 rQ) (View.ld x3 rCols) (View.ld x1 rTile) (View.ld x4 rRow) (View.ld x6 rRow) (View.ld x5 rRow))
    (View.ld x2 rTile)⟩]

/-- The store covers the buffer. -/
theorem tileCover (p0 : Vec F S128 .f32) (y : S128.Idx) :
    ∃ pc ∈ ([⟨rOut, p0⟩] : List (View.Piece (Elt F) S128 .f32)), y ∈ pc.1.set :=
  View.cover_of_tiled [⟨rOut, p0⟩] S128.size (by rfl) y

/-! ## The body's triple -/

set_option maxHeartbeats 4000000 in
/-- On whole staging memrefs, the inputs' at contents `x0 … x6` and the output's at anything, the body runs to the
    continuation with the inputs' as they were and the output's at `tileOut`. -/
theorem sound_kernel (c : Dev nD) (E : Set ℕ) (i : grid0.Coords)
    (arg1 : Memref sig .tc .vmem S128x128 .bf16) (harg1 : arg1.IsWhole) (arg2 : Memref sig .tc .vmem S128x1 .i32) (harg2 : arg2.IsWhole) (arg3 : Memref sig .tc .vmem S128x1 .f32) (harg3 : arg3.IsWhole) (arg4 : Memref sig .tc .vmem S9216x128 .bf16) (harg4 : arg4.IsWhole) (arg5 : Memref sig .tc .vmem S1x9216 .i32) (harg5 : arg5.IsWhole) (arg6 : Memref sig .tc .vmem S1x9216 .f32) (harg6 : arg6.IsWhole) (arg7 : Memref sig .tc .vmem S1x9216 .f32) (harg7 : arg7.IsWhole) (arg8 : Memref sig .tc .vmem S128 .f32) (harg8 : arg8.IsWhole)
    (x0 : Vec F S128x128 .bf16) (x1 : Vec F S128x1 .i32) (x2 : Vec F S128x1 .f32) (x3 : Vec F S9216x128 .bf16) (x4 : Vec F S1x9216 .i32) (x5 : Vec F S1x9216 .f32) (x6 : Vec F S1x9216 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (tileOut i x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (tileCover _)

/-! ## The pipeline's proof data -/

/-- The arrays as the region finds them; after the body at point `t` each input's buffer at its block and the output's
    at `tileOut` of the blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileOut (grid0.coords t) (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in_0 (c : Dev nD) (t : Fin cfg0.N) : (dats m 0 c).after 0 t = iblk m c 0 t := by dsimp only [dats]
theorem after_in_1 (c : Dev nD) (t : Fin cfg0.N) : (dats m 0 c).after 1 t = iblk m c 1 t := by dsimp only [dats]
theorem after_in_2 (c : Dev nD) (t : Fin cfg0.N) : (dats m 0 c).after 2 t = iblk m c 2 t := by dsimp only [dats]
theorem after_in_3 (c : Dev nD) (t : Fin cfg0.N) : (dats m 0 c).after 3 t = iblk m c 3 t := by dsimp only [dats]
theorem after_in_4 (c : Dev nD) (t : Fin cfg0.N) : (dats m 0 c).after 4 t = iblk m c 4 t := by dsimp only [dats]
theorem after_in_5 (c : Dev nD) (t : Fin cfg0.N) : (dats m 0 c).after 5 t = iblk m c 5 t := by dsimp only [dats]
theorem after_in_6 (c : Dev nD) (t : Fin cfg0.N) : (dats m 0 c).after 6 t = iblk m c 6 t := by dsimp only [dats]
theorem after_out (c : Dev nD) (t : Fin cfg0.N) :
    (dats m 0 c).after 7 t = tileOut (grid0.coords t) (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_in_0 m (dats m 0 c) (A_eq m c 0) (after_in_0 m c) t d
theorem before_1 (c : Dev nD) (t : Fin cfg0.N) (d) : (dats m 0 c).before 1 t d = iblk m c 1 t :=
  before_in_1 m (dats m 0 c) (A_eq m c 1) (after_in_1 m c) t d
theorem before_2 (c : Dev nD) (t : Fin cfg0.N) (d) : (dats m 0 c).before 2 t d = iblk m c 2 t :=
  before_in_2 m (dats m 0 c) (A_eq m c 2) (after_in_2 m c) t d
theorem before_3 (c : Dev nD) (t : Fin cfg0.N) (d) : (dats m 0 c).before 3 t d = iblk m c 3 t :=
  before_in_3 m (dats m 0 c) (A_eq m c 3) (after_in_3 m c) t d
theorem before_4 (c : Dev nD) (t : Fin cfg0.N) (d) : (dats m 0 c).before 4 t d = iblk m c 4 t :=
  before_in_4 m (dats m 0 c) (A_eq m c 4) (after_in_4 m c) t d
theorem before_5 (c : Dev nD) (t : Fin cfg0.N) (d) : (dats m 0 c).before 5 t d = iblk m c 5 t :=
  before_in_5 m (dats m 0 c) (A_eq m c 5) (after_in_5 m c) t d
theorem before_6 (c : Dev nD) (t : Fin cfg0.N) (d) : (dats m 0 c).before 6 t d = iblk m c 6 t :=
  before_in_6 m (dats m 0 c) (A_eq m c 6) (after_in_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_in_0, after_in_1, after_in_2, after_in_3, after_in_4, after_in_5, after_in_6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every array the pipeline stages at what
    the blocks written back make it and every other unscoped buffer as the closing host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.HFrame

end
-- ==== Proof.Spec.lean ====
/-
  The mathematics of the class-balanced supervised-contrastive loss, over the reals.

  Inputs: batch features `f : Fin 8192 → Fin 128 → ℝ`, one centre per class `cn : Fin 1000 → Fin 128 → ℝ`,
  and a class label per batch row `t : Fin 8192 → Fin 1000`. There are 9192 columns: the 8192 batch rows
  followed by the 1000 class centres; column `j` has class `tall j` and feature row `fall j`.
  `cls k` counts the columns of class `k` (at least one: the centre). The temperature is the
  binary fraction `c01 = 13421773 / 2^27`.

  `rowR` is the loss of row `i` computed column by column: the mean, over the positive columns
  (same class, not the row itself), of the log-probability `L - max - log(∑ exp(L - max) / weight)`.
  `rowK` is the same loss computed from per-class sums: the positive logits' mean is read off
  `S (t i) = ∑_{t b = t i} f b + cn (t i)`, and the weights are multiplied in as reciprocals
  picked from two tables.  `rowK_eq_rowR` says they agree.
-/
import Mathlib.Analysis.SpecialFunctions.Log.Basic
import Mathlib.Analysis.SpecialFunctions.Exp
import Mathlib.Algebra.BigOperators.Fin
import Mathlib.Data.Fintype.BigOperators

noncomputable section

namespace Cert.Spec

open Finset

/-- The temperature as the binary fraction the single-precision word of `0.1` holds. -/
def c01 : ℝ := 13421773 / 134217728

theorem c01_pos : 0 < c01 := by unfold c01; norm_num

/-- The guard under the second reciprocal table, `2^-20 * 1.0485759...`: any positive number below one serves. -/
def eps : ℝ := 8796093 / 8796093022208

variable (f : Fin 8192 → Fin 128 → ℝ) (cn : Fin 1000 → Fin 128 → ℝ) (t : Fin 8192 → Fin 1000)

/-- Column `j`'s class: a batch row's label, then the centres' own classes in order. -/
def tall (j : Fin 9192) : Fin 1000 :=
  if h : j.val < 8192 then t ⟨j.val, h⟩ else ⟨j.val - 8192, by have := j.isLt; omega⟩

/-- Column `j`'s feature row: a batch row, then the centres in order. -/
def fall (j : Fin 9192) (d : Fin 128) : ℝ :=
  if h : j.val < 8192 then f ⟨j.val, h⟩ d else cn ⟨j.val - 8192, by have := j.isLt; omega⟩ d

/-- How many columns have class `k`. -/
def cls (k : Fin 1000) : ℝ := ((univ.filter (fun j : Fin 9192 => tall t j = k)).card : ℝ)

/-- The inner product of row `i` with column `j`. -/
def dot (i : Fin 8192) (j : Fin 9192) : ℝ := ∑ d : Fin 128, f i d * fall f cn j d

/-- The logit: the inner product over the temperature. -/
def L (i : Fin 8192) (j : Fin 9192) : ℝ := dot f cn i j / c01

/-- One off the row's own column, zero on it. -/
def lm (i : Fin 8192) (j : Fin 9192) : ℝ := if j.val = i.val then 0 else 1

/-- One on the positive columns of row `i`: same class, not the row itself. -/
def M (i : Fin 8192) (j : Fin 9192) : ℝ := (if tall t j = t i then 1 else 0) * lm i j

/-- The row's largest logit. -/
def mx (i : Fin 8192) : ℝ := univ.sup' (univ_nonempty (α := Fin 9192)) (fun j => L f cn i j)

/-- The weighted sum of the shifted exponentials, column by column. -/
def E (i : Fin 8192) : ℝ :=
  ∑ j : Fin 9192, Real.exp (L f cn i j - mx f cn i) * lm i j / (cls t (tall t j) - M t i j)

/-- The loss of row `i`, column by column. -/
def rowR (i : Fin 8192) : ℝ :=
  (∑ j : Fin 9192, M t i j * ((L f cn i j - mx f cn i) - Real.log (E f cn t i))) / (∑ j : Fin 9192, M t i j)

/-- The sum of the batch rows of class `k`, plus the class's centre. -/
def S (k : Fin 1000) (d : Fin 128) : ℝ := (∑ b ∈ univ.filter (fun b : Fin 8192 => t b = k), f b d) + cn k d

/-- The mean positive logit of row `i`, from the class sums. -/
def pos (i : Fin 8192) : ℝ :=
  ((∑ d : Fin 128, f i d * S f cn t (t i) d - ∑ d : Fin 128, f i d * f i d) / c01) / (cls t (t i) - 1)

/-- The reciprocal weight of a column that is not positive. -/
def invw (j : Fin 9192) : ℝ := 1 / cls t (tall t j)

/-- The reciprocal weight of a positive column (one less: the row itself is left out), guarded from below. -/
def invwm1 (j : Fin 9192) : ℝ := 1 / max (cls t (tall t j) - 1) eps

/-- The weighted sum of the shifted exponentials with the reciprocals multiplied in, shifted by `s`. -/
def Dk (s : ℝ) (i : Fin 8192) : ℝ :=
  ∑ j : Fin 9192, (if j.val = i.val then 0 else Real.exp (L f cn i j - s))
    * (if tall t j = t i then invwm1 t j else invw t j)

/-- The loss of row `i`, from the class sums, shifted by `s`. -/
def rowK (s : ℝ) (i : Fin 8192) : ℝ := (pos f cn t i - s) - Real.log (Dk f cn t s i)

/-! ## Side facts (what keeps every quotient and logarithm inside its domain) -/

/-- The facts a reading of the two programs over the extended reals needs. -/
structure Facts (i : Fin 8192) : Prop where
  cls_ge_one : ∀ k, 1 ≤ cls t k
  own_ge_two : 2 ≤ cls t (t i)
  weight_ge_one : ∀ j, 1 ≤ cls t (tall t j) - M t i j
  guard : ∀ j, tall t j = t i → j.val ≠ i.val → max (cls t (tall t j) - 1) eps = cls t (tall t j) - 1
  guard_pos : ∀ j, 0 < max (cls t (tall t j) - 1) eps
  mx_nonneg : 0 ≤ mx f cn i
  E_pos : 0 < E f cn t i
  Dk_pos : ∀ s, 0 < Dk f cn t s i
  cnt : (∑ j : Fin 9192, M t i j) = cls t (t i) - 1

end Cert.Spec

end
-- ==== Proof.SpecFacts.lean ====
/-
  The side facts of the loss: every class has its centre's column, a row's own class has the row and the centre,
  so every weight is at least one, every guarded reciprocal is the plain one where it is used, and the sums under
  the logarithms are positive.
-/
import proofs.«428374_j30889404793116_3_alg».proof.Proof.Spec
import Mathlib.Algebra.BigOperators.Ring.Finset
import Mathlib.Algebra.BigOperators.Group.Finset.Piecewise
import Mathlib.Algebra.Order.BigOperators.Group.Finset
import Mathlib.Data.Finset.Card
import Mathlib.Data.Finset.Lattice.Fold
import Mathlib.Tactic.Linarith
import Mathlib.Tactic.NormNum
import Mathlib.Tactic.Ring

noncomputable section

namespace Cert.Spec

open Finset

variable (f : Fin 8192 → Fin 128 → ℝ) (cn : Fin 1000 → Fin 128 → ℝ) (t : Fin 8192 → Fin 1000)

/-! ## The two columns every argument uses: a row's own column and a class's centre column -/

/-- The column that holds batch row `i`. -/
private def ownCol (i : Fin 8192) : Fin 9192 := ⟨i.val, by have := i.isLt; omega⟩

/-- The column that holds the centre of class `k`. -/
private def cenCol (k : Fin 1000) : Fin 9192 := ⟨8192 + k.val, by have := k.isLt; omega⟩

/-- Row `i`'s own column has the row's label as its class. -/
private theorem tall_ownCol (i : Fin 8192) : tall t (ownCol i) = t i := by
  have h : (ownCol i).val < 8192 := i.isLt
  unfold tall
  rw [dif_pos h]
  rfl

/-- The centre column of class `k` has class `k`. -/
private theorem tall_cenCol (k : Fin 1000) : tall t (cenCol k) = k := by
  have h : ¬ (cenCol k).val < 8192 := by
    show ¬ (8192 + k.val < 8192)
    omega
  unfold tall
  rw [dif_neg h]
  apply Fin.ext
  show 8192 + k.val - 8192 = k.val
  omega

/-- Row `i`'s own column carries row `i`'s features. -/
private theorem fall_ownCol (i : Fin 8192) (d : Fin 128) : fall f cn (ownCol i) d = f i d := by
  have h : (ownCol i).val < 8192 := i.isLt
  unfold fall
  rw [dif_pos h]
  rfl

/-- A centre column is never a row's own column. -/
private theorem cenCol_val_ne (i : Fin 8192) (k : Fin 1000) : (cenCol k).val ≠ i.val := by
  show 8192 + k.val ≠ i.val
  have := i.isLt
  omega

private theorem ownCol_ne_cenCol (i : Fin 8192) (k : Fin 1000) : ownCol i ≠ cenCol k := by
  intro h
  exact cenCol_val_ne i k (congrArg Fin.val h).symm

/-- Off the row's own column the mask `lm` is one. -/
private theorem lm_cenCol (i : Fin 8192) (k : Fin 1000) : lm i (cenCol k) = 1 := by
  unfold lm
  rw [if_neg (cenCol_val_ne i k)]

private theorem lm_nonneg (i : Fin 8192) (j : Fin 9192) : 0 ≤ lm i j := by
  unfold lm
  split_ifs <;> norm_num

private theorem eps_pos : 0 < eps := by unfold eps; norm_num

private theorem eps_le_one : eps ≤ 1 := by unfold eps; norm_num

/-! ## Counting columns by class -/

/-- Every class has at least its centre's column. -/
private theorem cls_ge_one (k : Fin 1000) : 1 ≤ cls t k := by
  unfold cls
  have hmem : cenCol k ∈ univ.filter (fun j : Fin 9192 => tall t j = k) := by
    rw [mem_filter]
    exact ⟨mem_univ _, tall_cenCol t k⟩
  have h1 : 1 ≤ (univ.filter (fun j : Fin 9192 => tall t j = k)).card :=
    Nat.succ_le_of_lt (card_pos.mpr ⟨_, hmem⟩)
  exact_mod_cast h1

/-- A row's class has two distinct columns: the row's own and the class's centre. -/
private theorem own_ge_two (i : Fin 8192) : 2 ≤ cls t (t i) := by
  unfold cls
  have hsub : ({ownCol i, cenCol (t i)} : Finset (Fin 9192)) ⊆
      univ.filter (fun j : Fin 9192 => tall t j = t i) := by
    intro j hj
    rw [mem_insert, mem_singleton] at hj
    rw [mem_filter]
    refine ⟨mem_univ _, ?_⟩
    rcases hj with hj | hj
    · rw [hj]; exact tall_ownCol t i
    · rw [hj]; exact tall_cenCol t (t i)
  have hcard : ({ownCol i, cenCol (t i)} : Finset (Fin 9192)).card = 2 :=
    card_pair (ownCol_ne_cenCol i (t i))
  have h2 : 2 ≤ (univ.filter (fun j : Fin 9192 => tall t j = t i)).card := by
    rw [← hcard]
    exact card_le_card hsub
  exact_mod_cast h2

/-- The positive-column indicator is the class indicator less the indicator of the row's own column
(which has the row's class). -/
private theorem M_eq (i : Fin 8192) (j : Fin 9192) :
    M t i j = (if tall t j = t i then (1 : ℝ) else 0) - (if j = ownCol i then (1 : ℝ) else 0) := by
  unfold M lm
  by_cases hj : j = ownCol i
  · rw [hj, if_pos (tall_ownCol t i), if_pos rfl, if_pos (show (ownCol i).val = i.val from rfl)]
    norm_num
  · have hv : ¬ j.val = i.val := fun h => hj (Fin.ext h)
    rw [if_neg hv, if_neg hj]
    ring

/-- The weight under each exponential is at least one. -/
private theorem weight_ge_one (i : Fin 8192) (j : Fin 9192) : 1 ≤ cls t (tall t j) - M t i j := by
  unfold M lm
  by_cases h : tall t j = t i
  · rw [if_pos h, h]
    have h2 := own_ge_two t i
    split_ifs <;> linarith
  · rw [if_neg h, zero_mul, sub_zero]
    exact cls_ge_one t (tall t j)

/-- The guarded denominator is positive. -/
private theorem guard_pos (j : Fin 9192) : 0 < max (cls t (tall t j) - 1) eps :=
  lt_max_of_lt_right eps_pos

/-- Both reciprocal tables are positive. -/
private theorem recip_pos (i : Fin 8192) (j : Fin 9192) :
    0 < (if tall t j = t i then invwm1 t j else invw t j) := by
  split_ifs
  · unfold invwm1
    exact one_div_pos.mpr (guard_pos t j)
  · unfold invw
    exact one_div_pos.mpr (lt_of_lt_of_le one_pos (cls_ge_one t (tall t j)))

/-- The side facts hold for every row. -/
theorem facts (i : Fin 8192) : Facts f cn t i where
  cls_ge_one := cls_ge_one t
  own_ge_two := own_ge_two t i
  weight_ge_one := weight_ge_one t i
  guard := by
    intro j h _
    rw [h]
    apply max_eq_left
    have h2 := own_ge_two t i
    have h3 := eps_le_one
    linarith
  guard_pos := guard_pos t
  mx_nonneg := by
    -- the row's own column has logit `(∑ f i d * f i d) / c01 ≥ 0`, and the maximum is above it
    have h1 : L f cn i (ownCol i) ≤ mx f cn i := by
      unfold mx
      exact le_sup' (fun j => L f cn i j) (mem_univ (ownCol i))
    refine le_trans ?_ h1
    unfold L dot
    apply div_nonneg _ c01_pos.le
    apply sum_nonneg
    intro d _
    rw [fall_ownCol]
    exact mul_self_nonneg _
  E_pos := by
    -- every summand is nonnegative, and a centre column's summand is positive
    unfold E
    apply sum_pos'
    · intro j _
      apply div_nonneg
      · exact mul_nonneg (Real.exp_pos _).le (lm_nonneg i j)
      · have := weight_ge_one t i j
        linarith
    · refine ⟨cenCol (t i), mem_univ _, ?_⟩
      apply div_pos
      · rw [lm_cenCol, mul_one]
        exact Real.exp_pos _
      · have := weight_ge_one t i (cenCol (t i))
        linarith
  Dk_pos := by
    intro s
    unfold Dk
    apply sum_pos'
    · intro j _
      apply mul_nonneg _ (recip_pos t i j).le
      split_ifs
      · exact le_rfl
      · exact (Real.exp_pos _).le
    · refine ⟨cenCol (t i), mem_univ _, ?_⟩
      apply mul_pos _ (recip_pos t i (cenCol (t i)))
      rw [if_neg (cenCol_val_ne i (t i))]
      exact Real.exp_pos _
  cnt := by
    -- the positive columns are the columns of the row's class without the row's own column
    rw [sum_congr rfl (fun j _ => M_eq t i j), sum_sub_distrib, sum_boole,
      sum_ite_eq_of_mem' univ (ownCol i) (fun _ => (1 : ℝ)) (mem_univ _)]
    rfl

end Cert.Spec

end
-- ==== Proof.SpecPos.lean ====
/-
  The positive logits of a row, summed column by column, are the row's inner product with its class sum less its
  own square norm, over the temperature.
-/
import proofs.«428374_j30889404793116_3_alg».proof.Proof.Spec
import Mathlib.Algebra.BigOperators.Field

noncomputable section

namespace Cert.Spec

open Finset

variable (f : Fin 8192 → Fin 128 → ℝ) (cn : Fin 1000 → Fin 128 → ℝ) (t : Fin 8192 → Fin 1000)

/-- A sum over the 9192 columns is the sum over the 8192 batch columns plus the sum over the 1000 centre columns. -/
theorem sum_cols (g : Fin 9192 → ℝ) :
    (∑ j : Fin 9192, g j)
      = (∑ b : Fin 8192, g ⟨b.val, by have := b.isLt; omega⟩)
        + ∑ k : Fin 1000, g ⟨8192 + k.val, by have := k.isLt; omega⟩ := by
  have h := Fin.sum_univ_add (a := 8192) (b := 1000) (f := g)
  exact h

/-- A batch column's class is its row's label. -/
theorem tall_batch (b : Fin 8192) (h : b.val < 9192) : tall t ⟨b.val, h⟩ = t b := by
  have hb : (⟨b.val, h⟩ : Fin 9192).val < 8192 := b.isLt
  rw [tall, dif_pos hb]

/-- A centre column's class is the centre's own. -/
theorem tall_centre (k : Fin 1000) (h : 8192 + k.val < 9192) : tall t ⟨8192 + k.val, h⟩ = k := by
  have hk : ¬ ((⟨8192 + k.val, h⟩ : Fin 9192).val < 8192) := by
    show ¬ (8192 + k.val < 8192)
    omega
  rw [tall, dif_neg hk]
  apply Fin.ext
  show 8192 + k.val - 8192 = k.val
  omega

/-- A batch column's feature row is the batch row. -/
theorem fall_batch (b : Fin 8192) (h : b.val < 9192) (d : Fin 128) : fall f cn ⟨b.val, h⟩ d = f b d := by
  have hb : (⟨b.val, h⟩ : Fin 9192).val < 8192 := b.isLt
  rw [fall, dif_pos hb]

/-- A centre column's feature row is the centre. -/
theorem fall_centre (k : Fin 1000) (h : 8192 + k.val < 9192) (d : Fin 128) :
    fall f cn ⟨8192 + k.val, h⟩ d = cn k d := by
  have hk : ¬ ((⟨8192 + k.val, h⟩ : Fin 9192).val < 8192) := by
    show ¬ (8192 + k.val < 8192)
    omega
  have e : (⟨8192 + k.val - 8192, by omega⟩ : Fin 1000) = k := by
    apply Fin.ext
    show 8192 + k.val - 8192 = k.val
    omega
  rw [fall, dif_neg hk]
  show cn ⟨8192 + k.val - 8192, _⟩ d = cn k d
  rw [e]

/-- On a batch column the positive mask is: same label, and not the row itself. -/
theorem M_batch (i b : Fin 8192) (h : b.val < 9192) :
    M t i ⟨b.val, h⟩ = if t b = t i then (if b = i then 0 else 1) else 0 := by
  unfold M lm
  rw [tall_batch]
  show (if t b = t i then (1 : ℝ) else 0) * (if b.val = i.val then 0 else 1) = _
  by_cases hbi : b = i
  · subst hbi; simp
  · have hv : ¬ b.val = i.val := fun e => hbi (Fin.ext e)
    by_cases htb : t b = t i
    · simp [hbi, hv, htb]
    · simp [htb]

/-- On a centre column the positive mask is: the centre of the row's class. -/
theorem M_centre (i : Fin 8192) (k : Fin 1000) (h : 8192 + k.val < 9192) :
    M t i ⟨8192 + k.val, h⟩ = if k = t i then 1 else 0 := by
  unfold M lm
  rw [tall_centre]
  have hv : ¬ ((⟨8192 + k.val, h⟩ : Fin 9192).val = i.val) := by
    show ¬ (8192 + k.val = i.val)
    have := i.isLt
    omega
  rw [if_neg hv, mul_one]

/-- On a batch column the logit is the inner product of the two batch rows over the temperature. -/
theorem L_batch (i b : Fin 8192) (h : b.val < 9192) :
    L f cn i ⟨b.val, h⟩ = (∑ d : Fin 128, f i d * f b d) / c01 := by
  unfold L dot
  simp only [fall_batch]

/-- On a centre column the logit is the inner product of the row with the centre over the temperature. -/
theorem L_centre (i : Fin 8192) (k : Fin 1000) (h : 8192 + k.val < 9192) :
    L f cn i ⟨8192 + k.val, h⟩ = (∑ d : Fin 128, f i d * cn k d) / c01 := by
  unfold L dot
  simp only [fall_centre]

/-- The batch part: the same-label rows other than the row itself contribute the inner product with the
  label's batch sum, less the row's own square norm. -/
theorem sum_pos_batch (i : Fin 8192) :
    (∑ b : Fin 8192, (if t b = t i then (if b = i then (0 : ℝ) else 1) else 0)
        * ((∑ d : Fin 128, f i d * f b d) / c01))
      = ((∑ d : Fin 128, f i d * ∑ b ∈ univ.filter (fun b : Fin 8192 => t b = t i), f b d)
          - ∑ d : Fin 128, f i d * f i d) / c01 := by
  have h1 : ∀ b : Fin 8192,
      (if t b = t i then (if b = i then (0 : ℝ) else 1) else 0) * ((∑ d : Fin 128, f i d * f b d) / c01)
        = ((if t b = t i then (∑ d : Fin 128, f i d * f b d) else 0)
            - (if b = i then (∑ d : Fin 128, f i d * f i d) else 0)) / c01 := by
    intro b
    by_cases hbi : b = i
    · subst hbi; simp
    · by_cases htb : t b = t i
      · simp [hbi, htb]
      · simp [hbi, htb]
  rw [Finset.sum_congr rfl (fun b _ => h1 b), ← Finset.sum_div, Finset.sum_sub_distrib,
    Finset.sum_ite_eq', if_pos (Finset.mem_univ i), ← Finset.sum_filter]
  congr 2
  simp only [Finset.mul_sum]
  exact Finset.sum_comm

/-- The centre part: only the centre of the row's class contributes. -/
theorem sum_pos_centre (i : Fin 8192) :
    (∑ k : Fin 1000, (if k = t i then (1 : ℝ) else 0) * ((∑ d : Fin 128, f i d * cn k d) / c01))
      = (∑ d : Fin 128, f i d * cn (t i) d) / c01 := by
  have h1 : ∀ k : Fin 1000,
      (if k = t i then (1 : ℝ) else 0) * ((∑ d : Fin 128, f i d * cn k d) / c01)
        = if k = t i then (∑ d : Fin 128, f i d * cn k d) / c01 else 0 := by
    intro k
    by_cases hk : k = t i
    · simp [hk]
    · simp [hk]
  rw [Finset.sum_congr rfl (fun k _ => h1 k), Finset.sum_ite_eq', if_pos (Finset.mem_univ _)]

theorem pos_eq (i : Fin 8192) :
    (∑ j : Fin 9192, M t i j * L f cn i j)
      = (∑ d : Fin 128, f i d * S f cn t (t i) d - ∑ d : Fin 128, f i d * f i d) / c01 := by
  rw [sum_cols]
  simp only [M_batch, M_centre, L_batch, L_centre]
  rw [sum_pos_batch, sum_pos_centre]
  unfold S
  simp only [mul_add, Finset.sum_add_distrib]
  ring

end Cert.Spec

end
-- ==== Proof.SpecRow.lean ====
/-
  The loss of a row read off the class sums is the loss computed column by column, for every shift `s`.

  Column by column, the shifted exponential times the chosen reciprocal is `exp (mx - s)` times the
  summand of `E`: on the row's own column both vanish; elsewhere `exp (L - s) = exp (mx - s) * exp (L - mx)`, and the
  chosen reciprocal is `1 / (cls - M)`: on a positive column `M = 1` and the guarded maximum is `cls - 1`,
  on any other column `M = 0` and the reciprocal is `1 / cls`.  So `Dk s i = exp (mx - s) * E i`, and as
  `E i` is positive, `log (Dk s i) = (mx - s) + log (E i)`; the shift cancels and the class-sum loss is
  `pos - mx - log E`.  On the other side `∑ M * ((L - mx) - log E) = ∑ M * L - (∑ M) * (mx + log E)`, the number
  of positive columns `∑ M = cls (t i) - 1` is at least one, and `(∑ M * L) / (cls (t i) - 1)` is `pos`.
-/
import proofs.«428374_j30889404793116_3_alg».proof.Proof.SpecFacts
import proofs.«428374_j30889404793116_3_alg».proof.Proof.SpecPos
import Mathlib.Analysis.SpecialFunctions.Log.Basic
import Mathlib.Algebra.BigOperators.Ring.Finset
import Mathlib.Tactic.Linarith
import Mathlib.Tactic.Ring
import Mathlib.Tactic.FieldSimp

noncomputable section

namespace Cert.Spec

open Finset

variable (f : Fin 8192 → Fin 128 → ℝ) (cn : Fin 1000 → Fin 128 → ℝ) (t : Fin 8192 → Fin 1000)

/-- One column: the shifted exponential times the chosen reciprocal is `exp (mx - s)` times the summand of `E`. -/
theorem Dk_term (s : ℝ) (i : Fin 8192) (j : Fin 9192) :
    (if j.val = i.val then 0 else Real.exp (L f cn i j - s))
        * (if tall t j = t i then invwm1 t j else invw t j)
      = Real.exp (mx f cn i - s)
        * (Real.exp (L f cn i j - mx f cn i) * lm i j / (cls t (tall t j) - M t i j)) := by
  have F := facts f cn t i
  by_cases hji : j.val = i.val
  · have hlm : lm i j = 0 := by unfold lm; rw [if_pos hji]
    rw [if_pos hji, hlm, zero_mul, mul_zero, zero_div, mul_zero]
  · have hlm : lm i j = 1 := by unfold lm; rw [if_neg hji]
    have hexp : Real.exp (L f cn i j - s)
        = Real.exp (mx f cn i - s) * Real.exp (L f cn i j - mx f cn i) := by
      rw [← Real.exp_add]
      congr 1
      ring
    rw [if_neg hji]
    by_cases hc : tall t j = t i
    · have hM : M t i j = 1 := by unfold M; rw [if_pos hc, hlm, mul_one]
      rw [if_pos hc]
      unfold invwm1
      rw [F.guard j hc hji, hM, hlm, hexp]
      ring
    · have hM : M t i j = 0 := by unfold M; rw [if_neg hc, zero_mul]
      rw [if_neg hc]
      unfold invw
      rw [hM, hlm, hexp, sub_zero]
      ring

/-- The weighted sum with the reciprocals multiplied in and shift `s` is `exp (mx - s)` times `E`. -/
theorem Dk_eq (s : ℝ) (i : Fin 8192) :
    Dk f cn t s i = Real.exp (mx f cn i - s) * E f cn t i := by
  unfold Dk E
  rw [Finset.mul_sum]
  exact Finset.sum_congr rfl (fun j _ => Dk_term f cn t s i j)

/-- The logarithm of the shifted weighted sum: the shift comes out additively. -/
theorem log_Dk (s : ℝ) (i : Fin 8192) :
    Real.log (Dk f cn t s i) = (mx f cn i - s) + Real.log (E f cn t i) := by
  have F := facts f cn t i
  rw [Dk_eq, Real.log_mul (Real.exp_pos _).ne' F.E_pos.ne', Real.log_exp]

/-- The numerator of the column-by-column loss: the positive logits' sum, less the count of positives times `mx + log E`. -/
theorem sum_M_split (i : Fin 8192) :
    (∑ j : Fin 9192, M t i j * ((L f cn i j - mx f cn i) - Real.log (E f cn t i)))
      = (∑ j : Fin 9192, M t i j * L f cn i j)
        - (∑ j : Fin 9192, M t i j) * (mx f cn i + Real.log (E f cn t i)) := by
  rw [Finset.sum_mul, ← Finset.sum_sub_distrib]
  exact Finset.sum_congr rfl (fun j _ => by ring)

theorem rowK_eq_rowR (s : ℝ) (i : Fin 8192) : rowK f cn t s i = rowR f cn t i := by
  have F := facts f cn t i
  have hne : cls t (t i) - 1 ≠ 0 := by
    have h2 := F.own_ge_two
    intro h
    linarith
  unfold rowK rowR
  rw [log_Dk, sum_M_split, F.cnt, pos_eq]
  unfold pos
  field_simp
  ring

end Cert.Spec

end
-- ==== Proof.PreDecode.lean ====
/-
  The precondition read back as arithmetic. The printed predicate is the conjunction of three universally quantified
  statements: every entry x of the first array satisfies |x| < +∞, every entry of the second array likewise, and every
  entry w of the third (a signed 32-bit word) satisfies 0 ≤ w and w < 1000. Over the extended reals |x| = max x (-x),
  and max x (-x) < ⊤ excludes both x = ⊤ and x = ⊥, so x is the image of a real number, namely of its real part.
  A signed word w with 0 ≤ w < 1000 has a clear top bit, so it reads the same signed and unsigned, and it is the
  word of a natural number below 1000. Hence the three arrays are, entrywise, a real 1000 × 128 table, a real
  8192 × 128 table and 8192 labels in {0, …, 999}.
-/
import proofs.«428374_j30889404793116_3_alg».proof.Pre_finite_inputs
import proofs.«428374_j30889404793116_3_alg».proof.Proof.Gen.Pre_finite_inputs
import Idealize.ShloMosaic.Lib.ReduceAll
import Idealize.ShloMosaic.Lib.StableHlo.Predicate
import Idealize.ShloMosaic.Lib.ValueIdx
import Mathlib.Data.EReal.Basic

noncomputable section

namespace Cert.PreDecode

open Idealize.ShloMosaic Idealize.ShloMosaic.ValueIdx

/-- The scalar shape has exactly one index. -/
instance : Subsingleton Cert.Pre_finite_inputs.S_.Idx := ⟨fun a b => funext fun d => d.elim0⟩

/-- The single-precision pattern 0x7F800000 denotes +∞. -/
theorem inf_bits : Ideal.ofBits .f32 0x7F800000#32 = ⊤ := by simp [Ideal.ofBits, Ideal.ieee]

/-- An extended real x with max x (-x) < +∞ is neither ⊤ nor ⊥, so it is the image of its real part. -/
theorem real_of_abs_lt_inf (x : EReal)
    (h : Ideal.cmp .olt (max x (-x)) (Ideal.ofBits .f32 0x7F800000#32) = 1#1) : x = ((x.toReal : ℝ) : EReal) := by
  rw [inf_bits] at h
  simp only [Ideal.cmp, StableHlo.Predicate.ofBool_eq_one_iff, decide_eq_true_eq] at h
  have h1 : x < ⊤ := lt_of_le_of_lt (le_max_left _ _) h
  have h2 : -x < ⊤ := lt_of_le_of_lt (le_max_right _ _) h
  have hx1 : x ≠ ⊤ := ne_of_lt h1
  have hx2 : x ≠ ⊥ := by
    rintro rfl
    rw [EReal.neg_bot] at h2
    exact lt_irrefl _ h2
  exact (EReal.coe_toReal hx1 hx2).symm

/-- A 32-bit word w with 0 ≤ w and w < 1000 as signed integers is the word of a natural number below 1000:
    0 ≤ w signed means the top bit is clear, so the signed and unsigned readings agree. -/
theorem word_lt_1000 (w : BitVec 32)
    (h : IntOp.andi (IntOp.cmpi .sge w 0#32) (IntOp.cmpi .slt w 1000#32) = 1#1) :
    w.toNat < 1000 ∧ w = BitVec.ofNat 32 w.toNat := by
  obtain ⟨hge, hlt⟩ := IntOp.andi_eq_one.1 h
  rw [IntOp.cmpi_sge, show (0#32 : BitVec 32).toInt = 0 from by decide] at hge
  rw [IntOp.cmpi_slt, show (1000#32 : BitVec 32).toInt = 1000 from by decide] at hlt
  have hpos : 2 * w.toNat < 2 ^ 32 := BitVec.toInt_pos_iff.1 hge
  have hti : w.toInt = w.toNat := BitVec.toInt_eq_toNat_of_lt hpos
  refine ⟨by omega, ?_⟩
  apply BitVec.eq_of_toNat_eq
  rw [BitVec.toNat_ofNat]
  have := w.isLt
  omega

/-- Real features and centres and in-range labels behind the three argument arrays. -/
structure Decoded (a0 : FVec Ideal Cert.Pre_finite_inputs.S1000x128 .f32) (a1 : FVec Ideal Cert.Pre_finite_inputs.S8192x128 .f32) (a2 : IVec Cert.Pre_finite_inputs.S8192 32) where
  cn : Fin 1000 → Fin 128 → ℝ
  f : Fin 8192 → Fin 128 → ℝ
  t : Fin 8192 → Fin 1000
  h0 : ∀ k d, a0 (ix2 k d) = ((cn k d : ℝ) : EReal)
  h1 : ∀ b d, a1 (ix2 b d) = ((f b d : ℝ) : EReal)
  h2 : ∀ b, a2 (ix1 b) = BitVec.ofNat 32 (t b).val

/-- When the printed precondition holds (its one output bit is 1), the first two arrays are entrywise real and the third
    holds labels below 1000: the conjunction splits into its three universal statements, each read at one entry. -/
theorem decode (a0 : FVec Ideal Cert.Pre_finite_inputs.S1000x128 .f32) (a1 : FVec Ideal Cert.Pre_finite_inputs.S8192x128 .f32) (a2 : IVec Cert.Pre_finite_inputs.S8192 32)
    (h : @Cert.Pre_finite_inputs.fn Cert.Pre_finite_inputs.Gen.facts Ideal _ a0 a1 a2 = fun _ => 1#1) : Nonempty (Decoded a0 a1 a2) := by
  have h0 := congrFun h ix0
  dsimp only [Cert.Pre_finite_inputs.fn] at h0
  obtain ⟨hAB, hC⟩ := IntOp.andi_eq_one.1 h0
  obtain ⟨hA, hB⟩ := IntOp.andi_eq_one.1 hAB
  have eA := fun i => Host.reduce_andi_all _ _ _ _ ix0 hA i
  have eB := fun i => Host.reduce_andi_all _ _ _ _ ix0 hB i
  have eC := fun i => Host.reduce_andi_all _ _ _ _ ix0 hC i
  have fC : ∀ b, (a2 (ix1 b)).toNat < 1000 ∧ a2 (ix1 b) = BitVec.ofNat 32 (a2 (ix1 b)).toNat :=
    fun b => word_lt_1000 _ (eC (ix1 b))
  exact ⟨{
    cn := fun k d => (a0 (ix2 k d)).toReal
    f := fun b d => (a1 (ix2 b d)).toReal
    t := fun b => ⟨(a2 (ix1 b)).toNat, (fC b).1⟩
    h0 := fun k d => real_of_abs_lt_inf _ (eA (ix2 k d))
    h1 := fun b d => real_of_abs_lt_inf _ (eB (ix2 b d))
    h2 := fun b => (fC b).2 }⟩

end Cert.PreDecode

end
-- ==== Proof.KHostVal.lean ====
/-
  What the seven arrays the kernel is launched on hold, entry by entry, when the launch memory holds real features
  `f`, real centres `cn` and labels `t` in range: the queries are the features; the label column the labels; the
  positive-term column `pos`; the column-side operand the features, then the centres, then 24 zero rows; its label
  row the columns' classes, then 24 entries of -1; its two reciprocal rows `invw` and `invwm1`, then 24 zeros.
-/
import proofs.«428374_j30889404793116_3_alg».proof.Proof.KIFrame
import proofs.«428374_j30889404793116_3_alg».proof.Proof.Spec
import proofs.«428374_j30889404793116_3_alg».proof.Proof.SpecFacts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVal

open Cert.KernelIdeal Cert.KernelIdeal.Gen Cert.KernelIdeal.HFrame Cert.Spec
open Idealize.ShloMosaic Idealize.ShloMosaic.TcCoe Idealize.SL.Sem Idealize.ShloMosaic.ValueIdx

variable (m : (ℓ : Loc nD τ sig) → Buf (Elt Ideal) ℓ) (c : Dev nD)
  (f : Fin 8192 → Fin 128 → ℝ) (cn : Fin 1000 → Fin 128 → ℝ) (t : Fin 8192 → Fin 1000)

/-- The launch memory holds the real centres `cn`, the real features `f` and the labels `t`. -/
structure Holds : Prop where
  h0 : ∀ k d, (m ((c : Thread nD τ).loc main_arg0) : S1000x128.Idx → EReal) (ix2 k d) = ((cn k d : ℝ) : EReal)
  h1 : ∀ b d, (m ((c : Thread nD τ).loc main_arg1) : S8192x128.Idx → EReal) (ix2 b d) = ((f b d : ℝ) : EReal)
  h2 : ∀ b, (m ((c : Thread nD τ).loc main_arg2) : S8192.Idx → BitVec 32) (ix1 b) = BitVec.ofNat 32 (t b).val

variable {m c f cn t}

/-! ## The four arrays as terms of the launch memory -/

/-- The queries: the features, narrowed (the identity on extended reals). -/
theorem kv1_q_eq : (V m c main_v68 : S8192x128.Idx → EReal) =
    (truncf .bf16 (m ((c : Thread nD τ).loc main_arg1) : FVec Ideal S8192x128 .f32) bitsLt_bf16_f32 : FVec Ideal S8192x128 .bf16) := by
  show StableHlo.after hostOps0 (fun b => m (c, b)) (Proc.devRef .tc main_v68) = _
  after_results_simp

/-- The label column: the labels, reshaped to one column. -/
theorem kv1_tcol_eq : (V m c main_v69 : S8192x1.Idx → BitVec 32) =
    shapeCast S8192x1 (m ((c : Thread nD τ).loc main_arg2) : S8192.Idx → BitVec 32) shapeCasts_S8192_S8192x1 := by
  show StableHlo.after hostOps0 (fun b => m (c, b)) (Proc.devRef .tc main_v69) = _
  after_results_simp
  rfl

/-- The columns' label row: the labels, then the classes in order, then 24 words of all ones, reshaped to one row. -/
theorem kv1_trow_eq : (V m c main_v71 : S1x9216.Idx → BitVec 32) =
    shapeCast S1x9216 (concatenate S9216 0 [⟨S9192, concatenate S9192 0 [⟨S8192, (m ((c : Thread nD τ).loc main_arg2) : S8192.Idx → BitVec 32)⟩, ⟨S1000, (iotaInDim S1000 32 0 : S1000.Idx → BitVec 32)⟩] concatenates_S8192_S1000_S9192_d0⟩,
       ⟨S24, broadcastInDim S24 ![] bcast_S_S24 (constantI S_ 32 4294967295#32 : S_.Idx → BitVec 32)⟩] concatenates_S9192_S24_S9216_d0) shapeCasts_S9216_S1x9216 := by
  show StableHlo.after hostOps0 (fun b => m (c, b)) (Proc.devRef .tc main_v71) = _
  after_results_simp
  rfl

/-- The column-side operand: the features, then the centres, then 24 rows of the zero word, narrowed. -/
theorem kv1_cols_eq : (V m c main_v67 : S9216x128.Idx → EReal) =
    (truncf .bf16 (concatenate S9216x128 0 [⟨S8192x128, (m ((c : Thread nD τ).loc main_arg1) : FVec Ideal S8192x128 .f32)⟩, ⟨S1000x128, (m ((c : Thread nD τ).loc main_arg0) : FVec Ideal S1000x128 .f32)⟩,
      ⟨S24x128, (broadcastInDim S24x128 ![] bcast_S_S24x128 (constant (F := Ideal) S_ .f32 0x00000000#32) : FVec Ideal S24x128 .f32)⟩] concatenates_S8192x128_S1000x128_S24x128_S9216x128_d0 : FVec Ideal S9216x128 .f32) bitsLt_bf16_f32 : FVec Ideal S9216x128 .bf16) := by
  show StableHlo.after hostOps0 (fun b => m (c, b)) (Proc.devRef .tc main_v67) = _
  after_results_simp
  rfl

/-! ## Read entry by entry -/

theorem q_val (H : Holds m c f cn t) (i : Fin 8192) (d : Fin 128) :
    (V m c main_v68 : S8192x128.Idx → EReal) (ix2 i d) = ((f i d : ℝ) : EReal) := by
  rw [kv1_q_eq, truncf_apply]
  exact H.h1 i d

/-- A vector cast to one column reads, at `(i, u)`, the operand at `i`. -/
theorem kv1_shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem tcol_val (H : Holds m c f cn t) (i : Fin 8192) :
    (V m c main_v69 : S8192x1.Idx → BitVec 32) (ix2 i 0) = BitVec.ofNat 32 (t i).val := by
  rw [kv1_tcol_eq, kv1_shapeCast_col_apply]
  exact H.h2 i

/-- The three-piece concatenation along the rows, read at `(j, d)`: the piece whose rows hold `j`. -/
theorem kv1_cat3_apply {α : Type} (x₁ : S8192x128.Idx → α) (x₂ : S1000x128.Idx → α) (x₃ : S24x128.Idx → α)
    (j : Fin 9216) (d : Fin 128) :
    concatenate S9216x128 0 [⟨S8192x128, x₁⟩, ⟨S1000x128, x₂⟩, ⟨S24x128, x₃⟩]
        concatenates_S8192x128_S1000x128_S24x128_S9216x128_d0 (ix2 j d)
      = if h : j.val < 8192 then x₁ (ix2 ⟨j.val, h⟩ d)
        else if h2 : j.val < 9192 then x₂ (ix2 ⟨j.val - 8192, by omega⟩ d)
        else x₃ (ix2 ⟨j.val - 9192, by have := j.isLt; omega⟩ d) := by
  by_cases h : j.val < 8192
  · rw [dif_pos h]
    exact concatenate_apply_piece 0 [⟨S8192x128, x₁⟩, ⟨S1000x128, x₂⟩, ⟨S24x128, x₃⟩]
      concatenates_S8192x128_S1000x128_S24x128_S9216x128_d0 (ix2 j d) 0 (by show 0 < 3; omega) S8192x128 x₁ rfl rfl 0 rfl
      (ix2 ⟨j.val, h⟩ d)
      (by
        intro b hb
        match b with
        | ⟨0, _⟩ => exact absurd rfl hb
        | ⟨1, _⟩ => rfl)
      (by show 0 + j.val = j.val; omega)
  · rw [dif_neg h]
    by_cases h2 : j.val < 9192
    · rw [dif_pos h2]
      exact concatenate_apply_piece 0 [⟨S8192x128, x₁⟩, ⟨S1000x128, x₂⟩, ⟨S24x128, x₃⟩]
        concatenates_S8192x128_S1000x128_S24x128_S9216x128_d0 (ix2 j d) 1 (by show 1 < 3; omega) S1000x128 x₂ rfl rfl 8192 rfl
        (ix2 ⟨j.val - 8192, by omega⟩ d)
        (by
          intro b hb
          match b with
          | ⟨0, _⟩ => exact absurd rfl hb
          | ⟨1, _⟩ => rfl)
        (by show 8192 + (j.val - 8192) = j.val; omega)
    · rw [dif_neg h2]
      exact concatenate_apply_piece 0 [⟨S8192x128, x₁⟩, ⟨S1000x128, x₂⟩, ⟨S24x128, x₃⟩]
        concatenates_S8192x128_S1000x128_S24x128_S9216x128_d0 (ix2 j d) 2 (by show 2 < 3; omega) S24x128 x₃ rfl rfl 9192 rfl
        (ix2 ⟨j.val - 9192, by have := j.isLt; omega⟩ d)
        (by
          intro b hb
          match b with
          | ⟨0, _⟩ => exact absurd rfl hb
          | ⟨1, _⟩ => rfl)
        (by show 9192 + (j.val - 9192) = j.val; omega)

theorem cols_val (H : Holds m c f cn t) (j : Fin 9216) (d : Fin 128) :
    (V m c main_v67 : S9216x128.Idx → EReal) (ix2 j d)
      = if h : j.val < 9192 then ((fall f cn ⟨j.val, h⟩ d : ℝ) : EReal) else 0 := by
  rw [kv1_cols_eq, truncf_apply, kv1_cat3_apply]
  by_cases h2 : j.val < 8192
  · -- a batch row
    have h : j.val < 9192 := by omega
    rw [dif_pos h2, dif_pos h, H.h1]
    unfold fall
    rw [dif_pos h2]
  · by_cases h : j.val < 9192
    · -- a centre
      rw [dif_neg h2, dif_pos h, dif_pos h, H.h0]
      unfold fall
      rw [dif_neg h2]
    · -- a padding row: the zero word
      rw [dif_neg h2, dif_neg h, dif_neg h]
      exact Ideal.ofBits_zero_f32

theorem trow_val (H : Holds m c f cn t) (j : Fin 9216) :
    (V m c main_v71 : S1x9216.Idx → BitVec 32) (ix2 0 j)
      = if h : j.val < 9192 then BitVec.ofNat 32 (tall t ⟨j.val, h⟩).val else 4294967295#32 := by
  rw [kv1_trow_eq, shapeCast_a_1a_apply]
  by_cases h : j.val < 9192
  · -- a column: the first piece, itself the labels then the classes in order
    rw [dif_pos h, concatenate_pair_apply_left 0 _ _ concatenates_S9192_S24_S9216_d0 (ix1 j) rfl (ix1 ⟨j.val, h⟩)
      (fun b => match b with | ⟨0, _⟩ => rfl)]
    by_cases h2 : j.val < 8192
    · rw [concatenate_pair_apply_left 0 _ _ concatenates_S8192_S1000_S9192_d0 (ix1 ⟨j.val, h⟩) rfl (ix1 ⟨j.val, h2⟩)
        (fun b => match b with | ⟨0, _⟩ => rfl)]
      rw [H.h2]
      unfold tall
      rw [dif_pos h2]
    · have h3 : j.val - 8192 < 1000 := by omega
      rw [concatenate_pair_apply_right 0 _ _ concatenates_S8192_S1000_S9192_d0 (ix1 ⟨j.val, h⟩) rfl rfl (ix1 ⟨j.val - 8192, h3⟩)
        (fun b hb => absurd (Subsingleton.elim _ _) hb)
        (by show j.val - 8192 + 8192 = j.val; omega)]
      unfold tall
      rw [dif_neg h2]
      rfl
  · -- past the columns: the word of all ones
    have h3 : j.val - 9192 < 24 := by have := j.isLt; omega
    rw [dif_neg h, concatenate_pair_apply_right 0 _ _ concatenates_S9192_S24_S9216_d0 (ix1 j) rfl rfl (ix1 ⟨j.val - 9192, h3⟩)
      (fun b hb => absurd (Subsingleton.elim _ _) hb)
      (by show j.val - 9192 + 9192 = j.val; omega)]
    rfl

end Cert.KernelIdeal.HostVal

end
-- ==== Proof.KHostVal2.lean ====
/-
  Two of the computed operands of the launch, entry by entry, over real features `f`, centres `cn` and in-range labels `t`:
  the class counts are an accumulating scatter of ones at the columns' classes, read back by a gather at the same
  classes; the two reciprocal rows are `1 / count` and `1 / max (count - 1) eps`, then 24 zeros.
-/
import proofs.«428374_j30889404793116_3_alg».proof.Proof.KHostVal
import Idealize.ShloMosaic.Lib.StableHlo.Predicate
import Idealize.ShloMosaic.Lib.IdealHost
import Idealize.ShloMosaic.Lib.ValueLayout

noncomputable section

namespace Cert.KernelIdeal.HostVal

open Cert.KernelIdeal Cert.KernelIdeal.Gen Cert.KernelIdeal.HFrame Cert.Spec
open Idealize.ShloMosaic Idealize.ShloMosaic.TcCoe Idealize.SL.Sem Idealize.ShloMosaic.ValueIdx
open Idealize.ShloMosaic.StableHlo

variable {m : (ℓ : Loc nD τ sig) → Buf (Elt Ideal) ℓ} {c : Dev nD}
  {f : Fin 8192 → Fin 128 → ℝ} {cn : Fin 1000 → Fin 128 → ℝ} {t : Fin 8192 → Fin 1000}

/-! ## The operations' terms -/

/-- The columns' class words: the batch labels, then the words 0 … 999. -/
def w_cw (a2 : S8192.Idx → BitVec 32) : S9192.Idx → BitVec 32 :=
  concatenate S9192 0 [⟨S8192, a2⟩, ⟨S1000, iotaInDim S1000 32 0⟩] Facts₀.concatenates_S8192_S1000_S9192_d0

/-- An index word normalised as a table lookup does: a negative word has the table's length added. -/
def w_nrm (x : S9192.Idx → BitVec 32) : S9192.Idx → BitVec 32 :=
  select (cmpi .slt x (broadcastInDim S9192 ![] Facts₀.bcast_S_S9192 (constantI S_ 32 0#32)))
    (addi x (broadcastInDim S9192 ![] Facts₀.bcast_S_S9192 (constantI S_ 32 1000#32))) x

/-- The normalised class words as a column of start indices. -/
def w_col (a2 : S8192.Idx → BitVec 32) : S9192x1.Idx → BitVec 32 :=
  broadcastInDim S9192x1 ![0] Facts₀.bcast_S9192_S9192x1_0 (w_nrm (w_cw a2))

/-- The class counts: ones scattered, accumulating, onto zeros at the columns' classes. -/
def w_cnt (a2 : S8192.Idx → BitVec 32) : S1000.Idx → EReal :=
  Host.scatterAdd (F := Ideal) scatter_S1000_S9192x1_S9192_n_0_0_1
    (broadcastInDim S1000 ![] Facts₀.bcast_S_S1000 (constant (F := Ideal) S_ .f32 0x00000000#32))
    (w_col a2)
    (broadcastInDim S9192 ![] Facts₀.bcast_S_S9192 (constant (F := Ideal) S_ .f32 0x3F800000#32))

/-- Each column's class count: the counts gathered at the columns' classes. -/
def w_gat (a2 : S8192.Idx → BitVec 32) : S9192.Idx → EReal :=
  Host.gather gather_S1000_S9192x1_S9192_n_0_n_n_0_1_1 (w_cnt a2) (w_col a2)

/-- A row of 9192 entries followed by 24 zeros, as one row of a 1 × 9216 array. -/
def w_pad (x : S9192.Idx → EReal) : S1x9216.Idx → EReal :=
  shapeCast S1x9216
    (concatenate S9216 0 [⟨S9192, x⟩,
      ⟨S24, broadcastInDim S24 ![] Facts₀.bcast_S_S24 (constant (F := Ideal) S_ .f32 0x00000000#32)⟩]
      Facts₀.concatenates_S9192_S24_S9216_d0)
    Facts₀.shapeCasts_S9216_S1x9216

/-- The first reciprocal row before padding: one over the count. -/
def w_inv (a2 : S8192.Idx → BitVec 32) : S9192.Idx → EReal :=
  Host.divf (F := Ideal) (broadcastInDim S9192 ![] Facts₀.bcast_S_S9192 (constant (F := Ideal) S_ .f32 0x3F800000#32)) (w_gat a2)

/-- The second reciprocal row before padding: one over the larger of the count less one and the guard. -/
def w_invm1 (a2 : S8192.Idx → BitVec 32) : S9192.Idx → EReal :=
  Host.divf (F := Ideal) (broadcastInDim S9192 ![] Facts₀.bcast_S_S9192 (constant (F := Ideal) S_ .f32 0x3F800000#32))
    (maximumf
      (subf (w_gat a2) (broadcastInDim S9192 ![] Facts₀.bcast_S_S9192 (constant (F := Ideal) S_ .f32 0x3F800000#32)))
      (broadcastInDim S9192 ![] Facts₀.bcast_S_S9192 (constant (F := Ideal) S_ .f32 0x358637BD#32)))

/-! ## What the launch's operands are, as terms of the label array -/

set_option maxHeartbeats 4000000 in
theorem w_v10 : (V m c main_v10 : S1000.Idx → EReal) = w_cnt (m ((c : Thread nD τ).loc main_arg2)) := by
  show StableHlo.after hostOps0 (fun b => m (c, b)) (Proc.devRef .tc main_v10) = _
  after_results
  rfl

set_option maxHeartbeats 4000000 in
theorem w_v17 : (V m c main_v17 : S9192.Idx → EReal) = w_gat (m ((c : Thread nD τ).loc main_arg2)) := by
  show StableHlo.after hostOps0 (fun b => m (c, b)) (Proc.devRef .tc main_v17) = _
  after_results
  rfl

set_option maxHeartbeats 16000000 in
theorem w_v72 : (V m c main_v72 : S1x9216.Idx → EReal) = w_pad (w_inv (m ((c : Thread nD τ).loc main_arg2))) := by
  show StableHlo.after hostOps0 (fun b => m (c, b)) (Proc.devRef .tc main_v72) = _
  after_results
  rfl

set_option maxHeartbeats 16000000 in
theorem w_v73 : (V m c main_v73 : S1x9216.Idx → EReal) = w_pad (w_invm1 (m ((c : Thread nD τ).loc main_arg2))) := by
  show StableHlo.after hostOps0 (fun b => m (c, b)) (Proc.devRef .tc main_v73) = _
  after_results
  rfl

/-! ## Indices -/

/-- The two ways of writing a vector's index by its coordinate agree. -/
theorem w_ix1 {n : Nat} (p : Fin n) : (ix1 p : (⟨1, ![n]⟩ : Shape).Idx) = Shape.Idx.ofFin p :=
  Shape.Idx.eq_ofFin (ix1 p)

/-- Row `p` of a one-column array, written by coordinates. -/
theorem w_ixP {n : Nat} (p : Fin n) : (ix2 p (0 : Fin 1) : (⟨2, ![n, 1]⟩ : Shape).Idx) = Predicate.ixP p := by
  funext a
  match a with
  | ⟨0, _⟩ => rfl
  | ⟨1, _⟩ => rfl

theorem w_ofFin_inj {n : Nat} {p q : Fin n} (h : (Shape.Idx.ofFin p : (⟨1, ![n]⟩ : Shape).Idx) = Shape.Idx.ofFin q) : p = q := by
  have h0 := congrFun h 0
  rw [Shape.Idx.ofFin_zero, Shape.Idx.ofFin_zero] at h0
  exact h0

/-- A sum of ones over the extended reals is the number of terms. -/
theorem w_nsmul_one (n : ℕ) : n • (1 : EReal) = ((n : ℝ) : EReal) := by
  induction n with
  | zero => simp
  | succ k ih => rw [succ_nsmul, ih, Nat.cast_succ, EReal.coe_add, EReal.coe_one]

/-! ## The accumulating scatter of a vector of updates at a column of start indices -/

/-- Update `p` lands on the operand entry its start index names, when that is inside the operand. -/
theorem w_scatter_result {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (p : Fin n) (v : Fin N) (hv : (idx (Predicate.ixP p)).toInt = (v.val : Int)) :
    d.resultIdx? (Shape.Idx.ofFin p) idx = some (Shape.Idx.ofFin v) := by
  have hm : (0 : Fin 1) ∈ d.scatterDimsToOperandDims := by rw [hsd]; exact List.mem_singleton.mpr rfl
  have hk : (0 : Fin 1) ∉ d.sKept := by simp [ScatterDims.sKept, Shape.kept, hiw]
  have hsi : d.siIdx (Shape.Idx.ofFin p) ⟨List.idxOf (0 : Fin 1) d.scatterDimsToOperandDims,
      List.idxOf_lt_length_iff.2 hm⟩ = Predicate.ixP p := by
    funext b
    match b with
    | ⟨0, _⟩ =>
      unfold ScatterDims.siIdx
      rw [dif_neg (by rw [hivd]; simp)]
      unfold ScatterDims.siCoord
      apply Fin.ext
      simp only [Fin.val_cast]
      rfl
    | ⟨1, _⟩ =>
      unfold ScatterDims.siIdx
      rw [dif_pos (by rw [hivd])]
      apply Fin.ext
      show List.idxOf (0 : Fin 1) d.scatterDimsToOperandDims = 0
      rw [hsd]; simp
  have hst : ∀ a : Fin 1, d.start (Shape.Idx.ofFin p) idx a + d.window (Shape.Idx.ofFin p) a = (v.val : Int) := by
    intro a
    obtain rfl : a = 0 := Subsingleton.elim _ _
    unfold ScatterDims.start ScatterDims.window
    rw [dif_pos hm, dif_neg hk, hsi, hv]
    simp
  unfold ScatterDims.resultIdx?
  rw [dif_pos (fun a => by
    obtain rfl : a = 0 := Subsingleton.elim _ _
    rw [hst 0]
    refine ⟨Int.natCast_nonneg _, ?_⟩
    show (v.val : Int) < ((N : Nat) : Int)
    exact_mod_cast v.isLt)]
  congr 1
  funext a
  apply Fin.ext
  show (d.start (Shape.Idx.ofFin p) idx a + d.window (Shape.Idx.ofFin p) a).toNat = v.val
  rw [hst a]
  simp

/-- Ones scattered, accumulating, at start indices that all lie inside the operand: entry `k` gains the number of
    updates whose start index is `k`. -/
theorem w_scatter_count {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (cl : Fin n → Fin N) (hcl : ∀ p, (idx (Predicate.ixP p)).toInt = ((cl p).val : Int))
    (x upd : (⟨1, ![n]⟩ : Shape).Idx → EReal) (x0 : (⟨1, ![N]⟩ : Shape).Idx → EReal) (hupd : ∀ j, upd j = 1) (k : Fin N) :
    Ideal.hostScatterAdd d x0 idx upd (Shape.Idx.ofFin k)
      = x0 (Shape.Idx.ofFin k) + (((Finset.univ.filter (fun p : Fin n => cl p = k)).card : ℝ) : EReal) := by
  unfold Ideal.hostScatterAdd
  congr 1
  rw [Finset.sum_congr rfl (fun j _ => hupd j), Finset.sum_const]
  have hc : (Finset.univ.filter (fun j : (⟨1, ![n]⟩ : Shape).Idx => d.resultIdx? j idx = some (Shape.Idx.ofFin k))).card
      = (Finset.univ.filter (fun p : Fin n => cl p = k)).card := by
    apply Finset.card_bij (fun j _ => (j 0 : Fin n))
    · intro j hj
      obtain ⟨p, rfl⟩ : ∃ p, j = Shape.Idx.ofFin p := ⟨j 0, Shape.Idx.eq_ofFin j⟩
      have h2 := (Finset.mem_filter.mp hj).2
      rw [w_scatter_result d hiw hsd hivd idx p (cl p) (hcl p)] at h2
      have e : cl p = k := w_ofFin_inj (Option.some.inj h2)
      exact Finset.mem_filter.mpr ⟨Finset.mem_univ _, e⟩
    · intro a _ b _ h
      rw [Shape.Idx.eq_ofFin a, Shape.Idx.eq_ofFin b]
      exact congrArg Shape.Idx.ofFin h
    · intro p hp
      have e : cl p = k := (Finset.mem_filter.mp hp).2
      refine ⟨Shape.Idx.ofFin p, Finset.mem_filter.mpr ⟨Finset.mem_univ _, ?_⟩, Shape.Idx.ofFin_zero p⟩
      rw [w_scatter_result d hiw hsd hivd idx p (cl p) (hcl p), e]
  rw [hc, w_nsmul_one]

/-! ## The class words and the start indices -/

/-- The columns' class words are the columns' classes. -/
theorem w_cw_val (a2 : S8192.Idx → BitVec 32) (h2 : ∀ b, a2 (ix1 b) = BitVec.ofNat 32 (t b).val) (j : Fin 9192) :
    w_cw a2 (ix1 j) = BitVec.ofNat 32 (tall t j).val := by
  unfold w_cw
  by_cases hj : j.val < 8192
  · rw [concatenate_pair_apply_left (0 : Fin S9192.rank) a2 (iotaInDim S1000 32 0) Facts₀.concatenates_S8192_S1000_S9192_d0
      (ix1 j) rfl (ix1 (⟨j.val, hj⟩ : Fin 8192)) (fun b => by match b with | ⟨0, _⟩ => rfl)]
    rw [h2]
    unfold tall
    rw [dif_pos hj]
  · have hlt : j.val - 8192 < 1000 := by have := j.isLt; omega
    rw [concatenate_pair_apply_right (0 : Fin S9192.rank) a2 (iotaInDim S1000 32 0) Facts₀.concatenates_S8192_S1000_S9192_d0
      (ix1 j) rfl rfl (ix1 (⟨j.val - 8192, hlt⟩ : Fin 1000))
      (fun b hb => absurd (by match b with | ⟨0, _⟩ => rfl) hb)
      (by show j.val - 8192 + 8192 = j.val; omega)]
    show BitVec.ofNat 32 (j.val - 8192) = _
    unfold tall
    rw [dif_neg hj]

/-- A word that is a class is its own normalisation. -/
theorem w_nrm_val (x : S9192.Idx → BitVec 32) (i : S9192.Idx) (k : ℕ) (hk : k < 1000) (hx : x i = BitVec.ofNat 32 k) :
    w_nrm x i = BitVec.ofNat 32 k := by
  unfold w_nrm
  rw [select_apply]
  have hc : cmpi .slt x (broadcastInDim S9192 ![] Facts₀.bcast_S_S9192 (constantI S_ 32 0#32)) i = 0#1 := by
    apply eq_zero_of_ne_one
    show ¬ IntOp.cmpi .slt (x i) (0#32) = 1#1
    rw [hx, Predicate.slt_iff_toNat (by rw [BitVec.toNat_ofNat]; omega) (by decide)]
    simp
  rw [hc, select_zero, hx]

/-- The column of start indices holds the columns' classes. -/
theorem w_col_val (a2 : S8192.Idx → BitVec 32) (h2 : ∀ b, a2 (ix1 b) = BitVec.ofNat 32 (t b).val) (j : Fin 9192) :
    w_col a2 (Predicate.ixP j) = BitVec.ofNat 32 (tall t j).val := by
  unfold w_col
  rw [Predicate.bcast_col1, ← w_ix1]
  exact w_nrm_val _ _ _ (tall t j).isLt (w_cw_val a2 h2 j)

theorem w_col_toInt (a2 : S8192.Idx → BitVec 32) (h2 : ∀ b, a2 (ix1 b) = BitVec.ofNat 32 (t b).val) (j : Fin 9192) :
    (w_col a2 (Predicate.ixP j)).toInt = ((tall t j).val : Int) := by
  rw [w_col_val a2 h2 j, Predicate.toInt_ofNat_small _ (by have := (tall t j).isLt; omega)]

/-! ## The counts, and the counts read back at the columns' classes -/

/-- The scattered ones count each class's columns. -/
theorem w_cnt_val (a2 : S8192.Idx → BitVec 32) (h2 : ∀ b, a2 (ix1 b) = BitVec.ofNat 32 (t b).val) (k : Fin 1000) :
    w_cnt a2 (ix1 k) = ((cls t k : ℝ) : EReal) := by
  unfold w_cnt
  rw [w_ix1]
  show Ideal.hostScatterAdd scatter_S1000_S9192x1_S9192_n_0_0_1 _ (w_col a2) _ (Shape.Idx.ofFin k) = _
  rw [w_scatter_count scatter_S1000_S9192x1_S9192_n_0_0_1 rfl rfl rfl (w_col a2) (tall t) (w_col_toInt a2 h2)
    (fun _ => 0) _ _ (fun j => by rw [broadcastInDim_scalar_apply]; exact Ideal.ofBits_one_f32) k]
  rw [broadcastInDim_scalar_apply]
  show Ideal.ofBits .f32 0x00000000#32 + _ = _
  rw [Ideal.ofBits_zero_f32, zero_add]
  rfl

/-- The gather reads, at column `j`, the count of the column's class. -/
theorem w_gat_val (a2 : S8192.Idx → BitVec 32) (h2 : ∀ b, a2 (ix1 b) = BitVec.ofNat 32 (t b).val) (j : Fin 9192) :
    w_gat a2 (ix1 j) = ((cls t (tall t j) : ℝ) : EReal) := by
  unfold w_gat
  rw [w_ix1]
  refine (Predicate.gather_take gather_S1000_S9192x1_S9192_n_0_n_n_0_1_1 rfl rfl rfl rfl (w_cnt a2) (w_col a2) j
    (by decide)).trans ?_
  rw [← w_cnt_val a2 h2 (tall t j), w_ix1]
  congr 2
  apply Fin.ext
  show min (w_col a2 (Predicate.ixP j)).toInt.toNat (1000 - 1) = (tall t j).val
  rw [w_col_toInt a2 h2 j]
  have := (tall t j).isLt
  simp
  omega

/-! ## The padded row at an entry -/

/-- The padded row reads the 9192 entries, then zeros. -/
theorem w_pad_val (x : S9192.Idx → EReal) (j : Fin 9216) :
    w_pad x (ix2 (0 : Fin 1) j) = if h : j.val < 9192 then x (ix1 (⟨j.val, h⟩ : Fin 9192)) else 0 := by
  unfold w_pad
  rw [shapeCast_a_1a_apply]
  by_cases h : j.val < 9192
  · rw [dif_pos h]
    exact concatenate_pair_apply_left (0 : Fin S9216.rank) x _ Facts₀.concatenates_S9192_S24_S9216_d0
      (ix1 j) rfl (ix1 (⟨j.val, h⟩ : Fin 9192)) (fun b => by match b with | ⟨0, _⟩ => rfl)
  · rw [dif_neg h]
    have hlt : j.val - 9192 < 24 := by have := j.isLt; omega
    rw [concatenate_pair_apply_right (0 : Fin S9216.rank) x _ Facts₀.concatenates_S9192_S24_S9216_d0
      (ix1 j) rfl rfl (ix1 (⟨j.val - 9192, hlt⟩ : Fin 24))
      (fun b hb => absurd (by match b with | ⟨0, _⟩ => rfl) hb)
      (by show j.val - 9192 + 9192 = j.val; omega)]
    rw [broadcastInDim_scalar_apply]
    exact Ideal.ofBits_zero_f32

/-! ## The two reciprocals -/

/-- The guard's word is the guard. -/
theorem w_eps : Ideal.ofBits .f32 0x358637BD#32 = ((eps : ℝ) : EReal) := by
  unfold eps
  simp [Ideal.ofBits, Ideal.ieee, -EReal.coe_mul]; norm_num

/-- One over the count. -/
theorem w_inv_val (a2 : S8192.Idx → BitVec 32) (h2 : ∀ b, a2 (ix1 b) = BitVec.ofNat 32 (t b).val)
    (hc : ∀ k, 1 ≤ cls t k) (j : Fin 9192) :
    w_inv a2 (ix1 j) = ((invw t j : ℝ) : EReal) := by
  unfold w_inv
  rw [hostDivf_apply, w_gat_val a2 h2 j, broadcastInDim_scalar_apply]
  show Ideal.div (Ideal.ofBits .f32 0x3F800000#32) _ = _
  have hne : cls t (tall t j) ≠ 0 := by have := hc (tall t j); intro e; rw [e] at this; norm_num at this
  rw [Ideal.ofBits_one_f32, Ideal.div_coe hne, one_mul]
  rfl

/-- One over the larger of the count less one and the guard. -/
theorem w_invm1_val (a2 : S8192.Idx → BitVec 32) (h2 : ∀ b, a2 (ix1 b) = BitVec.ofNat 32 (t b).val)
    (hg : ∀ j, 0 < max (cls t (tall t j) - 1) eps) (j : Fin 9192) :
    w_invm1 a2 (ix1 j) = ((invwm1 t j : ℝ) : EReal) := by
  unfold w_invm1
  rw [hostDivf_apply, maximumf_apply, subf_apply, w_gat_val a2 h2 j]
  simp only [broadcastInDim_scalar_apply]
  show Ideal.div (Ideal.ofBits .f32 0x3F800000#32)
    (max (((cls t (tall t j) : ℝ) : EReal) - Ideal.ofBits .f32 0x3F800000#32) (Ideal.ofBits .f32 0x358637BD#32)) = _
  have hmax : max (((cls t (tall t j) - 1 : ℝ) : ℝ) : EReal) ((eps : ℝ) : EReal)
      = ((max (cls t (tall t j) - 1) eps : ℝ) : EReal) := (EReal.coe_strictMono.monotone.map_max).symm
  rw [Ideal.ofBits_one_f32, w_eps, ← EReal.coe_one, ← EReal.coe_sub, hmax,
    Ideal.div_coe (ne_of_gt (hg j)), EReal.coe_one, one_mul]
  rfl

/-! ## The counts of the launch, entry by entry -/

/-- The count array holds, at class `k`, the number of columns of class `k`. -/
theorem w_count_val (H : Holds m c f cn t) (k : Fin 1000) :
    (V m c main_v10 : S1000.Idx → EReal) (ix1 k) = ((cls t k : ℝ) : EReal) := by
  rw [w_v10]
  exact w_cnt_val _ H.h2 k

/-- The gathered counts hold, at column `j`, the number of columns of column `j`'s class. -/
theorem w_colcount_val (H : Holds m c f cn t) (j : Fin 9192) :
    (V m c main_v17 : S9192.Idx → EReal) (ix1 j) = ((cls t (tall t j) : ℝ) : EReal) := by
  rw [w_v17]
  exact w_gat_val _ H.h2 j

/-! ## The two reciprocal rows of the launch -/

theorem invw_val (H : Holds m c f cn t) (j : Fin 9216) :
    (V m c main_v72 : S1x9216.Idx → EReal) (ix2 0 j)
      = if h : j.val < 9192 then ((invw t ⟨j.val, h⟩ : ℝ) : EReal) else 0 := by
  rw [w_v72, w_pad_val]
  by_cases h : j.val < 9192
  · rw [dif_pos h, dif_pos h]
    exact w_inv_val _ H.h2 (Cert.Spec.facts f cn t ⟨0, by norm_num⟩).cls_ge_one ⟨j.val, h⟩
  · rw [dif_neg h, dif_neg h]

theorem invwm1_val (H : Holds m c f cn t) (j : Fin 9216) :
    (V m c main_v73 : S1x9216.Idx → EReal) (ix2 0 j)
      = if h : j.val < 9192 then ((invwm1 t ⟨j.val, h⟩ : ℝ) : EReal) else 0 := by
  rw [w_v73, w_pad_val]
  by_cases h : j.val < 9192
  · rw [dif_pos h, dif_pos h]
    exact w_invm1_val _ H.h2 (Cert.Spec.facts f cn t ⟨0, by norm_num⟩).guard_pos ⟨j.val, h⟩
  · rw [dif_neg h, dif_neg h]

end Cert.KernelIdeal.HostVal

end
-- ==== Proof.KHostVal3.lean ====
/-
  The positive-term column of the launch, entry by entry, over real features `f`, centres `cn` and in-range labels `t`:
  the row's inner product with its gathered class sum (an accumulating scatter of the features over the labels, plus
  the centres) less its own square norm, over the temperature, over the row's class count less one.
-/
import proofs.«428374_j30889404793116_3_alg».proof.Proof.KHostVal
import Idealize.ShloMosaic.Lib.StableHlo.Predicate
import Idealize.ShloMosaic.Lib.Pipeline.Value
import Idealize.ShloMosaic.PureOps.Ideal.Laws
import Idealize.ShloMosaic.Lib.IdealHost
import Idealize.ShloMosaic.Lib.ValueIdxRank1

noncomputable section

namespace Cert.KernelIdeal.HostVal

open Cert.KernelIdeal Cert.KernelIdeal.Gen Cert.KernelIdeal.HFrame Cert.Spec
open Idealize.ShloMosaic Idealize.ShloMosaic.TcCoe Idealize.SL.Sem Idealize.ShloMosaic.ValueIdx

variable {m : (ℓ : Loc nD τ sig) → Buf (Elt Ideal) ℓ} {c : Dev nD}
  {f : Fin 8192 → Fin 128 → ℝ} {cn : Fin 1000 → Fin 128 → ℝ} {t : Fin 8192 → Fin 1000}

/-! ## Where an accumulating scatter's updates land -/

/-- A scatter into a vector with one start index per update (the index vector on axis 1, no window): update `p` lands at the
    entry its start index names, read signed. -/
theorem p_scatter1_res {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (p : Fin n) (i : (⟨1, ![N]⟩ : Shape).Idx) :
    d.resultIdx? (ix1 p) idx = some i ↔ (idx (ix2 p (0 : Fin 1))).toInt = ((i 0).val : ℤ) := by
  have hs : ∀ a, d.start (ix1 p) idx a = (idx (ix2 p (0 : Fin 1))).toInt := by
    intro a
    have ha0 : a = 0 := Subsingleton.elim _ _
    subst ha0
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hw : ∀ a, d.window (ix1 p) a = 0 := by
    intro a
    have ha0 : a = 0 := Subsingleton.elim _ _
    subst ha0
    unfold ScatterDims.window
    rw [dif_neg]
    simp [ScatterDims.sKept, Shape.kept, hiw]
  unfold ScatterDims.resultIdx?
  have hi := (i 0).isLt
  by_cases h : ∀ a, 0 ≤ d.start (ix1 p) idx a + (d.window (ix1 p) a : ℤ) ∧ d.start (ix1 p) idx a + (d.window (ix1 p) a : ℤ) < ((⟨1, ![N]⟩ : Shape).size a : ℤ)
  · rw [dif_pos h]
    constructor
    · intro e
      have e1 := congrArg Fin.val (congrFun (Option.some.inj e) 0)
      have h0 := h 0
      rw [hs, hw] at h0
      simp only [hs, hw] at e1
      omega
    · intro e
      congr 1
      funext a
      have ha0 : a = 0 := Subsingleton.elim _ _
      subst ha0
      apply Fin.ext
      simp only [hs, hw]
      omega
  · rw [dif_neg h]
    constructor
    · intro e; cases e
    · intro e
      exfalso
      apply h
      intro a
      have ha0 : a = 0 := Subsingleton.elim _ _
      subst ha0
      rw [hs, hw, e]
      have hi' : (((i 0).val : ℕ) : ℤ) < (N : ℤ) := by exact_mod_cast hi
      show 0 ≤ (((i 0).val : ℕ) : ℤ) + ((0 : ℕ) : ℤ) ∧ (((i 0).val : ℕ) : ℤ) + ((0 : ℕ) : ℤ) < (N : ℤ)
      constructor <;> omega

/-- A scatter of rows into a matrix (one start index per update row, the index vector on axis 1, the window the row): entry
    `(p, q)` of the updates lands at row (its start index, read signed), column `q`. -/
theorem p_scatter2_res {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (idx : IVec ⟨2, ![n, 1]⟩ w) (p : Fin n) (q : Fin D) (i : (⟨2, ![N, D]⟩ : Shape).Idx) :
    d.resultIdx? (ix2 p q) idx = some i ↔ (idx (ix2 p (0 : Fin 1))).toInt = ((i 0).val : ℤ) ∧ q.val = (i 1).val := by
  have hU : ∀ x ∈ d.uScatter, x = (0 : Fin 2) := by
    intro x hx
    have hx' : x ∉ d.updateWindowDims := of_decide_eq_true (List.mem_filter.mp hx).2
    rw [huw] at hx'
    match x with
    | ⟨0, _⟩ => rfl
    | ⟨1, _⟩ => exact absurd (List.mem_singleton.mpr rfl) hx'
  have hK1 : (1 : Fin 2) ∈ d.sKept := by
    simp [ScatterDims.sKept, Shape.kept, hiw]
  have hK0 : (0 : Fin 2) ∉ d.sKept := by
    simp [ScatterDims.sKept, Shape.kept, hiw]
  have hW : ∀ x ∈ d.updateWindowDims, x = (1 : Fin 2) := by rw [huw]; simp
  have hs0 : d.start (ix2 p q) idx 0 = (idx (ix2 p (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [hU _ (List.getElem_mem _)]
    | ⟨1, _⟩ =>
      unfold ScatterDims.siIdx
      rw [dif_pos (by rw [hivd])]
      apply Fin.ext
      show List.idxOf (0 : Fin 2) d.scatterDimsToOperandDims = 0
      rw [hsd]; simp
  have hs1 : d.start (ix2 p q) idx 1 = 0 := by
    have hm : (1 : Fin 2) ∉ d.scatterDimsToOperandDims := by rw [hsd]; simp
    unfold ScatterDims.start
    rw [dif_neg hm]
  have hw0 : d.window (ix2 p q) 0 = 0 := by
    unfold ScatterDims.window
    rw [dif_neg hK0]
  have hw1 : d.window (ix2 p q) 1 = q.val := by
    unfold ScatterDims.window
    rw [dif_pos hK1, hW _ (List.getElem_mem _)]
  have hi0 : (((i 0).val : ℕ) : ℤ) < (N : ℤ) := by exact_mod_cast (i 0).isLt
  have hi1 : (i 1).val < D := (i 1).isLt
  have hq : q.val < D := q.isLt
  unfold ScatterDims.resultIdx?
  by_cases h : ∀ a, 0 ≤ d.start (ix2 p q) idx a + (d.window (ix2 p q) a : ℤ) ∧ d.start (ix2 p q) idx a + (d.window (ix2 p q) a : ℤ) < ((⟨2, ![N, D]⟩ : Shape).size a : ℤ)
  · rw [dif_pos h]
    constructor
    · intro e
      have e0 := congrArg Fin.val (congrFun (Option.some.inj e) 0)
      have e1 := congrArg Fin.val (congrFun (Option.some.inj e) 1)
      have h0 := h 0
      rw [hs0, hw0] at h0
      simp only [hs0, hw0] at e0
      simp only [hs1, hw1] at e1
      constructor <;> omega
    · intro e
      congr 1
      funext a
      match a with
      | ⟨0, _⟩ =>
        apply Fin.ext
        show (d.start (ix2 p q) idx 0 + (d.window (ix2 p q) 0 : ℤ)).toNat = (i 0).val
        rw [hs0, hw0]; omega
      | ⟨1, _⟩ =>
        apply Fin.ext
        show (d.start (ix2 p q) idx 1 + (d.window (ix2 p q) 1 : ℤ)).toNat = (i 1).val
        rw [hs1, hw1]; omega
  · rw [dif_neg h]
    constructor
    · intro e; cases e
    · intro e
      exfalso
      apply h
      intro a
      match a with
      | ⟨0, _⟩ =>
        show 0 ≤ d.start (ix2 p q) idx 0 + (d.window (ix2 p q) 0 : ℤ) ∧ d.start (ix2 p q) idx 0 + (d.window (ix2 p q) 0 : ℤ) < (N : ℤ)
        rw [hs0, hw0, e.1]
        constructor <;> omega
      | ⟨1, _⟩ =>
        show 0 ≤ d.start (ix2 p q) idx 1 + (d.window (ix2 p q) 1 : ℤ) ∧ d.start (ix2 p q) idx 1 + (d.window (ix2 p q) 1 : ℤ) < (D : ℤ)
        rw [hs1, hw1]
        constructor <;> omega

/-! ## A gather of rows -/

/-- A gather of whole rows of a matrix (one start index per result row, the index vector on axis 1, the slice a row): entry
    `(p, q)` of the result is the operand at row (the start index read signed and clamped into the table), column `q`. -/
theorem p_gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 ⟨min (idx (ix2 p (0 : Fin 1))).toInt.toNat (N - 1), by omega⟩ q) := by
  have hb : ∀ a, a ∉ d.operandBatchingDims := by intro a; rw [hob]; exact List.not_mem_nil
  have hB : ∀ x ∈ d.batchDims, x = (0 : Fin 2) := by
    intro x hx
    have hx' : x ∉ d.offsetDims := of_decide_eq_true (List.mem_filter.mp hx).2
    rw [hoff] at hx'
    match x with
    | ⟨0, _⟩ => rfl
    | ⟨1, _⟩ => exact absurd (List.mem_singleton.mpr rfl) hx'
  have hO : ∀ x ∈ d.offsetDims, x = (1 : Fin 2) := by rw [hoff]; simp
  unfold Host.gather
  congr 1
  funext a
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ix2 p (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hB _ (List.getElem_mem _)]
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb _)]
    unfold GatherDims.start GatherDims.offCoord
    rw [dif_neg hm, dif_pos hk, hO _ (List.getElem_mem _)]
    simp only [Nat.add_zero, Nat.zero_add]

/-! ## Words, constants and coercions -/

/-- A label in range is left as it is by the program's normalisation (a negative word has the table's length added). -/
theorem p_norm_word (n : ℕ) (hn : n < 1000) :
    Scalar.select (IntOp.cmpi .slt (BitVec.ofNat 32 n) 0#32) (IntOp.addi (BitVec.ofNat 32 n) 1000#32) (BitVec.ofNat 32 n)
      = BitVec.ofNat 32 n := by
  have h : ¬ IntOp.cmpi .slt (BitVec.ofNat 32 n) 0#32 = 1#1 := by
    rw [StableHlo.Predicate.slt_iff_toNat (by simp [BitVec.toNat_ofNat]; omega) (by decide)]
    simp
  rw [eq_zero_of_ne_one h, select_zero]

/-- Such a label read signed and clamped into the table is itself. -/
theorem p_clamp_word (n : ℕ) (hn : n < 1000) : min (BitVec.ofNat 32 n).toInt.toNat (1000 - 1) = n := by
  rw [StableHlo.Predicate.toInt_ofNat_small n (by omega)]
  simp; omega

/-- The single-precision word of `0.1` is the temperature's binary fraction. -/
theorem p_ofBits_c01 : Ideal.ofBits .f32 0x3DCCCCCD#32 = (((13421773 : ℝ) / 134217728 : ℝ) : EReal) := by
  simp [Ideal.ofBits, Ideal.ieee, -EReal.coe_mul]; norm_num

/-- A finite sum of reals, coerced, is the sum of the coerced terms. -/
theorem p_coe_sum {ι : Type} (s : Finset ι) (g : ι → ℝ) : ((∑ a ∈ s, g a : ℝ) : EReal) = ∑ a ∈ s, ((g a : ℝ) : EReal) := by
  classical
  induction s using Finset.induction_on with
  | empty => simp
  | insert a s ha ih => rw [Finset.sum_insert ha, Finset.sum_insert ha, EReal.coe_add, ih]

/-- The quotient of two reals, the divisor not zero. -/
theorem p_div_coe (x y : ℝ) (hy : y ≠ 0) : Ideal.div (x : EReal) (y : EReal) = ((x / y : ℝ) : EReal) := by
  rw [Ideal.div_coe hy, ← EReal.coe_mul]
  congr 1
  field_simp

/-! ## The launch's positive-term column as one term of the three argument arrays and the class counts -/

/-- The batch labels, normalised as the program does it (a negative word has the table's length added), as a column. -/
def p_lab (a2 : IVec S8192 32) : IVec S8192x1 32 :=
  broadcastInDim S8192x1 ![0] bcast_S8192_S8192x1_0
    (select (cmpi .slt a2 (broadcastInDim S8192 ![] bcast_S_S8192 (constantI S_ 32 0#32)))
      (addi a2 (broadcastInDim S8192 ![] bcast_S_S8192 (constantI S_ 32 1000#32))) a2)

/-- The class sums: the features accumulated at the batch labels, plus the centres. -/
def p_sum (a0 : FVec Ideal S1000x128 .f32) (a1 : FVec Ideal S8192x128 .f32) (a2 : IVec S8192 32) : FVec Ideal S1000x128 .f32 :=
  addf (Host.scatterAdd (F := Ideal) scatter_S1000x128_S8192x1_S8192x128_1_0_0_1
    (broadcastInDim S1000x128 ![] bcast_S_S1000x128 (constant (F := Ideal) S_ .f32 0x00000000#32)) (p_lab a2) a1) a0

/-- The positive-term column, over the three argument arrays and the class counts. -/
def p_term (a0 : FVec Ideal S1000x128 .f32) (a1 : FVec Ideal S8192x128 .f32) (a2 : IVec S8192 32)
    (cnt : FVec Ideal S1000 .f32) : FVec Ideal S8192x1 .f32 :=
  shapeCast S8192x1
    (Host.divf (F := Ideal)
      (Host.divf (F := Ideal)
        (subf
          (Host.reduceAdd (F := Ideal)
            (mulf a1 (Host.gather gather_S1000x128_S8192x1_S8192x128_1_0_n_n_0_1_1128 (p_sum a0 a1 a2) (p_lab a2)))
            (constant (F := Ideal) S_ .f32 0x00000000#32) reducesTo_S8192x128_S8192_d1 h_S_)
          (Host.reduceAdd (F := Ideal) (mulf a1 a1) (constant (F := Ideal) S_ .f32 0x00000000#32) reducesTo_S8192x128_S8192_d1 h_S_))
        (broadcastInDim S8192 ![] bcast_S_S8192 (constant (F := Ideal) S_ .f32 0x3DCCCCCD#32)))
      (subf (Host.gather gather_S1000_S8192x1_S8192_n_0_n_n_0_1_1 cnt (p_lab a2))
        (broadcastInDim S8192 ![] bcast_S_S8192 (constant (F := Ideal) S_ .f32 0x3F800000#32))))
    shapeCasts_S8192_S8192x1

/-- The class counts over the columns' classes: ones accumulated at the classes, normalised as the program does it. -/
def p_cnt (cols : IVec S9192 32) : FVec Ideal S1000 .f32 :=
  Host.scatterAdd (F := Ideal) scatter_S1000_S9192x1_S9192_n_0_0_1
    (broadcastInDim S1000 ![] bcast_S_S1000 (constant (F := Ideal) S_ .f32 0x00000000#32))
    (broadcastInDim S9192x1 ![0] bcast_S9192_S9192x1_0
      (select (cmpi .slt cols (broadcastInDim S9192 ![] bcast_S_S9192 (constantI S_ 32 0#32)))
        (addi cols (broadcastInDim S9192 ![] bcast_S_S9192 (constantI S_ 32 1000#32))) cols))
    (broadcastInDim S9192 ![] bcast_S_S9192 (constant (F := Ideal) S_ .f32 0x3F800000#32))

set_option maxHeartbeats 4000000 in
set_option maxRecDepth 16384 in
/-- The positive-term column the launch finds is that term of the launch memory's arguments and of the class counts it finds. -/
theorem p_struct :
    (V m c main_v70 : S8192x1.Idx → EReal)
      = p_term (m ((c : Thread nD τ).loc main_arg0)) (m ((c : Thread nD τ).loc main_arg1)) (m ((c : Thread nD τ).loc main_arg2))
          (V m c main_v10) := by
  show StableHlo.after hostOps0 (fun b => m (c, b)) (Proc.devRef .tc main_v70)
    = p_term (m ((c : Thread nD τ).loc main_arg0)) (m ((c : Thread nD τ).loc main_arg1)) (m ((c : Thread nD τ).loc main_arg2))
        (StableHlo.after hostOps0 (fun b => m (c, b)) (Proc.devRef .tc main_v10))
  after_results_simp
  rfl

set_option maxHeartbeats 4000000 in
set_option maxRecDepth 16384 in
/-- The class counts the launch finds are that term of the columns' classes it finds. -/
theorem p_cnt_struct :
    (V m c main_v10 : S1000.Idx → EReal) = p_cnt (V m c main_v1) := by
  show StableHlo.after hostOps0 (fun b => m (c, b)) (Proc.devRef .tc main_v10)
    = p_cnt (StableHlo.after hostOps0 (fun b => m (c, b)) (Proc.devRef .tc main_v1))
  after_results_simp
  rfl

set_option maxHeartbeats 4000000 in
set_option maxRecDepth 16384 in
/-- The columns' classes the launch finds: the launch memory's labels, then the centres' own classes in order. -/
theorem p_cols_struct :
    (V m c main_v1 : S9192.Idx → BitVec 32)
      = concatenate S9192 0 [⟨S8192, m ((c : Thread nD τ).loc main_arg2)⟩, ⟨S1000, iotaInDim S1000 32 0⟩]
          concatenates_S8192_S1000_S9192_d0 := by
  show StableHlo.after hostOps0 (fun b => m (c, b)) (Proc.devRef .tc main_v1) = _
  after_results_simp
  rfl

/-! ## The term's pieces, entry by entry, over real features, real centres and labels in range -/

section vals

variable (a0 : FVec Ideal S1000x128 .f32) (a1 : FVec Ideal S8192x128 .f32) (a2 : IVec S8192 32)

/-- The normalised label column holds the labels. -/
theorem p_lab_apply (h2 : ∀ b, a2 (ix1 b) = BitVec.ofNat 32 (t b).val) (b : Fin 8192) :
    p_lab a2 (ix2 b (0 : Fin 1)) = BitVec.ofNat 32 (t b).val := by
  unfold p_lab
  rw [broadcastInDim_apply _ _ _ _ (ix1 b) (by
    intro a
    have ha : a = 0 := Subsingleton.elim _ _
    subst ha
    rw [if_neg (by decide)]
    rfl)]
  show Scalar.select (IntOp.cmpi .slt (a2 (ix1 b)) 0#32) (IntOp.addi (a2 (ix1 b)) 1000#32) (a2 (ix1 b)) = _
  rw [h2 b]
  exact p_norm_word _ (t b).isLt

/-- Entry `(p, q)` of the features lands in the class sums at `(k, d)` exactly when row `p` has class `k` and `q = d`. -/
theorem p_lands (h2 : ∀ b, a2 (ix1 b) = BitVec.ofNat 32 (t b).val) (p : Fin 8192) (q : Fin 128) (k : Fin 1000) (d : Fin 128) :
    scatter_S1000x128_S8192x1_S8192x128_1_0_0_1.resultIdx? (ix2 p q) (p_lab a2) = some (ix2 k d) ↔ (t p = k ∧ q = d) := by
  rw [p_scatter2_res scatter_S1000x128_S8192x1_S8192x128_1_0_0_1 rfl rfl rfl rfl, p_lab_apply a2 h2 p,
    StableHlo.Predicate.toInt_ofNat_small _ (by have := (t p).isLt; omega)]
  constructor
  · rintro ⟨h, h'⟩
    exact ⟨Fin.ext (by exact_mod_cast h), Fin.ext h'⟩
  · rintro ⟨rfl, rfl⟩
    exact ⟨rfl, rfl⟩

/-- The class sums hold `S`. -/
theorem p_sum_apply (h0 : ∀ k d, a0 (ix2 k d) = ((cn k d : ℝ) : EReal)) (h1 : ∀ b d, a1 (ix2 b d) = ((f b d : ℝ) : EReal))
    (h2 : ∀ b, a2 (ix1 b) = BitVec.ofNat 32 (t b).val) (k : Fin 1000) (d : Fin 128) :
    p_sum a0 a1 a2 (ix2 k d) = ((S f cn t k d : ℝ) : EReal) := by
  unfold p_sum
  rw [addf_apply]
  show Ideal.hostScatterAdd scatter_S1000x128_S8192x1_S8192x128_1_0_0_1 _ (p_lab a2) a1 (ix2 k d) + a0 (ix2 k d) = _
  unfold Ideal.hostScatterAdd
  rw [broadcastInDim_scalar_apply, constant_apply, Ideal.ofBits_zero_f32, zero_add, h0, Finset.sum_filter, sum_idx2]
  have inner : ∀ p : Fin 8192, (∑ q : Fin 128,
      if scatter_S1000x128_S8192x1_S8192x128_1_0_0_1.resultIdx? (ix2 p q) (p_lab a2) = some (ix2 k d) then a1 (ix2 p q) else 0)
      = if t p = k then ((f p d : ℝ) : EReal) else 0 := by
    intro p
    simp only [p_lands a2 h2, h1]
    by_cases hk : t p = k
    · simp [hk]
    · simp [hk]
  rw [Finset.sum_congr rfl (fun p _ => inner p), ← Finset.sum_filter, ← p_coe_sum, ← EReal.coe_add]
  rfl

end vals

section vals2

variable (a0 : FVec Ideal S1000x128 .f32) (a1 : FVec Ideal S8192x128 .f32) (a2 : IVec S8192 32)

/-- Row `i` of the gathered class sums is the sum of row `i`'s own class. -/
theorem p_own_apply (h0 : ∀ k d, a0 (ix2 k d) = ((cn k d : ℝ) : EReal)) (h1 : ∀ b d, a1 (ix2 b d) = ((f b d : ℝ) : EReal))
    (h2 : ∀ b, a2 (ix1 b) = BitVec.ofNat 32 (t b).val) (i : Fin 8192) (d : Fin 128) :
    Host.gather gather_S1000x128_S8192x1_S8192x128_1_0_n_n_0_1_1128 (p_sum a0 a1 a2) (p_lab a2) (ix2 i d)
      = ((S f cn t (t i) d : ℝ) : EReal) := by
  have hrow : (⟨min (p_lab a2 (ix2 i (0 : Fin 1))).toInt.toNat (1000 - 1), by omega⟩ : Fin 1000) = t i := by
    apply Fin.ext
    show min (p_lab a2 (ix2 i (0 : Fin 1))).toInt.toNat (1000 - 1) = (t i).val
    rw [p_lab_apply a2 h2 i]
    exact p_clamp_word _ (t i).isLt
  rw [p_gather_rows gather_S1000x128_S8192x1_S8192x128_1_0_n_n_0_1_1128 rfl rfl rfl rfl rfl _ _ i d (by decide), hrow]
  exact p_sum_apply a0 a1 a2 h0 h1 h2 (t i) d

/-- The host's sum along a row of a matrix with 128 columns, from zero. -/
theorem p_rowsum (x : FVec Ideal S8192x128 .f32) (i : Fin 8192) :
    Host.reduceAdd (F := Ideal) x (constant (F := Ideal) S_ .f32 0x00000000#32) reducesTo_S8192x128_S8192_d1 h_S_ (ix1 i)
      = ∑ k : Fin 128, x (ix2 i k) := by
  have hR : S8192x128.Reduces [1] S8192 := by decide
  rw [hostReduceAdd_apply, Ideal.hostReduceAdd_single _ hR, constant_apply, Ideal.ofBits_zero_f32, zero_add]
  show ∑ k : Fin 128, x (hR.lift (ix1 i) k) = _
  refine Finset.sum_congr rfl fun k _ => congrArg x ?_
  funext a
  match a with
  | ⟨0, _⟩ => rfl
  | ⟨1, _⟩ => rfl

/-- The gather of the class counts at the labels holds each row's own class count. -/
theorem p_owncnt_apply (cnt : FVec Ideal S1000 .f32) (h2 : ∀ b, a2 (ix1 b) = BitVec.ofNat 32 (t b).val) (i : Fin 8192) :
    Host.gather gather_S1000_S8192x1_S8192_n_0_n_n_0_1_1 cnt (p_lab a2) (ix1 i) = cnt (ix1 (t i)) := by
  have e1 : ∀ {k : ℕ} (r : Fin k), (Shape.Idx.ofFin r : (⟨1, ![k]⟩ : Shape).Idx) = ix1 r := fun r => by
    funext a; match a with | ⟨0, _⟩ => rfl
  have e2 : StableHlo.Predicate.ixP i = ix2 i (0 : Fin 1) := by
    funext b; match b with | ⟨0, _⟩ => rfl | ⟨1, _⟩ => rfl
  have hg := StableHlo.Predicate.gather_take gather_S1000_S8192x1_S8192_n_0_n_n_0_1_1 rfl rfl rfl rfl cnt (p_lab a2) i (by decide)
  rw [e1 i] at hg
  rw [hg]
  refine congrArg cnt ?_
  rw [e1]
  refine congrArg ix1 (Fin.ext ?_)
  show min (p_lab a2 (StableHlo.Predicate.ixP i)).toInt.toNat (1000 - 1) = (t i).val
  rw [e2, p_lab_apply a2 h2 i]
  exact p_clamp_word _ (t i).isLt

end vals2

section fin

variable (a0 : FVec Ideal S1000x128 .f32) (a1 : FVec Ideal S8192x128 .f32) (a2 : IVec S8192 32)

/-- The term at row `i` is `pos`: the inner product with the own class's sum less the square norm, over the temperature,
    over the own class's count less one (at least one, so the quotient is the reals'). -/
theorem p_term_apply (cnt : FVec Ideal S1000 .f32)
    (h0 : ∀ k d, a0 (ix2 k d) = ((cn k d : ℝ) : EReal)) (h1 : ∀ b d, a1 (ix2 b d) = ((f b d : ℝ) : EReal))
    (h2 : ∀ b, a2 (ix1 b) = BitVec.ofNat 32 (t b).val) (hcnt : ∀ k, cnt (ix1 k) = ((cls t k : ℝ) : EReal)) (i : Fin 8192) :
    p_term a0 a1 a2 cnt (ix2 i (0 : Fin 1)) = ((pos f cn t i : ℝ) : EReal) := by
  have hF := Cert.Spec.facts f cn t i
  have hden : cls t (t i) - 1 ≠ 0 := by have := hF.own_ge_two; linarith
  have e1 : (∑ k : Fin 128, mulf a1 (Host.gather gather_S1000x128_S8192x1_S8192x128_1_0_n_n_0_1_1128 (p_sum a0 a1 a2) (p_lab a2)) (ix2 i k))
      = ((∑ d : Fin 128, f i d * S f cn t (t i) d : ℝ) : EReal) := by
    rw [p_coe_sum]
    refine Finset.sum_congr rfl fun d _ => ?_
    rw [mulf_apply, h1, p_own_apply a0 a1 a2 h0 h1 h2, EReal.coe_mul]
  have e2 : (∑ k : Fin 128, mulf a1 a1 (ix2 i k)) = ((∑ d : Fin 128, f i d * f i d : ℝ) : EReal) := by
    rw [p_coe_sum]
    refine Finset.sum_congr rfl fun d _ => ?_
    rw [mulf_apply, h1, EReal.coe_mul]
  unfold p_term
  rw [shapeCast_apply _ _ (ix2 i (0 : Fin 1)) (ix1 i) (by
    rw [Shape.rowMajor_val_two, Shape.rowMajor_val_one]
    show i.val = i.val * 1 + 0
    omega)]
  rw [hostDivf_apply, hostDivf_apply, subf_apply, subf_apply, p_rowsum, p_rowsum, p_owncnt_apply a2 cnt h2 i, hcnt,
    broadcastInDim_scalar_apply, broadcastInDim_scalar_apply, constant_apply, constant_apply, p_ofBits_c01,
    Ideal.ofBits_one_f32, e1, e2, ← EReal.coe_one, ← EReal.coe_sub, ← EReal.coe_sub,
    p_div_coe _ _ (by norm_num), p_div_coe _ _ hden]
  rfl

end fin

section cnt

/-- Column `j`'s class word, when the batch labels are in range. -/
theorem p_cols_apply (a2 : IVec S8192 32) (h2 : ∀ b, a2 (ix1 b) = BitVec.ofNat 32 (t b).val) (j : Fin 9192) :
    concatenate S9192 0 [⟨S8192, a2⟩, ⟨S1000, iotaInDim S1000 32 0⟩] concatenates_S8192_S1000_S9192_d0 (ix1 j)
      = BitVec.ofNat 32 (tall t j).val := by
  by_cases hj : j.val < 8192
  · rw [concatenate_pair_apply_left (t := S9192) (s₁ := S8192) (s₂ := S1000) 0 a2 (iotaInDim S1000 32 0)
        concatenates_S8192_S1000_S9192_d0 (ix1 j) rfl (ix1 (⟨j.val, hj⟩ : Fin 8192)) (by
      intro b
      have hb : b = 0 := Subsingleton.elim _ _
      subst hb
      rfl)]
    rw [h2]
    unfold tall
    rw [dif_pos hj]
  · rw [concatenate_pair_apply_right (t := S9192) (s₁ := S8192) (s₂ := S1000) 0 a2 (iotaInDim S1000 32 0)
        concatenates_S8192_S1000_S9192_d0 (ix1 j) rfl rfl (ix1 (⟨j.val - 8192, by have := j.isLt; omega⟩ : Fin 1000)) (by
      intro b hb
      exact absurd (Subsingleton.elim _ _) hb) (by
      show (j.val - 8192) + 8192 = j.val
      omega)]
    unfold tall
    rw [dif_neg hj]
    rfl

/-- Column `p` lands in the class counts at `k` exactly when its class is `k`. -/
theorem p_lands1 (cols : IVec S9192 32) (hc : ∀ j, cols (ix1 j) = BitVec.ofNat 32 (tall t j).val) (p : Fin 9192) (k : Fin 1000) :
    scatter_S1000_S9192x1_S9192_n_0_0_1.resultIdx? (ix1 p)
        (broadcastInDim S9192x1 ![0] bcast_S9192_S9192x1_0
          (select (cmpi .slt cols (broadcastInDim S9192 ![] bcast_S_S9192 (constantI S_ 32 0#32)))
            (addi cols (broadcastInDim S9192 ![] bcast_S_S9192 (constantI S_ 32 1000#32))) cols)) = some (ix1 k)
      ↔ tall t p = k := by
  have hl : (broadcastInDim S9192x1 ![0] bcast_S9192_S9192x1_0
      (select (cmpi .slt cols (broadcastInDim S9192 ![] bcast_S_S9192 (constantI S_ 32 0#32)))
        (addi cols (broadcastInDim S9192 ![] bcast_S_S9192 (constantI S_ 32 1000#32))) cols)) (ix2 p (0 : Fin 1))
      = BitVec.ofNat 32 (tall t p).val := by
    rw [broadcastInDim_apply _ _ _ _ (ix1 p) (by
      intro a
      have ha : a = 0 := Subsingleton.elim _ _
      subst ha
      rw [if_neg (by decide)]
      rfl)]
    show Scalar.select (IntOp.cmpi .slt (cols (ix1 p)) 0#32) (IntOp.addi (cols (ix1 p)) 1000#32) (cols (ix1 p)) = _
    rw [hc p]
    exact p_norm_word _ (tall t p).isLt
  rw [p_scatter1_res scatter_S1000_S9192x1_S9192_n_0_0_1 rfl rfl rfl, hl,
    StableHlo.Predicate.toInt_ofNat_small _ (by have := (tall t p).isLt; omega)]
  constructor
  · intro h
    exact Fin.ext (by exact_mod_cast h)
  · rintro rfl
    rfl

/-- The class counts hold `cls`. -/
theorem p_cnt_apply (cols : IVec S9192 32) (hc : ∀ j, cols (ix1 j) = BitVec.ofNat 32 (tall t j).val) (k : Fin 1000) :
    p_cnt cols (ix1 k) = ((cls t k : ℝ) : EReal) := by
  have hcls : ((cls t k : ℝ) : EReal) = ∑ j ∈ Finset.univ.filter (fun j : Fin 9192 => tall t j = k), (1 : EReal) := by
    unfold cls
    rw [Finset.card_eq_sum_ones, Nat.cast_sum, p_coe_sum]
    simp
  unfold p_cnt
  show Ideal.hostScatterAdd scatter_S1000_S9192x1_S9192_n_0_0_1 _ _ _ (ix1 k) = _
  unfold Ideal.hostScatterAdd
  rw [broadcastInDim_scalar_apply, constant_apply, Ideal.ofBits_zero_f32, zero_add, Finset.sum_filter,
    ← Equiv.sum_comp (idxEquiv1 (n := 9192)).symm, hcls, Finset.sum_filter]
  refine Finset.sum_congr rfl fun j _ => ?_
  show (if scatter_S1000_S9192x1_S9192_n_0_0_1.resultIdx? (ix1 j) _ = some (ix1 k) then _ else 0) = _
  simp only [p_lands1 cols hc]
  rw [broadcastInDim_scalar_apply, constant_apply, Ideal.ofBits_one_f32]

end cnt

/-- The class counts the launch finds are `cls`. -/
theorem p_cnt_val (H : Holds m c f cn t) (k : Fin 1000) :
    (V m c main_v10 : S1000.Idx → EReal) (ix1 k) = ((cls t k : ℝ) : EReal) := by
  rw [p_cnt_struct]
  refine p_cnt_apply _ (fun j => ?_) k
  rw [p_cols_struct]
  exact p_cols_apply _ H.h2 j

/-! ## The positive-term column -/

theorem pos_val (H : Holds m c f cn t) (i : Fin 8192) :
    (V m c main_v70 : S8192x1.Idx → EReal) (ix2 i 0) = ((pos f cn t i : ℝ) : EReal) := by
  rw [p_struct]
  exact p_term_apply _ _ _ _ H.h0 H.h1 H.h2 (p_cnt_val H) i

end Cert.KernelIdeal.HostVal

end
-- ==== Proof.KRowRead.lean ====
/-
  The block the body stores at a grid point, read entry by entry over the extended reals.

  The body's arithmetic: the scaled logits `raw (p, j) = (∑ k, q (p, k) * cols (j, k)) * (1 / temperature)` of the
  128 query rows of the tile against the 9216 columns; the row maximum `max_j raw (p, j)`; the weighted sum
  `∑ j, [row ≠ column] exp (raw (p, j) - max) * w (j)`, where the row's number is `128 i + p` at grid point `i` and
  `w (j)` is the second reciprocal table's entry when column `j` carries the row's label and the first table's
  otherwise; and the stored entry `positive term - max - log (weighted sum)`.  Each is read here at one entry from
  the blocks' entries: a product into the zero accumulator is the sum over the contracted coordinate, a reduction over
  the column axis is the maximum (the sum) over the column coordinate, a broadcast reads the column's (row's) one entry,
  and every load and the one store take a whole block.
-/
import proofs.«428374_j30889404793116_3_alg».proof.Proof.KIFrame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowRead

open Cert.KernelIdeal Cert.KernelIdeal.Gen Cert.KernelIdeal.HFrame
open Idealize.ShloMosaic Idealize.ShloMosaic.ValueIdx

/-- The reciprocal of the temperature, as the exact rational the program's constant is named. -/
theorem inv_temp : Named.named (F := Ideal) Cert.KernelIdeal.κ "inv_temperature" (φ := .f32) 0x41200000#32
    = ((134217728 / 13421773 : ℝ) : EReal) :=
  IdealRules.named_const.ideal_named_scalar _ _ _ _ rfl

/-! ## The product of the query tile with the columns, at an entry -/

/-- The left operand's row coordinate under an output entry is the entry's row. -/
theorem lhs_dot_0 (i : S128x9216.Idx) (q : dot_S128x128_S9216x128_S128x9216_1_1_0_0_n_n.contr.Idx) :
    (dot_S128x128_S9216x128_S128x9216_1_1_0_0_n_n.lhsIdx i q 0).val = (i 0).val := by
  unfold DotDims.lhsIdx
  rw [dif_neg (show ¬(0 : Fin S128x128.rank) ∈ dot_S128x128_S9216x128_S128x9216_1_1_0_0_n_n.lhsBatch by decide), dif_pos (show (0 : Fin S128x128.rank) ∈ dot_S128x128_S9216x128_S128x9216_1_1_0_0_n_n.lhsNonContracting by decide)]
  rfl
/-- The left operand's second coordinate is the contracted coordinate. -/
theorem lhs_dot_1 (i : S128x9216.Idx) (q : dot_S128x128_S9216x128_S128x9216_1_1_0_0_n_n.contr.Idx) :
    (dot_S128x128_S9216x128_S128x9216_1_1_0_0_n_n.lhsIdx i q 1).val = (q ⟨0, by decide⟩).val :=
  dot_S128x128_S9216x128_S128x9216_1_1_0_0_n_n.lhsIdx_val_of_single rfl i q
/-- The right operand's row coordinate under an output entry is the entry's column. -/
theorem rhs_dot_0 (i : S128x9216.Idx) (q : dot_S128x128_S9216x128_S128x9216_1_1_0_0_n_n.contr.Idx) :
    (dot_S128x128_S9216x128_S128x9216_1_1_0_0_n_n.rhsIdx i q 0).val = (i 1).val := by
  unfold DotDims.rhsIdx
  rw [dif_neg (show ¬(0 : Fin S9216x128.rank) ∈ dot_S128x128_S9216x128_S128x9216_1_1_0_0_n_n.rhsBatch by decide), dif_pos (show (0 : Fin S9216x128.rank) ∈ dot_S128x128_S9216x128_S128x9216_1_1_0_0_n_n.rhsNonContracting by decide)]
  rfl
/-- The right operand's second coordinate is the contracted coordinate. -/
theorem rhs_dot_1 (i : S128x9216.Idx) (q : dot_S128x128_S9216x128_S128x9216_1_1_0_0_n_n.contr.Idx) :
    (dot_S128x128_S9216x128_S128x9216_1_1_0_0_n_n.rhsIdx i q 1).val = (q ⟨0, by decide⟩).val :=
  dot_S128x128_S9216x128_S128x9216_1_1_0_0_n_n.rhsIdx_val_of_single rfl i q

/-- Entry `(p, j)` of the product into the zero accumulator: the inner product of query row `p` with column row `j`. -/
theorem matmul_apply_pj (a : FVec Ideal S128x128 .bf16) (b : FVec Ideal S9216x128 .bf16) (p : Fin 128) (j : Fin 9216) :
    FloatOps.matmul dot_S128x128_S9216x128_S128x9216_1_1_0_0_n_n none a b (constant S128x9216 .f32 0x00000000#32) (ix2 p j)
      = ∑ k : Fin 128, a (ix2 p k) * b (ix2 j k) := by
  rw [Ideal.matmul_constant_zero_apply, ← Equiv.sum_comp (ValueIdx.contrEquiv1 dot_S128x128_S9216x128_S128x9216_1_1_0_0_n_n 128 rfl rfl).symm]
  refine Finset.sum_congr rfl fun k _ => ?_
  have hk := ValueIdx.contrEquiv1_symm_val dot_S128x128_S9216x128_S128x9216_1_1_0_0_n_n 128 rfl rfl k
  have el : dot_S128x128_S9216x128_S128x9216_1_1_0_0_n_n.lhsIdx (ix2 p j) ((ValueIdx.contrEquiv1 dot_S128x128_S9216x128_S128x9216_1_1_0_0_n_n 128 rfl rfl).symm k) = ix2 p k := funext fun a => Fin.ext (by
    match a with
    | ⟨0, _⟩ => exact lhs_dot_0 _ _
    | ⟨1, _⟩ => exact (lhs_dot_1 _ _).trans hk)
  have er : dot_S128x128_S9216x128_S128x9216_1_1_0_0_n_n.rhsIdx (ix2 p j) ((ValueIdx.contrEquiv1 dot_S128x128_S9216x128_S128x9216_1_1_0_0_n_n 128 rfl rfl).symm k) = ix2 j k := funext fun a => Fin.ext (by
    match a with
    | ⟨0, _⟩ => exact rhs_dot_0 _ _
    | ⟨1, _⟩ => exact (rhs_dot_1 _ _).trans hk)
  rw [el, er]

/-- The scaled logits the body works on: entry `(p, j)` is the inner product of query row `p` with column row `j`,
    times the reciprocal of the temperature. -/
theorem pay2_apply (v1 : Vec Ideal S128x128 .bf16) (v3 : Vec Ideal S9216x128 .bf16) (p : Fin 128) (j : Fin 9216) :
    (k0_pay2 (F := Ideal) v1 v3 : S128x9216.Idx → EReal) (ix2 p j)
      = (∑ k : Fin 128, (v1 : S128x128.Idx → EReal) (ix2 p k) * (v3 : S9216x128.Idx → EReal) (ix2 j k))
        * ((134217728 / 13421773 : ℝ) : EReal) := by
  unfold k0_pay2
  rw [shapeCast_self, shapeCast_self]
  show FloatOps.mulf (FloatOps.matmul dot_S128x128_S9216x128_S128x9216_1_1_0_0_n_n none v1 v3 (constant S128x9216 .f32 0x00000000#32) (ix2 p j))
      (Named.named (F := Ideal) Cert.KernelIdeal.κ "inv_temperature" (φ := .f32) 0x41200000#32) = _
  rw [matmul_apply_pj, inv_temp]
  rfl

/-! ## Layout operations of the body at an entry -/

/-- The word of f32's negative infinity is the bottom of the extended reals. -/
theorem ofBits_neg_inf : Ideal.ofBits .f32 0xFF800000#32 = ⊥ := by
  simp [Ideal.ofBits, Ideal.ieee]

/-- A 128-vector viewed as a column reads its entry `p` at `(p, 0)`. -/
theorem cast_col_apply {α : Type} (x : S128.Idx → α) (p : Fin 128) :
    shapeCast S128x1 x shapeCasts_S128_S128x1 (ix2 p (0 : Fin 1)) = x (ix1 p) :=
  shapeCast_apply x shapeCasts_S128_S128x1 _ _ (by
    rw [Shape.rowMajor_val_two, Shape.rowMajor_val_one]
    show p.val = p.val * 1 + 0
    omega)

/-- A column viewed as a 128-vector reads its entry `(p, 0)` at `p`. -/
theorem cast_vec_apply {α : Type} (x : S128x1.Idx → α) (p : Fin 128) :
    shapeCast S128 x shapeCasts_S128x1_S128 (ix1 p) = x (ix2 p (0 : Fin 1)) :=
  shapeCast_apply x shapeCasts_S128x1_S128 _ _ (by
    rw [Shape.rowMajor_val_two, Shape.rowMajor_val_one]
    show p.val * 1 + 0 = p.val
    omega)

/-- A column broadcast along the rows reads its entry `(p, 0)` at `(p, j)`. -/
theorem bcast_col_apply {α : Type} (x : S128x1.Idx → α) (p : Fin 128) (j : Fin 9216) :
    broadcastTo S128x9216 x broadcasts_S128x1_S128x9216 (ix2 p j) = x (ix2 p (0 : Fin 1)) := by
  refine broadcastTo_apply x broadcasts_S128x1_S128x9216 (ix2 p j) (ix2 p (0 : Fin 1)) fun ax => ?_
  match ax with
  | ⟨0, _⟩ => rfl
  | ⟨1, _⟩ => rfl

/-- A row broadcast down the columns reads its entry `(0, j)` at `(p, j)`. -/
theorem bcast_row_apply {α : Type} (x : S1x9216.Idx → α) (p : Fin 128) (j : Fin 9216) :
    broadcastTo S128x9216 x broadcasts_S1x9216_S128x9216 (ix2 p j) = x (ix2 (0 : Fin 1) j) :=
  broadcastTo_1b_ab_apply x broadcasts_S1x9216_S128x9216 p j

/-- The index over row `p` with column coordinate `j` inserted is `(p, j)`. -/
theorem lift_row (p : Fin 128) (j : Fin 9216) : reduces_S128x9216_S128.lift (ix1 p) j = ix2 p j :=
  funext fun a => Fin.ext (by
    match a with
    | ⟨0, _⟩ => rfl
    | ⟨1, _⟩ => rfl)

/-! ## The row maximum -/

/-- Entry `(p, 0)` of the row maxima: the greatest scaled logit of row `p` over the 9216 columns (from the bottom). -/
theorem pay3_apply (v1 : Vec Ideal S128x128 .bf16) (v3 : Vec Ideal S9216x128 .bf16) (p : Fin 128) :
    (k0_pay3 (F := Ideal) v1 v3 : S128x1.Idx → EReal) (ix2 p (0 : Fin 1))
      = (Finset.univ : Finset (Fin 9216)).fold max ⊥ (fun j => (k0_pay2 (F := Ideal) v1 v3 : S128x9216.Idx → EReal) (ix2 p j)) := by
  unfold k0_pay3
  refine (cast_col_apply _ p).trans ?_
  refine (Ideal.multiReduction_maximumf_single (k0_pay2 (F := Ideal) v1 v3) 0xFF800000#32 reduces_S128x9216_S128 (.inl rfl) rfl (ix1 p)).trans ?_
  show (Finset.univ : Finset (Fin 9216)).fold max (Ideal.ofBits .f32 0xFF800000#32) (fun j => k0_pay2 (F := Ideal) v1 v3 (reduces_S128x9216_S128.lift (ix1 p) j)) = _
  rw [ofBits_neg_inf]
  exact congrArg (fun g : Fin 9216 → EReal => (Finset.univ : Finset (Fin 9216)).fold max ⊥ g)
    (funext fun j => congrArg (k0_pay2 (F := Ideal) v1 v3) (lift_row p j))

/-! ## The weighted sum of the shifted exponentials -/

/-- Entry `(p, 0)` of the weighted sums: over the 9216 columns, the exponential of the scaled logit less the row
    maximum, dropped on the row's own column (the row's number is `128 i + p`, compared as 32-bit words with the column's
    number), times the reciprocal weight picked by the label test: the second table where the column's label is the row's,
    the first elsewhere. -/
theorem pay4_apply (i : grid0.Coords) (v1 : Vec Ideal S128x128 .bf16) (v3 : Vec Ideal S9216x128 .bf16)
    (v15 : Vec Ideal S128x1 .i32) (v17 : Vec Ideal S1x9216 .i32) (v29 : Vec Ideal S1x9216 .f32) (v31 : Vec Ideal S1x9216 .f32)
    (p : Fin 128) :
    (k0_pay4 (F := Ideal) i v1 v3 v15 v17 v29 v31 : S128x1.Idx → EReal) (ix2 p (0 : Fin 1))
      = ∑ j : Fin 9216,
          (Scalar.select (IntOp.cmpi .ne (IntOp.addi (Scalar.muli (BitVec.ofNat 32 (i 0).val) 128#32) (BitVec.ofNat 32 p.val)) (BitVec.ofNat 32 j.val))
              (Ideal.exp ((k0_pay2 (F := Ideal) v1 v3 : S128x9216.Idx → EReal) (ix2 p j)
                - (k0_pay3 (F := Ideal) v1 v3 : S128x1.Idx → EReal) (ix2 p (0 : Fin 1))))
              (Ideal.ofBits .f32 0x00000000#32))
          * (Scalar.select (IntOp.cmpi .eq ((v15 : S128x1.Idx → BitVec 32) (ix2 p (0 : Fin 1))) ((v17 : S1x9216.Idx → BitVec 32) (ix2 (0 : Fin 1) j)))
              ((v29 : S1x9216.Idx → EReal) (ix2 (0 : Fin 1) j)) ((v31 : S1x9216.Idx → EReal) (ix2 (0 : Fin 1) j))) := by
  unfold k0_pay4
  refine (cast_col_apply _ p).trans ?_
  refine (Ideal.multiReduction_add_single _ 0x00000000#32 reduces_S128x9216_S128 (.inl rfl) rfl (ix1 p)).trans ?_
  refine Finset.sum_congr rfl fun (j : Fin 9216) _ => ?_
  refine (congrArg _ (lift_row p j)).trans ?_
  simp only [mulf, select, cmpi, addi, exp, subf, broadcast, shapeCast_self, bcast_col_apply, bcast_row_apply,
    iota_single_apply]
  rw [iota_single_apply .tc S128x1 32 0 iota_S128x1_d0_w32 (ix2 p (0 : Fin 1)),
    iota_single_apply .tc S1x9216 32 1 iota_S1x9216_d1_w32 (ix2 (0 : Fin 1) j)]
  rfl

/-! ## The stored entry -/

/-- Entry `p` of what the body stores: the positive term, less the row maximum, less the logarithm of the weighted sum. -/
theorem pay1_apply (v23 v40 : FVec Ideal S128x1 .f32) (v42 : Vec Ideal S128x1 .f32) (p : Fin 128) :
    (k0_pay1 (F := Ideal) v23 v40 v42 : S128.Idx → EReal) (ix1 p)
      = ((v42 : S128x1.Idx → EReal) (ix2 p (0 : Fin 1)) - v23 (ix2 p (0 : Fin 1))) - Ideal.log (v40 (ix2 p (0 : Fin 1))) := by
  unfold k0_pay1
  refine (cast_vec_apply _ p).trans ?_
  rw [shapeCast_self]
  rfl

/-- The origin of a rank-two block. -/
theorem origin2 : (![0, 0] : Fin 2 → Nat) = fun _ => 0 := funext fun a => by fin_cases a <;> rfl
/-- The origin of a rank-one block. -/
theorem origin1 : (![0] : Fin 1 → Nat) = fun _ => 0 := funext fun a => by fin_cases a; rfl

/-- Every load of the body takes its whole block and its one store covers the output block, so entry `p` of the stored
    block is the payload's entry `p` of the seven input blocks. -/
theorem tileOut_apply (i : grid0.Coords) (x0 : Vec Ideal S128x128 .bf16) (x1 : Vec Ideal S128x1 .i32) (x2 : Vec Ideal S128x1 .f32)
    (x3 : Vec Ideal S9216x128 .bf16) (x4 : Vec Ideal S1x9216 .i32) (x5 : Vec Ideal S1x9216 .f32) (x6 : Vec Ideal S1x9216 .f32)
    (p : Fin 128) :
    (tileOut (F := Ideal) i x0 x1 x2 x3 x4 x5 x6 : S128.Idx → EReal) (ix1 p)
      = ((x2 : S128x1.Idx → EReal) (ix2 p (0 : Fin 1)) - (k0_pay3 (F := Ideal) x0 x3 : S128x1.Idx → EReal) (ix2 p (0 : Fin 1)))
        - Ideal.log ((k0_pay4 (F := Ideal) i x0 x3 x1 x4 x6 x5 : S128x1.Idx → EReal) (ix2 p (0 : Fin 1))) := by
  unfold tileOut
  rw [View.canon_unit_zero origin1]
  simp only [View.ld_unit_zero (S := S128x128) origin2, View.ld_unit_zero (S := S9216x128) origin2,
    View.ld_unit_zero (S := S128x1) origin2, View.ld_unit_zero (S := S1x9216) origin2]
  exact pay1_apply _ _ _ p

end Cert.KernelIdeal.RowRead

end
-- ==== Proof.KRowVal.lean ====
/-
  One entry of the block the kernel's body stores at a grid point, over the extended reals, when its input blocks
  hold a row tile of real data: entry `p` of the tile at point `i` is the loss `rowK` of row `r = 128 i + p`,
  shifted by that row's largest logit. The 24 padding columns have zero features, label -1 and zero reciprocals:
  their logit 0 does not exceed the row's own (non-negative) logit, and their summand is zero.

  On the 9192 true columns the scaled logit is the real logit `L r j` (a sum of products of reals, times the reciprocal
  of the temperature), so the row maximum over all 9216 columns is `max (mx r) 0 = mx r`; the diagonal test compares
  the words of `r` and `j`, both below `2^32`, and the label test the words of two labels below 1000, so the weighted
  sum is the real sum `Dk (mx r) r` over the true columns plus 24 zeros; it is positive, so its logarithm is the real one.
-/
import proofs.«428374_j30889404793116_3_alg».proof.Proof.KIFrame
import proofs.«428374_j30889404793116_3_alg».proof.Proof.Spec
import proofs.«428374_j30889404793116_3_alg».proof.Proof.SpecFacts
import proofs.«428374_j30889404793116_3_alg».proof.Proof.KRowRead
import Idealize.ShloMosaic.Lib.ValueIdx
import Mathlib.Data.EReal.Operations
import Mathlib.Algebra.BigOperators.Fin
import Mathlib.Tactic.Ring

noncomputable section

namespace Cert.KernelIdeal.RowVal

open Cert.KernelIdeal Cert.KernelIdeal.Gen Cert.KernelIdeal.HFrame Cert.Spec
open Idealize.ShloMosaic Idealize.ShloMosaic.ValueIdx

/-! ## Words -/

/-- Two numbers below `2^32` have the same 32-bit word only when they are equal. -/
theorem ofNat32_inj {a b : Nat} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    omega
  · intro h; rw [h]

/-- The all-ones word is no number below `2^32 - 1`. -/
theorem ofNat32_ne_ones {a : Nat} (ha : a < 4294967295) : BitVec.ofNat 32 a ≠ 4294967295#32 := by
  intro h
  have h' := congrArg BitVec.toNat h
  rw [BitVec.toNat_ofNat, BitVec.toNat_ofNat] at h'
  omega

/-- The row's number as the body computes it, `i * 128 + p` on 32-bit words, is the word of `128 i + p`. -/
theorem row_word (a b : Nat) :
    IntOp.addi (Scalar.muli (BitVec.ofNat 32 a) 128#32) (BitVec.ofNat 32 b) = BitVec.ofNat 32 (a * 128 + b) := by
  rw [BitVec.ofNat_add, BitVec.ofNat_mul]
  rfl

/-- A select on "the words differ" is the `if` on their equality. -/
theorem select_ne {α : Type} (a b : BitVec 32) (A B : α) :
    Scalar.select (IntOp.cmpi .ne a b) A B = if a = b then B else A := by
  by_cases h : a = b
  · subst h; simp [Scalar.select, IntOp.cmpi]
  · have hb : (a != b) = true := bne_iff_ne.mpr h
    simp [Scalar.select, IntOp.cmpi, hb, h]

/-- A select on "the words are equal" is the `if` on their equality. -/
theorem select_eq {α : Type} (a b : BitVec 32) (A B : α) :
    Scalar.select (IntOp.cmpi .eq a b) A B = if a = b then A else B := by
  by_cases h : a = b
  · subst h; simp [Scalar.select, IntOp.cmpi]
  · have hb : (a == b) = false := beq_eq_false_iff_ne.mpr h
    simp [Scalar.select, IntOp.cmpi, hb, h]

/-! ## Sums of reals inside the extended reals -/

/-- The coercion of a finite sum of reals is the sum of the coercions. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The reciprocal of the temperature is the rational the scaled logits are multiplied by. -/
theorem div_c01 (x : ℝ) : x * (134217728 / 13421773 : ℝ) = x / Cert.Spec.c01 := by
  unfold Cert.Spec.c01
  ring

/-- A sum over the 9216 columns of a function that vanishes on the 24 padding columns is its sum over the 9192 true ones. -/
theorem sum_pad (g : Fin 9192 → ℝ) :
    (∑ j : Fin 9216, (if h : j.val < 9192 then g ⟨j.val, h⟩ else 0)) = ∑ j : Fin 9192, g j := by
  have h := Fin.sum_univ_add (a := 9192) (b := 24)
    (f := fun j : Fin (9192 + 24) => if h : j.val < 9192 then g ⟨j.val, h⟩ else 0)
  refine h.trans ?_
  rw [Finset.sum_congr rfl (fun i _ => show (if h : (Fin.castAdd 24 i).val < 9192 then g ⟨(Fin.castAdd 24 i).val, h⟩ else 0) = g i
        from dif_pos i.isLt),
    Finset.sum_congr rfl (fun (i : Fin 24) _ => show (if h : (Fin.natAdd 9192 i).val < 9192 then g ⟨(Fin.natAdd 9192 i).val, h⟩ else 0) = 0
        from dif_neg (by show ¬ (9192 + i.val < 9192); omega)),
    Finset.sum_const_zero, add_zero]

/-! ## The scaled logits of a row of real data -/

/-- On a true column the scaled logit is the real logit. -/
theorem raw_real (x0 : Vec Ideal S128x128 .bf16) (x3 : Vec Ideal S9216x128 .bf16)
    (f : Fin 8192 → Fin 128 → ℝ) (cn : Fin 1000 → Fin 128 → ℝ) (p : Fin 128) (r : Fin 8192)
    (hq : ∀ d : Fin 128, (x0 : S128x128.Idx → EReal) (ix2 p d) = ((f r d : ℝ) : EReal))
    (hc : ∀ (j : Fin 9216) (d : Fin 128), (x3 : S9216x128.Idx → EReal) (ix2 j d)
      = if h : j.val < 9192 then ((fall f cn ⟨j.val, h⟩ d : ℝ) : EReal) else 0)
    (j : Fin 9216) (h : j.val < 9192) :
    (k0_pay2 (F := Ideal) x0 x3 : S128x9216.Idx → EReal) (ix2 p j) = ((L f cn r ⟨j.val, h⟩ : ℝ) : EReal) := by
  rw [RowRead.pay2_apply]
  have e : ∀ k : Fin 128, (x0 : S128x128.Idx → EReal) (ix2 p k) * (x3 : S9216x128.Idx → EReal) (ix2 j k)
      = ((f r k * fall f cn ⟨j.val, h⟩ k : ℝ) : EReal) := by
    intro k; rw [hq k, hc j k, dif_pos h, EReal.coe_mul]
  rw [Finset.sum_congr rfl (fun k _ => e k), ← coe_sum, ← EReal.coe_mul, div_c01]
  rfl

/-- On a padding column the scaled logit is zero. -/
theorem raw_pad (x0 : Vec Ideal S128x128 .bf16) (x3 : Vec Ideal S9216x128 .bf16)
    (f : Fin 8192 → Fin 128 → ℝ) (cn : Fin 1000 → Fin 128 → ℝ) (p : Fin 128)
    (hc : ∀ (j : Fin 9216) (d : Fin 128), (x3 : S9216x128.Idx → EReal) (ix2 j d)
      = if h : j.val < 9192 then ((fall f cn ⟨j.val, h⟩ d : ℝ) : EReal) else 0)
    (j : Fin 9216) (h : ¬ j.val < 9192) :
    (k0_pay2 (F := Ideal) x0 x3 : S128x9216.Idx → EReal) (ix2 p j) = 0 := by
  rw [RowRead.pay2_apply]
  have e : ∀ k : Fin 128, (x0 : S128x128.Idx → EReal) (ix2 p k) * (x3 : S9216x128.Idx → EReal) (ix2 j k) = 0 := by
    intro k; rw [hc j k, dif_neg h, mul_zero]
  rw [Finset.sum_congr rfl (fun k _ => e k), Finset.sum_const_zero, zero_mul]

/-- The row maximum over the 9216 columns is the row's largest real logit: the padding columns' zero does not exceed it. -/
theorem rowmax (x0 : Vec Ideal S128x128 .bf16) (x3 : Vec Ideal S9216x128 .bf16)
    (f : Fin 8192 → Fin 128 → ℝ) (cn : Fin 1000 → Fin 128 → ℝ) (t : Fin 8192 → Fin 1000) (p : Fin 128) (r : Fin 8192)
    (hq : ∀ d : Fin 128, (x0 : S128x128.Idx → EReal) (ix2 p d) = ((f r d : ℝ) : EReal))
    (hc : ∀ (j : Fin 9216) (d : Fin 128), (x3 : S9216x128.Idx → EReal) (ix2 j d)
      = if h : j.val < 9192 then ((fall f cn ⟨j.val, h⟩ d : ℝ) : EReal) else 0) :
    (k0_pay3 (F := Ideal) x0 x3 : S128x1.Idx → EReal) (ix2 p (0 : Fin 1)) = ((mx f cn r : ℝ) : EReal) := by
  have F := facts f cn t r
  rw [RowRead.pay3_apply]
  apply le_antisymm
  · rw [Finset.fold_max_le]
    refine ⟨bot_le, fun j _ => ?_⟩
    by_cases h : j.val < 9192
    · rw [raw_real x0 x3 f cn p r hq hc j h]
      exact EReal.coe_le_coe_iff.mpr (Finset.le_sup' (fun j => L f cn r j) (Finset.mem_univ _))
    · rw [raw_pad x0 x3 f cn p hc j h]
      exact EReal.coe_nonneg.mpr F.mx_nonneg
  · obtain ⟨j0, -, hj0⟩ := Finset.exists_mem_eq_sup' (Finset.univ_nonempty (α := Fin 9192)) (fun j => L f cn r j)
    rw [Finset.le_fold_max]
    right
    refine ⟨⟨j0.val, by have := j0.isLt; omega⟩, Finset.mem_univ _, ?_⟩
    rw [raw_real x0 x3 f cn p r hq hc ⟨j0.val, by have := j0.isLt; omega⟩ j0.isLt]
    exact EReal.coe_le_coe_iff.mpr (le_of_eq hj0)

/-! ## The weighted sum of a row of real data -/

/-- One column's summand: on a true column the real summand of `Dk`, on a padding column zero (its reciprocal is the
    first table's, which is zero there, as its label is no class). -/
theorem summand_real (x0 : Vec Ideal S128x128 .bf16) (x1 : Vec Ideal S128x1 .i32) (x3 : Vec Ideal S9216x128 .bf16)
    (x4 : Vec Ideal S1x9216 .i32) (x5 : Vec Ideal S1x9216 .f32) (x6 : Vec Ideal S1x9216 .f32)
    (f : Fin 8192 → Fin 128 → ℝ) (cn : Fin 1000 → Fin 128 → ℝ) (t : Fin 8192 → Fin 1000) (p : Fin 128) (r : Fin 8192)
    (hq : ∀ d : Fin 128, (x0 : S128x128.Idx → EReal) (ix2 p d) = ((f r d : ℝ) : EReal))
    (ht : (x1 : S128x1.Idx → BitVec 32) (ix2 p 0) = BitVec.ofNat 32 (t r).val)
    (hc : ∀ (j : Fin 9216) (d : Fin 128), (x3 : S9216x128.Idx → EReal) (ix2 j d)
      = if h : j.val < 9192 then ((fall f cn ⟨j.val, h⟩ d : ℝ) : EReal) else 0)
    (htr : ∀ j : Fin 9216, (x4 : S1x9216.Idx → BitVec 32) (ix2 0 j)
      = if h : j.val < 9192 then BitVec.ofNat 32 (tall t ⟨j.val, h⟩).val else 4294967295#32)
    (hw : ∀ j : Fin 9216, (x5 : S1x9216.Idx → EReal) (ix2 0 j)
      = if h : j.val < 9192 then ((invw t ⟨j.val, h⟩ : ℝ) : EReal) else 0)
    (hwm : ∀ j : Fin 9216, (x6 : S1x9216.Idx → EReal) (ix2 0 j)
      = if h : j.val < 9192 then ((invwm1 t ⟨j.val, h⟩ : ℝ) : EReal) else 0)
    (j : Fin 9216) :
    (Scalar.select (IntOp.cmpi .ne (BitVec.ofNat 32 r.val) (BitVec.ofNat 32 j.val))
          (Ideal.exp ((k0_pay2 (F := Ideal) x0 x3 : S128x9216.Idx → EReal) (ix2 p j) - ((mx f cn r : ℝ) : EReal)))
          (Ideal.ofBits .f32 0x00000000#32))
        * (Scalar.select (IntOp.cmpi .eq ((x1 : S128x1.Idx → BitVec 32) (ix2 p (0 : Fin 1))) ((x4 : S1x9216.Idx → BitVec 32) (ix2 (0 : Fin 1) j)))
          ((x6 : S1x9216.Idx → EReal) (ix2 (0 : Fin 1) j)) ((x5 : S1x9216.Idx → EReal) (ix2 (0 : Fin 1) j)))
      = (((if h : j.val < 9192 then
            (if (⟨j.val, h⟩ : Fin 9192).val = r.val then 0 else Real.exp (L f cn r ⟨j.val, h⟩ - mx f cn r))
              * (if tall t ⟨j.val, h⟩ = t r then invwm1 t ⟨j.val, h⟩ else invw t ⟨j.val, h⟩)
          else 0 : ℝ)) : EReal) := by
  have hr32 : r.val < 4294967296 := by have := r.isLt; omega
  have hj32 : j.val < 4294967296 := by have := j.isLt; omega
  have htr32 : (t r).val < 4294967295 := by have := (t r).isLt; omega
  by_cases h : j.val < 9192
  · have hl32 : (tall t ⟨j.val, h⟩).val < 4294967296 := by have := (tall t ⟨j.val, h⟩).isLt; omega
    rw [dif_pos h, raw_real x0 x3 f cn p r hq hc j h, ht, htr j, dif_pos h, hwm j, dif_pos h, hw j, dif_pos h,
      select_ne, select_eq, Ideal.ofBits_zero_f32, ← EReal.coe_sub, Ideal.exp_coe, EReal.coe_mul]
    congr 1
    · by_cases hd : r.val = j.val
      · rw [if_pos ((ofNat32_inj hr32 hj32).mpr hd),
          if_pos (show (⟨j.val, h⟩ : Fin 9192).val = r.val from hd.symm), EReal.coe_zero]
      · rw [if_neg (fun e => hd ((ofNat32_inj hr32 hj32).mp e)),
          if_neg (show ¬ (⟨j.val, h⟩ : Fin 9192).val = r.val from fun e => hd e.symm)]
    · by_cases hl : tall t ⟨j.val, h⟩ = t r
      · rw [if_pos ((ofNat32_inj (Nat.lt_succ_of_lt htr32) hl32).mpr (by rw [hl])), if_pos hl]
      · rw [if_neg (fun e => hl (Fin.ext ((ofNat32_inj (Nat.lt_succ_of_lt htr32) hl32).mp e).symm)), if_neg hl]
  · rw [dif_neg h, ht, htr j, dif_neg h, select_eq, if_neg (ofNat32_ne_ones htr32), hw j, dif_neg h, mul_zero, EReal.coe_zero]

/-- The weighted sum over the 9216 columns is the real weighted sum `Dk` shifted by the row's largest logit. -/
theorem wsum (i : grid0.Coords) (x0 : Vec Ideal S128x128 .bf16) (x1 : Vec Ideal S128x1 .i32) (x3 : Vec Ideal S9216x128 .bf16)
    (x4 : Vec Ideal S1x9216 .i32) (x5 : Vec Ideal S1x9216 .f32) (x6 : Vec Ideal S1x9216 .f32)
    (f : Fin 8192 → Fin 128 → ℝ) (cn : Fin 1000 → Fin 128 → ℝ) (t : Fin 8192 → Fin 1000) (p : Fin 128) (r : Fin 8192)
    (hr : r.val = (i 0).val * 128 + p.val)
    (hq : ∀ d : Fin 128, (x0 : S128x128.Idx → EReal) (ix2 p d) = ((f r d : ℝ) : EReal))
    (ht : (x1 : S128x1.Idx → BitVec 32) (ix2 p 0) = BitVec.ofNat 32 (t r).val)
    (hc : ∀ (j : Fin 9216) (d : Fin 128), (x3 : S9216x128.Idx → EReal) (ix2 j d)
      = if h : j.val < 9192 then ((fall f cn ⟨j.val, h⟩ d : ℝ) : EReal) else 0)
    (htr : ∀ j : Fin 9216, (x4 : S1x9216.Idx → BitVec 32) (ix2 0 j)
      = if h : j.val < 9192 then BitVec.ofNat 32 (tall t ⟨j.val, h⟩).val else 4294967295#32)
    (hw : ∀ j : Fin 9216, (x5 : S1x9216.Idx → EReal) (ix2 0 j)
      = if h : j.val < 9192 then ((invw t ⟨j.val, h⟩ : ℝ) : EReal) else 0)
    (hwm : ∀ j : Fin 9216, (x6 : S1x9216.Idx → EReal) (ix2 0 j)
      = if h : j.val < 9192 then ((invwm1 t ⟨j.val, h⟩ : ℝ) : EReal) else 0) :
    (k0_pay4 (F := Ideal) i x0 x3 x1 x4 x6 x5 : S128x1.Idx → EReal) (ix2 p (0 : Fin 1))
      = ((Dk f cn t (mx f cn r) r : ℝ) : EReal) := by
  rw [RowRead.pay4_apply, rowmax x0 x3 f cn t p r hq hc, row_word, ← hr]
  refine (Finset.sum_congr rfl fun j _ => summand_real x0 x1 x3 x4 x5 x6 f cn t p r hq ht hc htr hw hwm j).trans ?_
  rw [← coe_sum, sum_pad (fun j : Fin 9192 =>
    (if j.val = r.val then 0 else Real.exp (L f cn r j - mx f cn r)) * (if tall t j = t r then invwm1 t j else invw t j))]
  rfl

theorem tile_row (i : grid0.Coords) (x0 : Vec Ideal S128x128 .bf16) (x1 : Vec Ideal S128x1 .i32) (x2 : Vec Ideal S128x1 .f32)
    (x3 : Vec Ideal S9216x128 .bf16) (x4 : Vec Ideal S1x9216 .i32) (x5 : Vec Ideal S1x9216 .f32) (x6 : Vec Ideal S1x9216 .f32)
    (f : Fin 8192 → Fin 128 → ℝ) (cn : Fin 1000 → Fin 128 → ℝ) (t : Fin 8192 → Fin 1000)
    (p : Fin 128) (r : Fin 8192) (hr : r.val = (i 0).val * 128 + p.val)
    (hq : ∀ d : Fin 128, (x0 : S128x128.Idx → EReal) (ix2 p d) = ((f r d : ℝ) : EReal))
    (ht : (x1 : S128x1.Idx → BitVec 32) (ix2 p 0) = BitVec.ofNat 32 (t r).val)
    (hp : (x2 : S128x1.Idx → EReal) (ix2 p 0) = ((pos f cn t r : ℝ) : EReal))
    (hc : ∀ (j : Fin 9216) (d : Fin 128), (x3 : S9216x128.Idx → EReal) (ix2 j d)
      = if h : j.val < 9192 then ((fall f cn ⟨j.val, h⟩ d : ℝ) : EReal) else 0)
    (htr : ∀ j : Fin 9216, (x4 : S1x9216.Idx → BitVec 32) (ix2 0 j)
      = if h : j.val < 9192 then BitVec.ofNat 32 (tall t ⟨j.val, h⟩).val else 4294967295#32)
    (hw : ∀ j : Fin 9216, (x5 : S1x9216.Idx → EReal) (ix2 0 j)
      = if h : j.val < 9192 then ((invw t ⟨j.val, h⟩ : ℝ) : EReal) else 0)
    (hwm : ∀ j : Fin 9216, (x6 : S1x9216.Idx → EReal) (ix2 0 j)
      = if h : j.val < 9192 then ((invwm1 t ⟨j.val, h⟩ : ℝ) : EReal) else 0) :
    (tileOut (F := Ideal) i x0 x1 x2 x3 x4 x5 x6 : S128.Idx → EReal) (ix1 p)
      = ((rowK f cn t (mx f cn r) r : ℝ) : EReal) := by
  have F := facts f cn t r
  rw [RowRead.tileOut_apply, hp, rowmax x0 x3 f cn t p r hq hc,
    wsum i x0 x1 x3 x4 x5 x6 f cn t p r hr hq ht hc htr hw hwm,
    Ideal.log_coe, if_neg (not_le.mpr (F.Dk_pos (mx f cn r))), ← EReal.coe_sub, ← EReal.coe_sub]
  rfl

end Cert.KernelIdeal.RowVal

end
-- ==== Proof.KOutVal.lean ====
/-
  The scalar the program ends on, over the extended reals, when the launch memory holds real features, real centres
  and labels in range: minus the mean over the 8192 rows of the row loss `rowK`, each row shifted by its own largest logit.

  The seven arrays the kernel is launched on are known entry by entry. Grid point `t` loads rows `128 t … 128 t + 127` of
  the three row-tiled arrays and the whole of the four column-side arrays, and what it stores is the 128 losses of
  those rows; so the block it writes back is block `t` of one array of 8192 losses, the 64 blocks tile that array, and the array
  the region leaves is that array of losses. The closing host operations add its entries to zero, divide by 8192 and negate.
-/
import proofs.«428374_j30889404793116_3_alg».proof.Proof.KIFrame
import proofs.«428374_j30889404793116_3_alg».proof.Proof.KHostVal
import proofs.«428374_j30889404793116_3_alg».proof.Proof.KHostVal2
import proofs.«428374_j30889404793116_3_alg».proof.Proof.KHostVal3
import proofs.«428374_j30889404793116_3_alg».proof.Proof.KRowVal
import Idealize.ShloMosaic.Lib.Pipeline.Value
import Idealize.ShloMosaic.Lib.IdealHost
import Idealize.ShloMosaic.Lib.ValueIdx
import Idealize.ShloMosaic.Lib.Tactic

set_option maxRecDepth 16384

noncomputable section

namespace Cert.KernelIdeal.OutVal

open Cert.KernelIdeal Cert.KernelIdeal.Gen Cert.KernelIdeal.HFrame Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-! ## The index maps over the grid -/

/-- Decided over the 64 grid points: the three row-tiled inputs and the output sit at block `t` along the rows, the four
    column-side inputs at block 0, and the point's one coordinate is `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = t.val
    ∧ (grid0.coords t 0).val = t.val :=
  (by decide +kernel : ∀ t : Fin grid0.N, _)

/-! ## The input blocks, read off the arrays -/

/-- Entry `(p, d)` of the queries' block at point `t` is entry `(128 t + p, d)` of the queries. -/
theorem blk_q (t : Fin cfg0.N) (p : Fin 128) (d : Fin 128) (r : Fin 8192) (hr : r.val = t.val * 128 + p.val) :
    (iblk m c 0 t : S128x128.Idx → EReal) (ix2 p d) = (V m c main_v68 : S8192x128.Idx → EReal) (ix2 r d) := by
  obtain ⟨e0, e1, -⟩ := idx_facts t
  unfold iblk
  rw [View.read_apply]
  show V m c main_v68 (((cfg0.win 0).blk t).view.emb (ix2 p d)) = V m c main_v68 (ix2 r d)
  congr 1
  funext a; apply Fin.ext
  match a with
  | ⟨0, _⟩ => show win0_0.index t (0 : Fin 2) * 128 + 1 * p.val = r.val; omega
  | ⟨1, _⟩ => show win0_0.index t (1 : Fin 2) * 128 + 1 * d.val = d.val; omega

/-- Entry `p` of the label column's block at point `t` is entry `128 t + p` of the label column. -/
theorem blk_tcol (t : Fin cfg0.N) (p : Fin 128) (r : Fin 8192) (hr : r.val = t.val * 128 + p.val) :
    (iblk m c 1 t : S128x1.Idx → BitVec 32) (ix2 p 0) = (V m c main_v69 : S8192x1.Idx → BitVec 32) (ix2 r 0) := by
  obtain ⟨-, -, e0, e1, -⟩ := idx_facts t
  unfold iblk
  rw [View.read_apply]
  show V m c main_v69 (((cfg0.win 1).blk t).view.emb (ix2 p 0)) = V m c main_v69 (ix2 r 0)
  congr 1
  funext a; apply Fin.ext
  match a with
  | ⟨0, _⟩ => show win0_1.index t (0 : Fin 2) * 128 + 1 * p.val = r.val; omega
  | ⟨1, _⟩ => show win0_1.index t (1 : Fin 2) * 1 + 1 * 0 = 0; omega

/-- Entry `p` of the positive-term column's block at point `t` is entry `128 t + p` of that column. -/
theorem blk_pos (t : Fin cfg0.N) (p : Fin 128) (r : Fin 8192) (hr : r.val = t.val * 128 + p.val) :
    (iblk m c 2 t : S128x1.Idx → EReal) (ix2 p 0) = (V m c main_v70 : S8192x1.Idx → EReal) (ix2 r 0) := by
  obtain ⟨-, -, -, -, e0, e1, -⟩ := idx_facts t
  unfold iblk
  rw [View.read_apply]
  show V m c main_v70 (((cfg0.win 2).blk t).view.emb (ix2 p 0)) = V m c main_v70 (ix2 r 0)
  congr 1
  funext a; apply Fin.ext
  match a with
  | ⟨0, _⟩ => show win0_2.index t (0 : Fin 2) * 128 + 1 * p.val = r.val; omega
  | ⟨1, _⟩ => show win0_2.index t (1 : Fin 2) * 1 + 1 * 0 = 0; omega

/-- The column-side operand's block at every point is the whole operand. -/
theorem blk_cols (t : Fin cfg0.N) (j : Fin 9216) (d : Fin 128) :
    (iblk m c 3 t : S9216x128.Idx → EReal) (ix2 j d) = (V m c main_v67 : S9216x128.Idx → EReal) (ix2 j d) := by
  obtain ⟨-, -, -, -, -, -, e0, e1, -⟩ := idx_facts t
  unfold iblk
  rw [View.read_apply]
  show V m c main_v67 (((cfg0.win 3).blk t).view.emb (ix2 j d)) = V m c main_v67 (ix2 j d)
  congr 1
  funext a; apply Fin.ext
  match a with
  | ⟨0, _⟩ => show win0_3.index t (0 : Fin 2) * 9216 + 1 * j.val = j.val; omega
  | ⟨1, _⟩ => show win0_3.index t (1 : Fin 2) * 128 + 1 * d.val = d.val; omega

/-- The label row's block at every point is the whole row. -/
theorem blk_trow (t : Fin cfg0.N) (j : Fin 9216) :
    (iblk m c 4 t : S1x9216.Idx → BitVec 32) (ix2 0 j) = (V m c main_v71 : S1x9216.Idx → BitVec 32) (ix2 0 j) := by
  obtain ⟨-, -, -, -, -, -, -, -, e0, e1, -⟩ := idx_facts t
  unfold iblk
  rw [View.read_apply]
  show V m c main_v71 (((cfg0.win 4).blk t).view.emb (ix2 0 j)) = V m c main_v71 (ix2 0 j)
  congr 1
  funext a; apply Fin.ext
  match a with
  | ⟨0, _⟩ => show win0_4.index t (0 : Fin 2) * 1 + 1 * 0 = 0; omega
  | ⟨1, _⟩ => show win0_4.index t (1 : Fin 2) * 9216 + 1 * j.val = j.val; omega

/-- The first reciprocal row's block at every point is the whole row. -/
theorem blk_invw (t : Fin cfg0.N) (j : Fin 9216) :
    (iblk m c 5 t : S1x9216.Idx → EReal) (ix2 0 j) = (V m c main_v72 : S1x9216.Idx → EReal) (ix2 0 j) := by
  obtain ⟨-, -, -, -, -, -, -, -, -, -, e0, e1, -⟩ := idx_facts t
  unfold iblk
  rw [View.read_apply]
  show V m c main_v72 (((cfg0.win 5).blk t).view.emb (ix2 0 j)) = V m c main_v72 (ix2 0 j)
  congr 1
  funext a; apply Fin.ext
  match a with
  | ⟨0, _⟩ => show win0_5.index t (0 : Fin 2) * 1 + 1 * 0 = 0; omega
  | ⟨1, _⟩ => show win0_5.index t (1 : Fin 2) * 9216 + 1 * j.val = j.val; omega

/-- The second reciprocal row's block at every point is the whole row. -/
theorem blk_invwm1 (t : Fin cfg0.N) (j : Fin 9216) :
    (iblk m c 6 t : S1x9216.Idx → EReal) (ix2 0 j) = (V m c main_v73 : S1x9216.Idx → EReal) (ix2 0 j) := by
  obtain ⟨-, -, -, -, -, -, -, -, -, -, -, -, e0, e1, -⟩ := idx_facts t
  unfold iblk
  rw [View.read_apply]
  show V m c main_v73 (((cfg0.win 6).blk t).view.emb (ix2 0 j)) = V m c main_v73 (ix2 0 j)
  congr 1
  funext a; apply Fin.ext
  match a with
  | ⟨0, _⟩ => show win0_6.index t (0 : Fin 2) * 1 + 1 * 0 = 0; omega
  | ⟨1, _⟩ => show win0_6.index t (1 : Fin 2) * 9216 + 1 * j.val = j.val; omega

/-! ## What a grid point stores -/

variable {m c}
variable {f : Fin 8192 → Fin 128 → ℝ} {cn : Fin 1000 → Fin 128 → ℝ} {t : Fin 8192 → Fin 1000}

/-- The 8192 row losses as one array: entry `r` is the loss of row `r` shifted by the row's largest logit. -/
def lossArr (f : Fin 8192 → Fin 128 → ℝ) (cn : Fin 1000 → Fin 128 → ℝ) (t : Fin 8192 → Fin 1000) : S8192.Idx → EReal :=
  fun y => ((rowK f cn t (mx f cn (y 0)) (y 0) : ℝ) : EReal)

/-- Entry `p` of what point `pt` stores is the loss of row `128 pt + p`. -/
theorem stored_at (H : HostVal.Holds m c f cn t) (pt : Fin cfg0.N) (p : Fin 128) (r : Fin 8192)
    (hr : r.val = pt.val * 128 + p.val) :
    (tileOut (F := Ideal) (grid0.coords pt) (iblk m c 0 pt) (iblk m c 1 pt) (iblk m c 2 pt) (iblk m c 3 pt)
        (iblk m c 4 pt) (iblk m c 5 pt) (iblk m c 6 pt) : S128.Idx → EReal) (ix1 p)
      = ((rowK f cn t (mx f cn r) r : ℝ) : EReal) := by
  have hg : (grid0.coords pt 0).val = pt.val := (idx_facts pt).2.2.2.2.2.2.2.2.2.2.2.2.2.2.2
  refine RowVal.tile_row (grid0.coords pt) _ _ _ _ _ _ _ f cn t p r (by rw [hg]; exact hr) ?_ ?_ ?_ ?_ ?_ ?_ ?_
  · intro d; rw [blk_q m c pt p d r hr]; exact HostVal.q_val H r d
  · rw [blk_tcol m c pt p r hr]; exact HostVal.tcol_val H r
  · rw [blk_pos m c pt p r hr]; exact HostVal.pos_val H r
  · intro j d; rw [blk_cols m c pt j d]; exact HostVal.cols_val H j d
  · intro j; rw [blk_trow m c pt j]; exact HostVal.trow_val H j
  · intro j; rw [blk_invw m c pt j]; exact HostVal.invw_val H j
  · intro j; rw [blk_invwm1 m c pt j]; exact HostVal.invwm1_val H j

/-! ## From the blocks to the array -/

/-- Block `pt` of an array of 8192 entries, read through the output window: entry `y` is entry `128 pt + y`. -/
theorem read_out_blk (pt : Fin cfg0.N) (g : S8192.Idx → EReal) (y : S128.Idx) (r : Fin 8192)
    (hr : r.val = pt.val * 128 + (y 0).val) :
    (((cfg0.win 7).blk pt).view.read (Elt Ideal) g : S128.Idx → EReal) y = g (ix1 r) := by
  have e0 : win0_7.index pt (0 : Fin 1) = pt.val := (idx_facts pt).2.2.2.2.2.2.2.2.2.2.2.2.2.2.1
  rw [View.read_apply]
  show g (((cfg0.win 7).blk pt).view.emb y) = g (ix1 r)
  congr 1
  funext a; apply Fin.ext
  match a with
  | ⟨0, _⟩ => show win0_7.index pt (0 : Fin 1) * 128 + 1 * (y 0).val = r.val; omega

/-- Rows `128 pt … 128 pt + 127` are rows of the batch. -/
theorem row_lt (pt : Fin cfg0.N) (p : Fin 128) : pt.val * 128 + p.val < 8192 := by
  have h : pt.val < 64 := lt_of_lt_of_eq pt.isLt (N_0 : cfg0.N = 64)
  have := p.isLt; omega

/-- What point `pt` stores, entry by entry over the block's own index type, is block `pt` of the array of losses. -/
theorem stored_eq (H : HostVal.Holds m c f cn t) (pt : Fin cfg0.N) (y : S128.Idx) :
    (tileOut (F := Ideal) (grid0.coords pt) (iblk m c 0 pt) (iblk m c 1 pt) (iblk m c 2 pt) (iblk m c 3 pt)
        (iblk m c 4 pt) (iblk m c 5 pt) (iblk m c 6 pt) : S128.Idx → EReal) y
      = (((cfg0.win 7).blk pt).view.read (Elt Ideal) (lossArr f cn t) : S128.Idx → EReal) y := by
  rw [read_out_blk pt (lossArr f cn t) y ⟨pt.val * 128 + (y 0).val, row_lt pt (y 0)⟩ rfl]
  obtain ⟨p, rfl⟩ : ∃ p : Fin 128, y = ix1 p := ⟨y 0, eq_ix1 y⟩
  exact stored_at H pt p ⟨pt.val * 128 + p.val, row_lt pt p⟩ rfl

/-- What point `pt` writes back is block `pt` of the array of losses. -/
theorem flushed_eq (H : HostVal.Holds m c f cn t) (pt : Fin cfg0.N) :
    (dats m 0 c).flushed 7 pt = ((cfg0.win 7).blk pt).view.read (Elt Ideal) (lossArr f cn t) := by
  show (cfg0.win 7).cut (grid0.coords pt) ((dats m 0 c).after 7 pt) = _
  rw [after_out]
  funext y
  exact stored_eq H pt y

/-- An index of the array is in point `pt`'s block iff it is in the block's range of rows. -/
theorem mem_out_blk (pt : Fin cfg0.N) (i : S8192.Idx) :
    i ∈ ((cfg0.win 7).blk pt).view.set ↔ ∀ a : Fin 1, win0_7.index pt a * S128.size a ≤ (i a).val ∧ (i a).val < win0_7.index pt a * S128.size a + S128.size a := by
  show i ∈ ((View.whole main_v74).slice (win0_7.rect pt)).set ↔ _
  rw [View.set_slice_whole, Rect.mem_set_unit]
  exact Iff.rfl

/-- Row `r` is in the block of point `r / 128`: the 64 blocks tile the array. -/
theorem out_cover (i : S8192.Idx) :
    ∃ pt : Fin cfg0.N, (cfg0.win 7).flush pt = true ∧ i ∈ ((cfg0.win 7).blk pt).view.set := by
  have hi : (i 0).val < 8192 := (i 0).isLt
  have hN : cfg0.N = 64 := N_0
  refine ⟨⟨(i 0).val / 128, by rw [hN]; omega⟩, flush0_7 _, ?_⟩
  rw [mem_out_blk]
  intro a
  have e0 := (idx_facts ⟨(i 0).val / 128, by rw [hN]; omega⟩).2.2.2.2.2.2.2.2.2.2.2.2.2.2.1
  match a with
  | ⟨0, _⟩ =>
    show win0_7.index ⟨(i 0).val / 128, _⟩ (0 : Fin 1) * 128 ≤ (i 0).val ∧ (i 0).val < win0_7.index ⟨(i 0).val / 128, _⟩ (0 : Fin 1) * 128 + 128
    rw [e0]; show (i 0).val / 128 * 128 ≤ (i 0).val ∧ (i 0).val < (i 0).val / 128 * 128 + 128
    omega

/-- The array the region leaves is the array of the 8192 row losses. -/
theorem out_final (H : HostVal.Holds m c f cn t) : (dats m 0 c).arrAt 7 cfg0.N = lossArr f cn t :=
  (dats m 0 c).arrAt_eq_of_cover 7 (lossArr f cn t) (fun pt _ => flushed_eq H pt) out_cover

/-! ## The closing host operations -/

/-- A finite sum of reals read in the extended reals is the sum of the readings. -/
theorem sum_coe_ereal {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The indices of an array of 8192 entries are its 8192 positions. -/
def idx8192 : S8192.Idx ≃ Fin 8192 where
  toFun y := y 0
  invFun r := ix1 r
  left_inv y := (eq_ix1 y).symm
  right_inv _ := rfl

/-- The total of the array of losses is the sum of the row losses. -/
theorem sum_lossArr (f : Fin 8192 → Fin 128 → ℝ) (cn : Fin 1000 → Fin 128 → ℝ) (t : Fin 8192 → Fin 1000) :
    (∑ y : S8192.Idx, lossArr f cn t y) = ((∑ i : Fin 8192, rowK f cn t (mx f cn i) i : ℝ) : EReal) := by
  rw [← sum_coe_ereal]
  exact Fintype.sum_equiv idx8192 _ _ (fun y => rfl)

/-- The single-precision word `0x46000000` is 8192. -/
theorem ofBits_8192 : Ideal.ofBits .f32 0x46000000#32 = ((8192 : ℝ) : EReal) := by
  simp [Ideal.ofBits, Ideal.ieee, -EReal.coe_mul]; norm_num

theorem kernel_result (m : (ℓ : Loc nD τ sig) → Buf (Elt Ideal) ℓ) (c : Dev nD) (f : Fin 8192 → Fin 128 → ℝ) (cn : Fin 1000 → Fin 128 → ℝ) (t : Fin 8192 → Fin 1000)
    (H : HostVal.Holds m c f cn t) :
    (Pipeline.afterTail₀ cfgs (HFrame.dats m) 0 (HFrame.V0 m) [hostOps1] c main_v77 : S_.Idx → EReal)
      = fun _ => (((-((∑ i : Fin 8192, rowK f cn t (mx f cn i) i) / 8192) : ℝ)) : EReal) := by
  unfold Pipeline.afterTail₀
  show StableHlo.after hostOps1 _ (Proc.devRef .tc main_v77) = _
  after_results
  have harr : Pipeline.withArrays (cfgs 0).spec c (V0 m c) (fun w => (dats m 0 c).arrAt w (cfgs 0).N) (Proc.devRef .tc main_v74)
      = lossArr f cn t :=
    (Pipeline.withArrays_arr spec0 launch0.win.arr_inj c _ _ 7).trans (out_final H)
  rw [harr]
  funext j
  show -(Ideal.div (Ideal.hostReduceAdd reducesTo_S8192_S_d0 (lossArr f cn t) (Ideal.ofBits .f32 0x00000000#32) j)
      (Ideal.ofBits .f32 0x46000000#32)) = _
  rw [Ideal.hostReduceAdd_total reducesTo_S8192_S_d0 (fun b => b.elim0), Ideal.ofBits_zero_f32, zero_add, sum_lossArr,
    ofBits_8192, Ideal.div_coe (by norm_num), ← EReal.coe_mul, ← EReal.coe_neg]
  exact congrArg _ (by ring)

end Cert.KernelIdeal.OutVal

end
-- ==== Proof.RefValue.lean ====
/-
  The reference program's value, read over the reals.

  The reference computes, for batch features `f`, class centres `cn` and labels `t`, the class-balanced
  supervised-contrastive loss column by column. Read at the ideal instance (a float an extended real, every operation
  exact) and under the hypotheses that the three arguments hold real numbers `cn`, `f` and the words of labels below
  1000, every stage of the program is a real number read as an extended real:

  * the concatenated labels at column `j` are the label `tall t j`, and normalising them (adding 1000 to a negative one)
    changes nothing, since none is negative;
  * the class counts are a scatter that adds a one at every column's label: element `k` ends at the number of columns whose
    label is `k`, which is `cls t k`; gathering them back at the labels gives `cls t (tall t j)` at column `j`;
  * the diagonal mask is a matrix of ones into which a zero is set at (u, u) for every row u: element (i, j) ends at zero
    exactly when j = i, which is `lm i j`; times the comparison of labels it is the positive mask `M t i j`;
  * the concatenated features at column `j` are `fall f cn j`, the matrix product is the inner product `dot`, its quotient
    by the temperature (the word of `0.1` in single precision is exactly `c01`) is the logit `L`, and the fold of `max` from
    `-∞` over a row is the row's largest logit `mx`;
  * the shifted exponentials, their weights (never below one, so never zero), the weighted sum `E` (positive, so its
    logarithm is the real one), the log-probabilities, their mean over the positive columns (there is at least one) follow
    term by term: row `i` of the last but three stage is `rowR f cn t i`;
  * the result is the sum of the rows over 8192, negated.

  Every division met has a divisor that is a nonzero real and every logarithm a positive argument, so no infinity and no
  junk value arises: the extended-real operations are the real ones throughout.
-/
import proofs.«428374_j30889404793116_3_alg».proof.Proof.Gen.ReferenceIdeal.Run
import proofs.«428374_j30889404793116_3_alg».proof.Proof.Gen.ReferenceIdeal.Read
import proofs.«428374_j30889404793116_3_alg».proof.Proof.Spec
import proofs.«428374_j30889404793116_3_alg».proof.Proof.SpecFacts
import Idealize.ShloMosaic.Lib.ValueIdx
import Idealize.ShloMosaic.PureOps.Ideal.Laws
import Idealize.ShloMosaic.Lib.StableHlo.Predicate
import Idealize.ShloMosaic.Lib.Pipeline.Value
import Mathlib.Data.EReal.Basic
import Mathlib.Data.EReal.Operations
import Mathlib.Data.EReal.Inv
import Mathlib.Data.Finset.Lattice.Fold
import Mathlib.Algebra.BigOperators.Fin
import Mathlib.Tactic.Linarith
import Mathlib.Tactic.NormNum

noncomputable section

namespace Cert.ReferenceIdeal.RefValue

open Cert.ReferenceIdeal Cert.ReferenceIdeal.Gen Idealize.ShloMosaic Idealize.ShloMosaic.ValueIdx
open Cert.ReferenceIdeal.Read

/-! ## Extended reals that are real: coercion through the operations -/

/-- A finite sum of real numbers, each read as an extended real, is the real sum read as one. -/
theorem coe_sum {ι : Type*} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- The logarithm of a positive real is the real logarithm. -/
theorem log_coe_pos (a : ℝ) (ha : 0 < a) : Ideal.log (a : EReal) = ((Real.log a : ℝ) : EReal) := by
  rw [Ideal.log_coe, if_neg (not_le.mpr ha)]

/-- The largest of finitely many reals, folded from the bottom element, is their supremum. -/
theorem fold_max_coe {ι : Type*} (s : Finset ι) (hs : s.Nonempty) (g : ι → ℝ) :
    s.fold max (⊥ : EReal) (fun k => ((g k : ℝ) : EReal)) = ((s.sup' hs g : ℝ) : EReal) := by
  apply le_antisymm
  · rw [Finset.fold_max_le]
    exact ⟨bot_le, fun x hx => EReal.coe_le_coe_iff.mpr (Finset.le_sup' g hx)⟩
  · rw [Finset.le_fold_max]
    obtain ⟨k, hk, e⟩ := Finset.exists_mem_eq_sup' hs g
    exact Or.inr ⟨k, hk, by rw [e]⟩

/-! ## The words of the program's constants -/

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_bot : Ideal.ofBits .f32 0xFF800000#32 = (⊥ : EReal) := by
  simp [Ideal.ofBits, Ideal.ieee]

theorem ofBits_8192 : Ideal.ofBits .f32 0x46000000#32 = ((8192 : ℝ) : EReal) := by
  simp [Ideal.ofBits, Ideal.ieee, -EReal.coe_mul]; norm_num

theorem ofBits_c01 : Ideal.ofBits .f32 0x3DCCCCCD#32 = ((Cert.Spec.c01 : ℝ) : EReal) := by
  simp [Ideal.ofBits, Ideal.ieee, -EReal.coe_mul, Cert.Spec.c01]; norm_num

section Stages

variable (x0 : (⟨S1000x128, .f32⟩ : BufTy).Contents (Elt Ideal)) (x1 : (⟨S8192x128, .f32⟩ : BufTy).Contents (Elt Ideal))
  (x2 : (⟨S8192, .i32⟩ : BufTy).Contents (Elt Ideal))
  (f : Fin 8192 → Fin 128 → ℝ) (cn : Fin 1000 → Fin 128 → ℝ) (t : Fin 8192 → Fin 1000)

/-! ## The integer stages -/

/-- The concatenated labels at column `j`: the batch row's label, then the centres' own classes. -/
theorem v1_at (h2 : ∀ b, (x2 : S8192.Idx → BitVec 32) (ix1 b) = BitVec.ofNat 32 (t b).val) (j : Fin 9192) :
    val_main_v1 (F := Ideal) x2 (ix1 j) = BitVec.ofNat 32 (Cert.Spec.tall t j).val := by
  unfold val_main_v1 Cert.Spec.tall
  by_cases h : j.val < 8192
  · rw [dif_pos h,
      concatenate_pair_apply_left (0 : Fin 1) x2 (val_main_v0 (F := Ideal)) concatenates_S8192_S1000_S9192_d0 (ix1 j) rfl
        (ix1 ⟨j.val, h⟩) (fun b => by match b with | ⟨0, _⟩ => rfl)]
    exact h2 _
  · have hj := j.isLt
    rw [dif_neg h,
      concatenate_pair_apply_right (0 : Fin 1) x2 (val_main_v0 (F := Ideal)) concatenates_S8192_S1000_S9192_d0 (ix1 j) rfl rfl
        (ix1 ⟨j.val - 8192, by omega⟩) (fun b hb => absurd (Subsingleton.elim _ _) hb)
        (by show j.val - 8192 + 8192 = j.val; omega)]
    rfl

/-- A word of a number below `2^31` is not below zero as a signed word. -/
theorem slt_zero_ofNat (n : Nat) (hn : n < 2 ^ 31) : IntOp.cmpi .slt (BitVec.ofNat 32 n) 0#32 = 0#1 := by
  apply eq_zero_of_ne_one
  intro h1
  have ha : (BitVec.ofNat 32 n).toNat < 2 ^ 31 := by simp [BitVec.toNat_ofNat]; omega
  have := (StableHlo.Predicate.slt_iff_toNat ha (by decide : (0#32 : BitVec 32).toNat < 2 ^ 31)).mp h1
  simp at this

/-- Normalising a label that is not negative leaves it as it is. -/
theorem v7_at (h2 : ∀ b, (x2 : S8192.Idx → BitVec 32) (ix1 b) = BitVec.ofNat 32 (t b).val) (j : Fin 9192) :
    val_main_v7 (F := Ideal) x2 (ix1 j) = BitVec.ofNat 32 (Cert.Spec.tall t j).val := by
  have hk := (Cert.Spec.tall t j).isLt
  rw [val_main_v7_apply, val_main_v4_apply, v1_at x2 t h2, val_main_v3_apply, val_main_c_apply,
    slt_zero_ofNat _ (by omega), select_zero]

theorem v51_at (h2 : ∀ b, (x2 : S8192.Idx → BitVec 32) (ix1 b) = BitVec.ofNat 32 (t b).val) (j : Fin 9192) :
    val_main_v51 (F := Ideal) x2 (ix1 j) = BitVec.ofNat 32 (Cert.Spec.tall t j).val := by
  have hk := (Cert.Spec.tall t j).isLt
  rw [val_main_v51_apply, val_main_v48_apply, v1_at x2 t h2, val_main_v47_apply, val_main_c_10_apply,
    slt_zero_ofNat _ (by omega), select_zero]

/-- The row numbers and the column numbers of the diagonal, normalised, are the row number. -/
theorem v24_at (i : Fin 8192) : val_main_v24 (F := Ideal) (ix1 i) = BitVec.ofNat 32 i.val := by
  have hi := i.isLt
  rw [val_main_v24_apply, val_main_v21_apply, val_main_v18_apply, val_main_v20_apply, val_main_c_3_apply]
  show Scalar.select (IntOp.cmpi .slt (BitVec.ofNat 32 i.val) 0#32) _ _ = _
  rw [slt_zero_ofNat _ (by omega), select_zero]

theorem v29_at (i : Fin 8192) : val_main_v29 (F := Ideal) (ix1 i) = BitVec.ofNat 32 i.val := by
  have hi := i.isLt
  rw [val_main_v29_apply, val_main_v26_apply, val_main_v19_apply, val_main_v25_apply, val_main_c_5_apply]
  show Scalar.select (IntOp.cmpi .slt (BitVec.ofNat 32 i.val) 0#32) _ _ = _
  rw [slt_zero_ofNat _ (by omega), select_zero]

/-! ## The class counts: a scatter that adds one at each column's label -/

/-- Where update `p` of the counting scatter lands: at the element its index word names, read signed. -/
theorem count_resultIdx_iff (idx : IVec S9192x1 32) (p : Fin 9192) (k : Fin 1000) :
    scatter_S1000_S9192x1_S9192_n_0_0_1.resultIdx? (ix1 p) idx = some (ix1 k)
      ↔ (idx (ix2 p (0 : Fin 1))).toInt = (k.val : Int) := by
  have hiv : scatter_S1000_S9192x1_S9192_n_0_0_1.indexVectorDim = 1 := rfl
  have hm : (0 : Fin 1) ∈ scatter_S1000_S9192x1_S9192_n_0_0_1.scatterDimsToOperandDims := List.mem_singleton.mpr rfl
  have hsi : scatter_S1000_S9192x1_S9192_n_0_0_1.siIdx (ix1 p)
      ⟨List.idxOf (0 : Fin 1) scatter_S1000_S9192x1_S9192_n_0_0_1.scatterDimsToOperandDims, List.idxOf_lt_length_iff.2 hm⟩
      = ix2 p (0 : Fin 1) := by
    funext b
    match b with
    | ⟨0, _⟩ =>
      unfold ScatterDims.siIdx
      rw [dif_neg (by rw [hiv]; simp)]
      unfold ScatterDims.siCoord
      apply Fin.ext
      simp only [Fin.val_cast]
      have e : ∀ X : Fin 1, ((ix1 p : S9192.Idx) X).val = p.val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) scatter_S1000_S9192x1_S9192_n_0_0_1.scatterDimsToOperandDims = 0
      decide
  have hs : scatter_S1000_S9192x1_S9192_n_0_0_1.start (ix1 p) idx 0 = (idx (ix2 p (0 : Fin 1))).toInt := by
    unfold ScatterDims.start
    rw [dif_pos hm, hsi]
  have hw : scatter_S1000_S9192x1_S9192_n_0_0_1.window (ix1 p) 0 = 0 := by
    unfold ScatterDims.window
    rw [dif_neg (by decide)]
  have hk : k.val < 1000 := k.isLt
  unfold ScatterDims.resultIdx?
  by_cases h : ∀ a, 0 ≤ scatter_S1000_S9192x1_S9192_n_0_0_1.start (ix1 p) idx a + scatter_S1000_S9192x1_S9192_n_0_0_1.window (ix1 p) a
      ∧ scatter_S1000_S9192x1_S9192_n_0_0_1.start (ix1 p) idx a + scatter_S1000_S9192x1_S9192_n_0_0_1.window (ix1 p) a < S1000.size a
  · rw [dif_pos h]
    have h0 := h 0
    rw [hs, hw] at h0
    constructor
    · intro e
      have e' := congrArg (fun q : S1000.Idx => (q 0).val) (Option.some.inj e)
      simp only [hs, hw] at e'
      have e'' : ((idx (ix2 p (0 : Fin 1))).toInt + ((0 : Nat) : Int)).toNat = k.val := e'
      omega
    · intro e
      congr 1
      funext a
      obtain rfl : a = 0 := Subsingleton.elim _ _
      apply Fin.ext
      show (scatter_S1000_S9192x1_S9192_n_0_0_1.start (ix1 p) idx 0 + (scatter_S1000_S9192x1_S9192_n_0_0_1.window (ix1 p) 0 : Nat)).toNat = k.val
      rw [hs, hw, e]; simp
  · rw [dif_neg h]
    constructor
    · intro e; cases e
    · intro e
      exfalso
      apply h
      intro a
      obtain rfl : a = 0 := Subsingleton.elim _ _
      rw [hs, hw, e]
      refine ⟨by omega, ?_⟩
      show (k.val : Int) + ((0 : Nat) : Int) < 1000
      omega

/-- The index column of the counting scatter at row `p`: the column's label. -/
theorem v8_at (h2 : ∀ b, (x2 : S8192.Idx → BitVec 32) (ix1 b) = BitVec.ofNat 32 (t b).val) (p : Fin 9192) :
    val_main_v8 (F := Ideal) x2 (ix2 p (0 : Fin 1)) = BitVec.ofNat 32 (Cert.Spec.tall t p).val := by
  rw [val_main_v8_apply, show idx_main_v8 (ix2 p (0 : Fin 1)) = ix1 p from
    funext fun a => by match a with | ⟨0, _⟩ => rfl]
  exact v7_at x2 t h2 p

/-- The class counts: the scatter adds a one at every column's label, so class `k` ends at the number of columns of class `k`. -/
theorem v10_at (h2 : ∀ b, (x2 : S8192.Idx → BitVec 32) (ix1 b) = BitVec.ofNat 32 (t b).val) (k : Fin 1000) :
    val_main_v10 (F := Ideal) x2 (ix1 k) = ((Cert.Spec.cls t k : ℝ) : EReal) := by
  unfold val_main_v10
  simp only [Host.scatterAdd, Ideal.hostScatterAdd_def]
  unfold Ideal.hostScatterAdd
  have hupd : ∀ j, val_main_v9 (F := Ideal) j = ((1 : ℝ) : EReal) := fun j => by
    rw [val_main_v9_apply, val_main_cst_1_apply, Ideal.ofBits_def, ofBits_one]
  rw [val_main_v2_apply, val_main_cst_apply, Ideal.ofBits_def, ofBits_zero, Finset.sum_congr rfl (fun j _ => hupd j),
    coe_sum, ← EReal.coe_add, zero_add, Finset.sum_const, nsmul_eq_mul, mul_one]
  unfold Cert.Spec.cls
  congr 2
  refine Finset.card_nbij' (fun j => (j 0 : Fin 9192)) (fun p => ix1 p) ?_ ?_ ?_ ?_
  · intro j hj
    obtain ⟨p, rfl⟩ : ∃ p : Fin 9192, j = ix1 p := ⟨j 0, eq_ix1 j⟩
    have hj' := (count_resultIdx_iff (val_main_v8 (F := Ideal) x2) p k).mp (Finset.mem_filter.mp hj).2
    have hlt := (Cert.Spec.tall t p).isLt
    rw [v8_at x2 t h2, StableHlo.Predicate.toInt_ofNat_small _ (by omega)] at hj'
    exact Finset.mem_filter.mpr ⟨Finset.mem_univ _, Fin.ext (by exact_mod_cast hj')⟩
  · intro p hp
    have hp' := (Finset.mem_filter.mp hp).2
    have hlt := (Cert.Spec.tall t p).isLt
    refine Finset.mem_filter.mpr ⟨Finset.mem_univ _, (count_resultIdx_iff (val_main_v8 (F := Ideal) x2) p k).mpr ?_⟩
    rw [v8_at x2 t h2, StableHlo.Predicate.toInt_ofNat_small _ (by omega), hp']
  · intro j _; exact (eq_ix1 j).symm
  · intro p _; rfl

/-- The gathered counts: column `j` reads the count of its own class. -/
theorem v53_at (h2 : ∀ b, (x2 : S8192.Idx → BitVec 32) (ix1 b) = BitVec.ofNat 32 (t b).val) (j : Fin 9192) :
    val_main_v53 (F := Ideal) x2 (ix1 j) = ((Cert.Spec.cls t (Cert.Spec.tall t j) : ℝ) : EReal) := by
  unfold val_main_v53
  have hlt := (Cert.Spec.tall t j).isLt
  have e1 : (ix1 j : S9192.Idx) = Shape.Idx.ofFin j := funext fun a => by match a with | ⟨0, _⟩ => rfl
  rw [e1, StableHlo.Predicate.gather_take gather_S1000_S9192x1_S9192_n_0_n_n_0_1_1 rfl rfl rfl rfl _ _ j (by decide)]
  have e2 : val_main_v52 (F := Ideal) x2 (StableHlo.Predicate.ixP j) = BitVec.ofNat 32 (Cert.Spec.tall t j).val := by
    rw [val_main_v52_apply, show idx_main_v52 (StableHlo.Predicate.ixP j) = ix1 j from
      funext fun a => by match a with | ⟨0, _⟩ => rfl]
    exact v51_at x2 t h2 j
  have e3 : (Shape.Idx.ofFin ⟨min (val_main_v52 (F := Ideal) x2 (StableHlo.Predicate.ixP j)).toInt.toNat (1000 - 1), by omega⟩ : S1000.Idx)
      = ix1 (Cert.Spec.tall t j) := by
    funext a
    match a with
    | ⟨0, _⟩ =>
      apply Fin.ext
      show min (val_main_v52 (F := Ideal) x2 (StableHlo.Predicate.ixP j)).toInt.toNat (1000 - 1) = (Cert.Spec.tall t j).val
      rw [e2, StableHlo.Predicate.toInt_ofNat_small _ (by omega)]
      simp only [Int.toNat_natCast]
      omega
  rw [e3]
  exact v10_at x2 t h2 _

/-! ## The diagonal mask: a scatter that sets zero on the diagonal of a matrix of ones -/

open Classical in
/-- A left fold of steps each of which either sets one element to the constant `c` or changes nothing: an element ends at
    `c` if some step set it, and as it began if none did. -/
theorem foldl_set_const {ι κ α : Type} [DecidableEq ι] (l : List κ) (g : κ → Option ι) (c : α)
    (step : (ι → α) → κ → (ι → α))
    (hsome : ∀ r n i, g n = some i → ∀ i', step r n i' = if i' = i then c else r i')
    (hnone : ∀ r n, g n = none → step r n = r) (r : ι → α) (i' : ι) :
    (l.foldl step r) i' = if ∃ n ∈ l, g n = some i' then c else r i' := by
  induction l generalizing r with
  | nil => simp
  | cons a l ih =>
    rw [List.foldl_cons, ih]
    by_cases hex : ∃ n ∈ l, g n = some i'
    · rw [if_pos hex, if_pos (by obtain ⟨n, hn, e⟩ := hex; exact ⟨n, List.mem_cons_of_mem _ hn, e⟩)]
    · rw [if_neg hex]
      cases hga : g a with
      | none =>
        rw [hnone r a hga, if_neg]
        rintro ⟨n, hn, e⟩
        rcases List.mem_cons.mp hn with rfl | hn
        · rw [hga] at e; cases e
        · exact hex ⟨n, hn, e⟩
      | some i =>
        rw [hsome r a i hga]
        by_cases hii : i' = i
        · rw [if_pos hii, if_pos ⟨a, List.mem_cons.mpr (Or.inl rfl), by rw [hga, hii]⟩]
        · rw [if_neg hii, if_neg]
          rintro ⟨n, hn, e⟩
          rcases List.mem_cons.mp hn with rfl | hn
          · rw [hga] at e; exact hii (Option.some.inj e).symm
          · exact hex ⟨n, hn, e⟩

/-- Where update `u` of the diagonal scatter lands: at the row and column its two index words name, read signed. -/
theorem diag_resultIdx_iff (idx : IVec S8192x2 32) (u : Fin 8192) (i : Fin 8192) (j : Fin 9192) :
    scatter_S8192x9192_S8192x2_S8192_n_01_01_1.resultIdx? (ix1 u) idx = some (ix2 i j)
      ↔ (idx (ix2 u (0 : Fin 2))).toInt = (i.val : Int) ∧ (idx (ix2 u (1 : Fin 2))).toInt = (j.val : Int) := by
  have hiv : scatter_S8192x9192_S8192x2_S8192_n_01_01_1.indexVectorDim = 1 := rfl
  have hm0 : (0 : Fin 2) ∈ scatter_S8192x9192_S8192x2_S8192_n_01_01_1.scatterDimsToOperandDims := by decide
  have hm1 : (1 : Fin 2) ∈ scatter_S8192x9192_S8192x2_S8192_n_01_01_1.scatterDimsToOperandDims := by decide
  have hsi : ∀ (c : Fin scatter_S8192x9192_S8192x2_S8192_n_01_01_1.scatterDimsToOperandDims.length) (c' : Fin 2), c.val = c'.val →
      scatter_S8192x9192_S8192x2_S8192_n_01_01_1.siIdx (ix1 u) c = ix2 u c' := by
    intro c c' hc
    funext b
    match b with
    | ⟨0, _⟩ =>
      unfold ScatterDims.siIdx
      rw [dif_neg (by rw [hiv]; simp)]
      unfold ScatterDims.siCoord
      apply Fin.ext
      simp only [Fin.val_cast]
      have e : ∀ X : Fin 1, ((ix1 u : S8192.Idx) X).val = u.val := fun X => by
        have hX : X = 0 := Subsingleton.elim _ _
        subst hX; rfl
      exact e _
    | ⟨1, _⟩ =>
      unfold ScatterDims.siIdx
      rw [dif_pos (by rw [hiv])]
      apply Fin.ext
      exact hc
  have hs0 : scatter_S8192x9192_S8192x2_S8192_n_01_01_1.start (ix1 u) idx 0 = (idx (ix2 u (0 : Fin 2))).toInt := by
    unfold ScatterDims.start
    rw [dif_pos hm0, hsi _ (0 : Fin 2) (by show List.idxOf (0 : Fin 2) scatter_S8192x9192_S8192x2_S8192_n_01_01_1.scatterDimsToOperandDims = 0; decide)]
  have hs1 : scatter_S8192x9192_S8192x2_S8192_n_01_01_1.start (ix1 u) idx 1 = (idx (ix2 u (1 : Fin 2))).toInt := by
    unfold ScatterDims.start
    rw [dif_pos hm1, hsi _ (1 : Fin 2) (by show List.idxOf (1 : Fin 2) scatter_S8192x9192_S8192x2_S8192_n_01_01_1.scatterDimsToOperandDims = 1; decide)]
  have hw : ∀ a, scatter_S8192x9192_S8192x2_S8192_n_01_01_1.window (ix1 u) a = 0 := by
    intro a
    unfold ScatterDims.window
    rw [dif_neg (by revert a; decide)]
  have hi : i.val < 8192 := i.isLt
  have hj : j.val < 9192 := j.isLt
  unfold ScatterDims.resultIdx?
  by_cases h : ∀ a, 0 ≤ scatter_S8192x9192_S8192x2_S8192_n_01_01_1.start (ix1 u) idx a + scatter_S8192x9192_S8192x2_S8192_n_01_01_1.window (ix1 u) a
      ∧ scatter_S8192x9192_S8192x2_S8192_n_01_01_1.start (ix1 u) idx a + scatter_S8192x9192_S8192x2_S8192_n_01_01_1.window (ix1 u) a < S8192x9192.size a
  · rw [dif_pos h]
    have h0 := h 0
    have h1 := h 1
    rw [hs0, hw] at h0
    rw [hs1, hw] at h1
    constructor
    · intro e
      have e0 := congrArg (fun q : S8192x9192.Idx => (q 0).val) (Option.some.inj e)
      have e1 := congrArg (fun q : S8192x9192.Idx => (q 1).val) (Option.some.inj e)
      simp only [hs0, hs1, hw] at e0 e1
      have e0' : ((idx (ix2 u (0 : Fin 2))).toInt + ((0 : Nat) : Int)).toNat = i.val := e0
      have e1' : ((idx (ix2 u (1 : Fin 2))).toInt + ((0 : Nat) : Int)).toNat = j.val := e1
      omega
    · rintro ⟨e0, e1⟩
      congr 1
      funext a
      match a with
      | ⟨0, _⟩ =>
        apply Fin.ext
        show (scatter_S8192x9192_S8192x2_S8192_n_01_01_1.start (ix1 u) idx 0 + (scatter_S8192x9192_S8192x2_S8192_n_01_01_1.window (ix1 u) 0 : Nat)).toNat = i.val
        rw [hs0, hw, e0]; simp
      | ⟨1, _⟩ =>
        apply Fin.ext
        show (scatter_S8192x9192_S8192x2_S8192_n_01_01_1.start (ix1 u) idx 1 + (scatter_S8192x9192_S8192x2_S8192_n_01_01_1.window (ix1 u) 1 : Nat)).toNat = j.val
        rw [hs1, hw, e1]; simp
  · rw [dif_neg h]
    constructor
    · intro e; cases e
    · rintro ⟨e0, e1⟩
      exfalso
      apply h
      intro a
      match a with
      | ⟨0, _⟩ =>
        show 0 ≤ scatter_S8192x9192_S8192x2_S8192_n_01_01_1.start (ix1 u) idx 0 + (scatter_S8192x9192_S8192x2_S8192_n_01_01_1.window (ix1 u) 0 : Nat)
          ∧ scatter_S8192x9192_S8192x2_S8192_n_01_01_1.start (ix1 u) idx 0 + (scatter_S8192x9192_S8192x2_S8192_n_01_01_1.window (ix1 u) 0 : Nat) < 8192
        rw [hs0, hw, e0]; omega
      | ⟨1, _⟩ =>
        show 0 ≤ scatter_S8192x9192_S8192x2_S8192_n_01_01_1.start (ix1 u) idx 1 + (scatter_S8192x9192_S8192x2_S8192_n_01_01_1.window (ix1 u) 1 : Nat)
          ∧ scatter_S8192x9192_S8192x2_S8192_n_01_01_1.start (ix1 u) idx 1 + (scatter_S8192x9192_S8192x2_S8192_n_01_01_1.window (ix1 u) 1 : Nat) < 9192
        rw [hs1, hw, e1]; omega

/-- The two index columns of the diagonal scatter at row `u`: both are the row number. -/
theorem v32_at0 (u : Fin 8192) : val_main_v32 (F := Ideal) (ix2 u (0 : Fin 2)) = BitVec.ofNat 32 u.val := by
  unfold val_main_v32
  rw [concatenate_pair_apply_left (1 : Fin 2) (val_main_v30 (F := Ideal)) (val_main_v31 (F := Ideal))
      concatenates_S8192x1_S8192x1_S8192x2_d1 (ix2 u (0 : Fin 2)) rfl (ix2 u (0 : Fin 1))
      (fun b => by match b with | ⟨0, _⟩ => rfl | ⟨1, _⟩ => rfl),
    val_main_v30_apply, show idx_main_v30 (ix2 u (0 : Fin 1)) = ix1 u from
      funext fun a => by match a with | ⟨0, _⟩ => rfl]
  exact v24_at u

theorem v32_at1 (u : Fin 8192) : val_main_v32 (F := Ideal) (ix2 u (1 : Fin 2)) = BitVec.ofNat 32 u.val := by
  unfold val_main_v32
  rw [concatenate_pair_apply_right (1 : Fin 2) (val_main_v30 (F := Ideal)) (val_main_v31 (F := Ideal))
      concatenates_S8192x1_S8192x1_S8192x2_d1 (ix2 u (1 : Fin 2)) rfl rfl (ix2 u (0 : Fin 1))
      (fun b hb => by
        match b with
        | ⟨0, _⟩ => rfl
        | ⟨1, _⟩ => exact absurd rfl hb)
      (by show 0 + 1 = 1; rfl),
    val_main_v31_apply, show idx_main_v31 (ix2 u (0 : Fin 1)) = ix1 u from
      funext fun a => by match a with | ⟨0, _⟩ => rfl]
  exact v29_at u

/-- The diagonal mask: one off the row's own column, zero on it. -/
theorem v34_at (i : Fin 8192) (j : Fin 9192) :
    val_main_v34 (F := Ideal) (ix2 i j) = ((Cert.Spec.lm i j : ℝ) : EReal) := by
  have hx : ∀ q, val_main_v17 (F := Ideal) q = ((1 : ℝ) : EReal) := fun q => by
    rw [val_main_v17_apply, val_main_cst_2_apply, Ideal.ofBits_def, ofBits_one]
  have hu : ∀ q, val_main_v33 (F := Ideal) q = ((0 : ℝ) : EReal) := fun q => by
    rw [val_main_v33_apply, val_main_cst_7_apply, Ideal.ofBits_def, ofBits_zero]
  have hland : ∀ u : Fin 8192,
      scatter_S8192x9192_S8192x2_S8192_n_01_01_1.resultIdx? (ix1 u) (val_main_v32 (F := Ideal)) = some (ix2 i j)
        ↔ u.val = i.val ∧ u.val = j.val := by
    intro u
    have hu' := u.isLt
    rw [diag_resultIdx_iff, v32_at0, v32_at1, StableHlo.Predicate.toInt_ofNat_small _ (by omega)]
    constructor
    · rintro ⟨a, b⟩; exact ⟨by exact_mod_cast a, by exact_mod_cast b⟩
    · rintro ⟨a, b⟩; exact ⟨by exact_mod_cast a, by exact_mod_cast b⟩
  unfold val_main_v34 Host.scatter
  refine (foldl_set_const (List.finRange S8192.numel)
    (fun n => scatter_S8192x9192_S8192x2_S8192_n_01_01_1.resultIdx? (S8192.rowMajor.symm n) (val_main_v32 (F := Ideal)))
    ((0 : ℝ) : EReal) _ ?_ ?_ _ (ix2 i j)).trans ?_
  · intro r n q hq i'
    have hq' : scatter_S8192x9192_S8192x2_S8192_n_01_01_1.resultIdx? (S8192.rowMajor.symm n) (val_main_v32 (F := Ideal)) = some q := hq
    rw [hq']
    show (if i' = q then val_main_v33 (F := Ideal) _ else r i') = _
    rw [hu]
  · intro r n hq
    have hq' : scatter_S8192x9192_S8192x2_S8192_n_01_01_1.resultIdx? (S8192.rowMajor.symm n) (val_main_v32 (F := Ideal)) = none := hq
    rw [hq']
  · rw [hx]
    unfold Cert.Spec.lm
    by_cases hji : j.val = i.val
    · rw [if_pos hji, if_pos]
      refine ⟨S8192.rowMajor (ix1 i), List.mem_finRange _, ?_⟩
      rw [Equiv.symm_apply_apply]
      exact (hland i).mpr ⟨rfl, hji.symm⟩
    · rw [if_neg hji, if_neg]
      rintro ⟨n, _, e⟩
      obtain ⟨u, hu'⟩ : ∃ u : Fin 8192, S8192.rowMajor.symm n = ix1 u := ⟨_, eq_ix1 _⟩
      rw [hu'] at e
      obtain ⟨h1, h2⟩ := (hland u).mp e
      exact hji (h2.symm.trans h1)

/-! ## The features, the logits and the row maximum -/

/-- The concatenated features at column `j`: the batch row, then the centres. -/
theorem v36_at (h0 : ∀ k d, (x0 : S1000x128.Idx → EReal) (ix2 k d) = ((cn k d : ℝ) : EReal))
    (h1 : ∀ b d, (x1 : S8192x128.Idx → EReal) (ix2 b d) = ((f b d : ℝ) : EReal)) (j : Fin 9192) (d : Fin 128) :
    val_main_v36 (F := Ideal) x0 x1 (ix2 j d) = ((Cert.Spec.fall f cn j d : ℝ) : EReal) := by
  unfold val_main_v36 Cert.Spec.fall
  by_cases h : j.val < 8192
  · rw [dif_pos h,
      concatenate_pair_apply_left (0 : Fin 2) x1 x0 concatenates_S8192x128_S1000x128_S9192x128_d0 (ix2 j d) rfl
        (ix2 ⟨j.val, h⟩ d) (fun b => by match b with | ⟨0, _⟩ => rfl | ⟨1, _⟩ => rfl)]
    exact h1 _ _
  · have hj := j.isLt
    rw [dif_neg h,
      concatenate_pair_apply_right (0 : Fin 2) x1 x0 concatenates_S8192x128_S1000x128_S9192x128_d0 (ix2 j d) rfl rfl
        (ix2 ⟨j.val - 8192, by omega⟩ d)
        (fun b hb => by
          match b with
          | ⟨0, _⟩ => exact absurd rfl hb
          | ⟨1, _⟩ => rfl)
        (by show j.val - 8192 + 8192 = j.val; omega)]
    exact h0 _ _

/-- The inner products: row `i` with column `j`. -/
theorem v38_at (h0 : ∀ k d, (x0 : S1000x128.Idx → EReal) (ix2 k d) = ((cn k d : ℝ) : EReal))
    (h1 : ∀ b d, (x1 : S8192x128.Idx → EReal) (ix2 b d) = ((f b d : ℝ) : EReal)) (i : Fin 8192) (j : Fin 9192) :
    val_main_v38 (F := Ideal) x0 x1 (ix2 i j) = ((Cert.Spec.dot f cn i j : ℝ) : EReal) := by
  rw [val_main_v38_apply]
  unfold Cert.Spec.dot
  rw [← coe_sum]
  refine Finset.sum_congr rfl fun k _ => ?_
  rw [show lidx_main_v38 (ix2 i j) k = ix2 i k from funext fun a => by match a with | ⟨0, _⟩ => rfl | ⟨1, _⟩ => rfl,
    show ridx_main_v38 (ix2 i j) k = ix2 k j from funext fun a => by match a with | ⟨0, _⟩ => rfl | ⟨1, _⟩ => rfl,
    val_main_v37_apply,
    show idx_main_v37 (ix2 k j) = ix2 j k from funext fun a => by match a with | ⟨0, _⟩ => rfl | ⟨1, _⟩ => rfl,
    v36_at x0 x1 f cn h0 h1, h1, EReal.coe_mul]

/-- The logits: the inner product over the temperature. -/
theorem v40_at (h0 : ∀ k d, (x0 : S1000x128.Idx → EReal) (ix2 k d) = ((cn k d : ℝ) : EReal))
    (h1 : ∀ b d, (x1 : S8192x128.Idx → EReal) (ix2 b d) = ((f b d : ℝ) : EReal)) (i : Fin 8192) (j : Fin 9192) :
    val_main_v40 (F := Ideal) x0 x1 (ix2 i j) = ((Cert.Spec.L f cn i j : ℝ) : EReal) := by
  rw [val_main_v40_apply, v38_at x0 x1 f cn h0 h1, val_main_v39_apply, val_main_cst_8_apply, Ideal.ofBits_def, ofBits_c01,
    Ideal.hostDivf_def, div_coe_coe _ _ (ne_of_gt Cert.Spec.c01_pos)]
  rfl

/-- The row maximum. -/
theorem v41_at (h0 : ∀ k d, (x0 : S1000x128.Idx → EReal) (ix2 k d) = ((cn k d : ℝ) : EReal))
    (h1 : ∀ b d, (x1 : S8192x128.Idx → EReal) (ix2 b d) = ((f b d : ℝ) : EReal)) (i : Fin 8192) :
    val_main_v41 (F := Ideal) x0 x1 (ix1 i) = ((Cert.Spec.mx f cn i : ℝ) : EReal) := by
  unfold val_main_v41
  have hR : S8192x9192.Reduces [1] S8192 := by decide
  rw [Host.reduce_eq_fold_single FloatOps.maximumf _ _ reducesTo_S8192x9192_S8192_d1 hR h_S_ (ix1 i)]
  have hl : ∀ k : Fin 9192, (hR.lift (ix1 i) k : S8192x9192.Idx) = ix2 i k := fun k =>
    funext fun a => by
      match a with
      | ⟨0, _⟩ => exact Fin.ext rfl
      | ⟨1, _⟩ => exact Fin.ext rfl
  have hfun : (val_main_v40 (F := Ideal) x0 x1 ∘ hR.lift (ix1 i))
      = fun k : Fin 9192 => ((Cert.Spec.L f cn i k : ℝ) : EReal) :=
    funext fun (k : Fin 9192) => by
      show val_main_v40 (F := Ideal) x0 x1 (hR.lift (ix1 i) k) = _
      rw [hl k, v40_at x0 x1 f cn h0 h1]
  rw [hfun, val_main_cst_9_apply, Ideal.ofBits_def, ofBits_bot]
  show Finset.fold max (⊥ : EReal) (fun k : Fin 9192 => ((Cert.Spec.L f cn i k : ℝ) : EReal)) (Finset.univ : Finset (Fin 9192)) = _
  exact fold_max_coe Finset.univ Finset.univ_nonempty (fun k => Cert.Spec.L f cn i k)

/-! ## The positive mask -/

/-- The comparison of labels, as a float: one where column `j` has row `i`'s class. -/
theorem v16_at (h2 : ∀ b, (x2 : S8192.Idx → BitVec 32) (ix1 b) = BitVec.ofNat 32 (t b).val) (i : Fin 8192) (j : Fin 9192) :
    val_main_v16 (F := Ideal) x2 (ix2 i j) = (((if Cert.Spec.tall t j = t i then 1 else 0 : ℝ)) : EReal) := by
  have e13 : val_main_v13 (F := Ideal) x2 (ix2 i j) = BitVec.ofNat 32 (t i).val := by
    rw [val_main_v13_apply, val_main_v11_apply,
      show idx_main_v11 (idx_main_v13 (ix2 i j)) = ix1 i from funext fun a => by match a with | ⟨0, _⟩ => rfl]
    exact h2 i
  have e14 : val_main_v14 (F := Ideal) x2 (ix2 i j) = BitVec.ofNat 32 (Cert.Spec.tall t j).val := by
    rw [val_main_v14_apply, val_main_v12_apply,
      show idx_main_v12 (idx_main_v14 (ix2 i j)) = ix1 j from funext fun a => by match a with | ⟨0, _⟩ => rfl]
    exact v1_at x2 t h2 j
  rw [val_main_v16_apply, val_main_v15_apply, e13, e14]
  have h1 := (t i).isLt
  have h2' := (Cert.Spec.tall t j).isLt
  by_cases heq : Cert.Spec.tall t j = t i
  · rw [if_pos heq, heq, StableHlo.Predicate.cmpi_eq_iff.mpr rfl]
    show (((1#1 : BitVec 1).toNat : ℝ) : EReal) = _
    norm_num
  · rw [if_neg heq]
    have hne : ¬ IntOp.cmpi .eq (BitVec.ofNat 32 (t i).val) (BitVec.ofNat 32 (Cert.Spec.tall t j).val) = 1#1 := by
      intro h
      have h' := congrArg BitVec.toNat (StableHlo.Predicate.cmpi_eq_iff.mp h)
      simp only [BitVec.toNat_ofNat] at h'
      apply heq
      apply Fin.ext
      omega
    rw [eq_zero_of_ne_one hne]
    show (((0#1 : BitVec 1).toNat : ℝ) : EReal) = _
    norm_num

/-- The positive mask: same class, not the row itself. -/
theorem v35_at (h2 : ∀ b, (x2 : S8192.Idx → BitVec 32) (ix1 b) = BitVec.ofNat 32 (t b).val) (i : Fin 8192) (j : Fin 9192) :
    val_main_v35 (F := Ideal) x2 (ix2 i j) = ((Cert.Spec.M t i j : ℝ) : EReal) := by
  rw [val_main_v35_apply, v16_at x2 t h2, v34_at, Ideal.mulf_def, ← EReal.coe_mul]
  rfl

/-! ## The row, stage by stage -/

/-- The shifted logits. -/
theorem v44_at (h0 : ∀ k d, (x0 : S1000x128.Idx → EReal) (ix2 k d) = ((cn k d : ℝ) : EReal))
    (h1 : ∀ b d, (x1 : S8192x128.Idx → EReal) (ix2 b d) = ((f b d : ℝ) : EReal)) (i : Fin 8192) (j : Fin 9192) :
    val_main_v44 (F := Ideal) x0 x1 (ix2 i j) = ((Cert.Spec.L f cn i j - Cert.Spec.mx f cn i : ℝ) : EReal) := by
  rw [val_main_v44_apply, v40_at x0 x1 f cn h0 h1, val_main_v43_apply, val_main_v42_apply,
    show idx_main_v42 (idx_main_v43 (ix2 i j)) = ix1 i from funext fun a => by match a with | ⟨0, _⟩ => rfl,
    v41_at x0 x1 f cn h0 h1, Ideal.subf_def, ← EReal.coe_sub]

/-- The shifted exponentials, off the diagonal. -/
theorem v46_at (h0 : ∀ k d, (x0 : S1000x128.Idx → EReal) (ix2 k d) = ((cn k d : ℝ) : EReal))
    (h1 : ∀ b d, (x1 : S8192x128.Idx → EReal) (ix2 b d) = ((f b d : ℝ) : EReal)) (i : Fin 8192) (j : Fin 9192) :
    val_main_v46 (F := Ideal) x0 x1 (ix2 i j)
      = ((Real.exp (Cert.Spec.L f cn i j - Cert.Spec.mx f cn i) * Cert.Spec.lm i j : ℝ) : EReal) := by
  rw [val_main_v46_apply, val_main_v45_apply, v44_at x0 x1 f cn h0 h1, Ideal.hostUnary_exp_def, Ideal.exp_coe, v34_at,
    Ideal.mulf_def, ← EReal.coe_mul]

/-- The weights: the column's class count, one less on a positive column. -/
theorem v56_at (h2 : ∀ b, (x2 : S8192.Idx → BitVec 32) (ix1 b) = BitVec.ofNat 32 (t b).val) (i : Fin 8192) (j : Fin 9192) :
    val_main_v56 (F := Ideal) x2 (ix2 i j)
      = ((Cert.Spec.cls t (Cert.Spec.tall t j) - Cert.Spec.M t i j : ℝ) : EReal) := by
  rw [val_main_v56_apply, val_main_v55_apply, val_main_v54_apply,
    show idx_main_v54 (idx_main_v55 (ix2 i j)) = ix1 j from funext fun a => by match a with | ⟨0, _⟩ => rfl,
    v53_at x2 t h2, v35_at x2 t h2, Ideal.subf_def, ← EReal.coe_sub]

/-- One term of the weighted sum. -/
theorem v57_at (h0 : ∀ k d, (x0 : S1000x128.Idx → EReal) (ix2 k d) = ((cn k d : ℝ) : EReal))
    (h1 : ∀ b d, (x1 : S8192x128.Idx → EReal) (ix2 b d) = ((f b d : ℝ) : EReal))
    (h2 : ∀ b, (x2 : S8192.Idx → BitVec 32) (ix1 b) = BitVec.ofNat 32 (t b).val) (i : Fin 8192) (j : Fin 9192) :
    val_main_v57 (F := Ideal) x0 x1 x2 (ix2 i j)
      = ((Real.exp (Cert.Spec.L f cn i j - Cert.Spec.mx f cn i) * Cert.Spec.lm i j
          / (Cert.Spec.cls t (Cert.Spec.tall t j) - Cert.Spec.M t i j) : ℝ) : EReal) := by
  have hw := (Cert.Spec.facts f cn t i).weight_ge_one j
  rw [val_main_v57_apply, v46_at x0 x1 f cn h0 h1, v56_at x2 t h2, Ideal.hostDivf_def,
    div_coe_coe _ _ (by linarith)]

/-- The weighted sum of the shifted exponentials. -/
theorem v58_at (h0 : ∀ k d, (x0 : S1000x128.Idx → EReal) (ix2 k d) = ((cn k d : ℝ) : EReal))
    (h1 : ∀ b d, (x1 : S8192x128.Idx → EReal) (ix2 b d) = ((f b d : ℝ) : EReal))
    (h2 : ∀ b, (x2 : S8192.Idx → BitVec 32) (ix1 b) = BitVec.ofNat 32 (t b).val) (i : Fin 8192) :
    val_main_v58 (F := Ideal) x0 x1 x2 (ix1 i) = ((Cert.Spec.E f cn t i : ℝ) : EReal) := by
  rw [val_main_v58_apply, val_main_cst_12_apply, Ideal.ofBits_def, ofBits_zero]
  unfold Cert.Spec.E
  rw [← coe_sum, EReal.coe_zero, zero_add]
  refine Finset.sum_congr rfl fun k _ => ?_
  rw [show idx_main_v58 (ix1 i) k = ix2 i k from funext fun a => by match a with | ⟨0, _⟩ => rfl | ⟨1, _⟩ => rfl,
    v57_at x0 x1 x2 f cn t h0 h1 h2]

/-- The log-probabilities. -/
theorem v62_at (h0 : ∀ k d, (x0 : S1000x128.Idx → EReal) (ix2 k d) = ((cn k d : ℝ) : EReal))
    (h1 : ∀ b d, (x1 : S8192x128.Idx → EReal) (ix2 b d) = ((f b d : ℝ) : EReal))
    (h2 : ∀ b, (x2 : S8192.Idx → BitVec 32) (ix1 b) = BitVec.ofNat 32 (t b).val) (i : Fin 8192) (j : Fin 9192) :
    val_main_v62 (F := Ideal) x0 x1 x2 (ix2 i j)
      = (((Cert.Spec.L f cn i j - Cert.Spec.mx f cn i) - Real.log (Cert.Spec.E f cn t i) : ℝ) : EReal) := by
  have hE := (Cert.Spec.facts f cn t i).E_pos
  rw [val_main_v62_apply, v44_at x0 x1 f cn h0 h1, val_main_v61_apply, val_main_v60_apply, val_main_v59_apply,
    show idx_main_v59 (idx_main_v61 (ix2 i j)) = ix1 i from funext fun a => by match a with | ⟨0, _⟩ => rfl,
    v58_at x0 x1 x2 f cn t h0 h1 h2, Ideal.hostUnary_log_def, log_coe_pos _ hE, Ideal.subf_def, ← EReal.coe_sub]

/-- The masked log-probabilities. -/
theorem v63_at (h0 : ∀ k d, (x0 : S1000x128.Idx → EReal) (ix2 k d) = ((cn k d : ℝ) : EReal))
    (h1 : ∀ b d, (x1 : S8192x128.Idx → EReal) (ix2 b d) = ((f b d : ℝ) : EReal))
    (h2 : ∀ b, (x2 : S8192.Idx → BitVec 32) (ix1 b) = BitVec.ofNat 32 (t b).val) (i : Fin 8192) (j : Fin 9192) :
    val_main_v63 (F := Ideal) x0 x1 x2 (ix2 i j)
      = ((Cert.Spec.M t i j * ((Cert.Spec.L f cn i j - Cert.Spec.mx f cn i) - Real.log (Cert.Spec.E f cn t i)) : ℝ) : EReal) := by
  rw [val_main_v63_apply, v35_at x2 t h2, v62_at x0 x1 x2 f cn t h0 h1 h2, Ideal.mulf_def, ← EReal.coe_mul]

/-- The row's loss. -/
theorem v66_at (h0 : ∀ k d, (x0 : S1000x128.Idx → EReal) (ix2 k d) = ((cn k d : ℝ) : EReal))
    (h1 : ∀ b d, (x1 : S8192x128.Idx → EReal) (ix2 b d) = ((f b d : ℝ) : EReal))
    (h2 : ∀ b, (x2 : S8192.Idx → BitVec 32) (ix1 b) = BitVec.ofNat 32 (t b).val) (i : Fin 8192) :
    val_main_v66 (F := Ideal) x0 x1 x2 (ix1 i) = ((Cert.Spec.rowR f cn t i : ℝ) : EReal) := by
  have hcnt := (Cert.Spec.facts f cn t i).cnt
  have hown := (Cert.Spec.facts f cn t i).own_ge_two
  have e64 : val_main_v64 (F := Ideal) x0 x1 x2 (ix1 i)
      = ((∑ j : Fin 9192, Cert.Spec.M t i j * ((Cert.Spec.L f cn i j - Cert.Spec.mx f cn i) - Real.log (Cert.Spec.E f cn t i)) : ℝ) : EReal) := by
    rw [val_main_v64_apply, val_main_cst_13_apply, Ideal.ofBits_def, ofBits_zero, ← coe_sum, EReal.coe_zero, zero_add]
    refine Finset.sum_congr rfl fun k _ => ?_
    rw [show idx_main_v64 (ix1 i) k = ix2 i k from funext fun a => by match a with | ⟨0, _⟩ => rfl | ⟨1, _⟩ => rfl,
      v63_at x0 x1 x2 f cn t h0 h1 h2]
  have e65 : val_main_v65 (F := Ideal) x2 (ix1 i) = ((∑ j : Fin 9192, Cert.Spec.M t i j : ℝ) : EReal) := by
    rw [val_main_v65_apply, val_main_cst_14_apply, Ideal.ofBits_def, ofBits_zero, ← coe_sum, EReal.coe_zero, zero_add]
    refine Finset.sum_congr rfl fun k _ => ?_
    rw [show idx_main_v65 (ix1 i) k = ix2 i k from funext fun a => by match a with | ⟨0, _⟩ => rfl | ⟨1, _⟩ => rfl,
      v35_at x2 t h2]
  rw [val_main_v66_apply, e64, e65, Ideal.hostDivf_def, div_coe_coe _ _ (by rw [hcnt]; linarith)]
  rfl

end Stages

/-! ## The mean over the rows, negated -/

/-- The rank-one indices are their coordinate. -/
def idxEquiv1 : S8192.Idx ≃ Fin 8192 where
  toFun j := j 0
  invFun i := ix1 i
  left_inv j := (eq_ix1 j).symm
  right_inv _ := rfl

/-- The reference's result: minus the mean of the rows' losses. -/
theorem result_eq (x0 : (⟨S1000x128, .f32⟩ : BufTy).Contents (Elt Ideal)) (x1 : (⟨S8192x128, .f32⟩ : BufTy).Contents (Elt Ideal))
    (x2 : (⟨S8192, .i32⟩ : BufTy).Contents (Elt Ideal))
    (f : Fin 8192 → Fin 128 → ℝ) (cn : Fin 1000 → Fin 128 → ℝ) (t : Fin 8192 → Fin 1000)
    (h0 : ∀ k d, (x0 : S1000x128.Idx → EReal) (ix2 k d) = ((cn k d : ℝ) : EReal))
    (h1 : ∀ b d, (x1 : S8192x128.Idx → EReal) (ix2 b d) = ((f b d : ℝ) : EReal))
    (h2 : ∀ b, (x2 : S8192.Idx → BitVec 32) (ix1 b) = BitVec.ofNat 32 (t b).val) :
    Cert.ReferenceIdeal.Read.val_main_v69 (F := Ideal) x0 x1 x2
      = fun _ => (((-((∑ i : Fin 8192, Cert.Spec.rowR f cn t i) / 8192) : ℝ)) : EReal) := by
  funext q
  have e67 : val_main_v67 (F := Ideal) x0 x1 x2 q = ((∑ i : Fin 8192, Cert.Spec.rowR f cn t i : ℝ) : EReal) := by
    rw [val_main_v67_apply, val_main_cst_15_apply, Ideal.ofBits_def, ofBits_zero, ← coe_sum, EReal.coe_zero, zero_add]
    refine Fintype.sum_equiv idxEquiv1 _ _ fun j => ?_
    rw [eq_ix1 j]
    exact v66_at x0 x1 x2 f cn t h0 h1 h2 (j 0)
  rw [val_main_v69_apply, val_main_v68_apply, e67, val_main_cst_16_apply, Ideal.ofBits_def, ofBits_8192,
    Ideal.hostDivf_def, div_coe_coe _ _ (by norm_num), Ideal.hostNegf_def, Ideal.negf_def, ← EReal.coe_neg]

end Cert.ReferenceIdeal.RefValue

end
-- ==== Proof.lean ====
/-
  The certificate of the class-balanced supervised-contrastive loss kernel against its column-by-column reference.

  Three frames: the word-level kernel program and its reading over the extended reals run to the end, fault nowhere
  and leave their three argument arrays as launched (one launch of the kernel's body over 64 row tiles between two
  stretches of host operations); the reference is a straight line of host operations.
  The idealization names one constant: the kernel's literal 10 is read as the exact reciprocal 134217728 / 13421773
  of the temperature word the reference divides by.
  The value: under finite features and centres and labels in range, both programs end with minus the mean over the
  8192 rows of the row loss. The reference computes a row's loss column by column (the mean over the positive
  columns of logit - max - log of the weighted sum of shifted exponentials); the kernel reads the positive logits'
  mean off per-class feature sums, multiplies the weights in as reciprocals picked from two tables, and shifts by
  the maximum over its padded column range, which is the same maximum because a row's own logit is non-negative.
  The two row losses are one real number.
-/
import proofs.«428374_j30889404793116_3_alg».proof.Defs
import proofs.«428374_j30889404793116_3_alg».proof.Proof.Gen.Kernel
import proofs.«428374_j30889404793116_3_alg».proof.Proof.Gen.KernelIdeal
import proofs.«428374_j30889404793116_3_alg».proof.Proof.Gen.ReferenceIdeal
import proofs.«428374_j30889404793116_3_alg».proof.Proof.Gen.Pre_finite_inputs
import proofs.«428374_j30889404793116_3_alg».proof.Proof.Gen.ReferenceIdeal.Run
import proofs.«428374_j30889404793116_3_alg».proof.Proof.Gen.ReferenceIdeal.Read
import proofs.«428374_j30889404793116_3_alg».proof.Proof.KFrame
import proofs.«428374_j30889404793116_3_alg».proof.Proof.KIFrame
import proofs.«428374_j30889404793116_3_alg».proof.Proof.SpecRow
import proofs.«428374_j30889404793116_3_alg».proof.Proof.PreDecode
import proofs.«428374_j30889404793116_3_alg».proof.Proof.KOutVal
import proofs.«428374_j30889404793116_3_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.HFrame.frame m ρ

theorem frame_ki : Cert.frame_KernelIdeal (hKernelIdeal := Cert.KernelIdeal.Gen.facts) (hPre_finite_inputs := Cert.Pre_finite_inputs.Gen.facts) :=
  fun m ρ _ => Cert.KernelIdeal.HFrame.frame m ρ

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one named constant: the table gives the kernel's literal 10 the exact reciprocal of the temperature word. -/
theorem preserves : Cert.preserves_Kernel_KernelIdeal :=
  IdealRules.named_const.statement Cert.KernelIdeal.κ "inv_temperature" .f32 0x41200000#32 ((134217728 / 13421773 : ℝ) : EReal) rfl

/-- Both idealized programs, from memories agreeing on the arguments, end at minus the mean row loss. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have D : ∀ c : Dev Cert.KernelIdeal.nD, Cert.PreDecode.Decoded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => Classical.choice (Cert.PreDecode.decode _ _ _ (hpre c))
  refine ⟨fun c => fun _ => (((-((∑ i : Fin 8192, Cert.Spec.rowR (D c).f (D c).cn (D c).t i) / 8192) : ℝ)) : EReal), ?_, ?_⟩
  · refine (θ_run Cert.KernelIdeal.defs _ _).mono (fun r h c => ⟨?_, ?_, ?_, ?_⟩) (Cert.KernelIdeal.HFrame.run_main (F := Ideal) m ρ)
    · refine ((h c).2 Cert.KernelIdeal.main_v77 (Pipeline.mem_restRefs_of Cert.KernelIdeal.main_v77 (by decide) (by decide))).trans ?_
      refine (Cert.KernelIdeal.OutVal.kernel_result m c (D c).f (D c).cn (D c).t ⟨(D c).h0, (D c).h1, (D c).h2⟩).trans ?_
      simp only [Cert.Spec.rowK_eq_rowR]
    · exact ((h c).2 Cert.KernelIdeal.main_arg0 (Pipeline.mem_restRefs_of Cert.KernelIdeal.main_arg0 (by decide) (by decide))).trans (Cert.KernelIdeal.HFrame.W_main_arg0 m (Cert.KernelIdeal.HFrame.dats m) c)
    · exact ((h c).2 Cert.KernelIdeal.main_arg1 (Pipeline.mem_restRefs_of Cert.KernelIdeal.main_arg1 (by decide) (by decide))).trans (Cert.KernelIdeal.HFrame.W_main_arg1 m (Cert.KernelIdeal.HFrame.dats m) c)
    · exact ((h c).2 Cert.KernelIdeal.main_arg2 (Pipeline.mem_restRefs_of Cert.KernelIdeal.main_arg2 (by decide) (by decide))).trans (Cert.KernelIdeal.HFrame.W_main_arg2 m (Cert.KernelIdeal.HFrame.dats m) c)
  · refine (θ_run Cert.ReferenceIdeal.defs _ _).mono (fun r h c => ⟨?_, (h c).2⟩) (Cert.ReferenceIdeal.Value.run (F := Ideal) m' ρ')
    rw [(h c).1, Cert.ReferenceIdeal.Read.val_main_v69_eq, (hagree c).1, (hagree c).2.1, (hagree c).2.2]
    exact Cert.ReferenceIdeal.RefValue.result_eq _ _ _ (D c).f (D c).cn (D c).t (D c).h0 (D c).h1 (D c).h2

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
